-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S10000 : Shape := ⟨1, ![10000]⟩
abbrev S512 : Shape := ⟨1, ![512]⟩
abbrev S512x512 : Shape := ⟨2, ![512, 512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S512x512 .f32) (main_arg7 : FVec F S512 .f32) (main_arg8 : FVec F S512 .f32) (main_arg9 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_v33

def fn {F : FTy → Type} [FloatOps F] (main_arg0 : FVec F S10000x512 .f32) (main_arg1 : IVec S2x160000 32) (main_arg2 : IVec S10000 32) (main_arg3 : FVec F S512 .f32) (main_arg4 : FVec F S512 .f32) (main_arg5 : FVec F S512x512 .f32) (main_arg6 : FVec F S512x512 .f32) (main_arg7 : FVec F S512 .f32) (main_arg8 : FVec F S512 .f32) (main_arg9 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512 .f32 := Host.absf main_arg3
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_v13 main_v16
-- ==== Kernel.lean ====
abbrev S10000x512 : Shape := ⟨2, ![10000, 512]⟩
abbrev S2x160000 : Shape := ⟨2, ![2, 160000]⟩
abbrev S10000 : Shape := ⟨1, ![10000]⟩
abbrev S512 : Shape := ⟨1, ![512]⟩
abbrev S512x512 : Shape := ⟨2, ![512, 512]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000x1 : Shape := ⟨2, ![10000, 1]⟩
abbrev S256x512 : Shape := ⟨2, ![256, 512]⟩
abbrev S256x1 : Shape := ⟨2, ![256, 1]⟩
abbrev S1x256 : Shape := ⟨2, ![1, 256]⟩
abbrev S1000x256 : Shape := ⟨2, ![1000, 256]⟩

abbrev nBuf : Space → Nat
  | .hbm => 52
  | .vmem => 23
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S10000, .i32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S1x512, .f32⟩
  | .hbm, ⟨12, _⟩ => ⟨S10000x512, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .i32⟩
  | .hbm, ⟨18, _⟩ => ⟨S160000, .i32⟩
  | .hbm, ⟨19, _⟩ => ⟨S160000, .i1⟩
  | .hbm, ⟨20, _⟩ => ⟨S_, .i32⟩
  | .hbm, ⟨21, _⟩ => ⟨S160000, .i32⟩
  | .hbm, ⟨22, _⟩ => ⟨S160000, .i32⟩
  | .hbm, ⟨23, _⟩ => ⟨S160000, .i32⟩
  | .hbm, ⟨24, _⟩ => ⟨S160000x1, .i32⟩
  | .hbm, ⟨25, _⟩ => ⟨S160000x512, .f32⟩
  | .hbm, ⟨26, _⟩ => ⟨S_, .f32⟩
  | .hbm, ⟨27, _⟩ => ⟨S10000x512, .f32⟩
  | .hbm, ⟨28, _⟩ => ⟨S160000x1, .i32⟩
  | .hbm, ⟨29, _⟩ => ⟨S10000x512, .f32⟩
  | .hbm, ⟨30, _⟩ => ⟨S_, .f32⟩
  | .hbm, ⟨31, _⟩ => ⟨S160000, .f32⟩
  | .hbm, ⟨32, _⟩ => ⟨S_, .f32⟩
  | .hbm, ⟨33, _⟩ => ⟨S10000, .f32⟩
  | .hbm, ⟨34, _⟩ => ⟨S160000x1, .i32⟩
  | .hbm, ⟨35, _⟩ => ⟨S10000, .f32⟩
  | .hbm, ⟨36, _⟩ => ⟨S_, .f32⟩
  | .hbm, ⟨37, _⟩ => ⟨S10000, .f32⟩
  | .hbm, ⟨38, _⟩ => ⟨S10000, .f32⟩
  | .hbm, ⟨39, _⟩ => ⟨S10000x1, .f32⟩
  | .hbm, ⟨40, _⟩ => ⟨S10000x512, .f32⟩
  | .hbm, ⟨41, _⟩ => ⟨S10000x512, .f32⟩
  | .hbm, ⟨42, _⟩ => ⟨S512x512, .f32⟩
  | .hbm, ⟨43, _⟩ => ⟨S512x512, .bf16⟩
  | .hbm, ⟨44, _⟩ => ⟨S512x512, .f32⟩
  | .hbm, ⟨45, _⟩ => ⟨S512x512, .bf16⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S10000x512, .f32⟩
  | .hbm, ⟨50, _⟩ => ⟨S10000x1, .i32⟩
  | .hbm, ⟨51, _⟩ => ⟨S256x512, .f32⟩
  | .local _ .vmem, ⟨0, _⟩ => ⟨S1000x512, .f32⟩
  | .local _ .vmem, ⟨1, _⟩ => ⟨S1000x512, .f32⟩
  | .local _ .vmem, ⟨2, _⟩ => ⟨S1x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x1, .i32⟩
  | .local _ .vmem, ⟨20, _⟩ => ⟨S1000x1, .i32⟩
  | .local _ .vmem, ⟨21, _⟩ => ⟨S256x512, .f32⟩
  | .local _ .vmem, ⟨22, _⟩ => ⟨S256x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S512x512_S512x512_1_0 : S512x512.Transposes [1, 0] S512x512
  bitsLt_bf16_f32 : FTy.bits .bf16 < FTy.bits .f32
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S10000_S10000x1 : S10000.ShapeCasts S10000x1
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x256_d1_w32 : S1x256.Iotas .tc 32 [1]
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  broadcasts_S1x256_S1000x256 : S1x256.Broadcasts S1000x256
  natLt_1_32 : 1 < 32
  shapeCasts_S256x512_S256x512 : S256x512.ShapeCasts S256x512
  broadcasts_S256x1_S256x512 : S256x1.Broadcasts S256x512
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S1000x512_S512x512_S1000x512_1_0_0_1_n_n_wf : DotDims.WF S1000x512 S512x512 S1000x512 [1] [0] [0] [1] [] []
  dot_S1000x256_S1000x512_S256x512_0_0_1_1_n_n_wf : DotDims.WF S1000x256 S1000x512 S256x512 [0] [0] [1] [1] [] []
  dot_S1000x256_S1000x1_S256x1_0_0_1_1_n_n_wf : DotDims.WF S1000x256 S1000x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S10000x512.size a
  hwx1_1 : ∀ i : grid1.Coords, EltTy.bits .f32 = 32 ∨ (Rect.block (s := S10000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x512.size a ≤ S10000x512.size a
  hwx1_7 : ∀ i : grid1.Coords, EltTy.bits .f32 = 32 ∨ (Rect.block (s := S10000x512) S1000x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S10000x1.size a
  hwx2_1 : ∀ i : grid2.Coords, EltTy.bits .i32 = 32 ∨ (Rect.block (s := S10000x1) S1000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x512.size a ≤ S256x512.size a
  hwx2_2 : ∀ i : grid2.Coords, EltTy.bits .f32 = 32 ∨ (Rect.block (s := S256x512) S256x512.size (cc2_transform_2 i) (hinb2_2 i)).WholeWords (EltTy.packing .f32)

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x256_S1000x512_S256x512_0_0_1_1_n_n : DotDims S1000x256 S1000x512 S256x512 where
  lhsContracting := [0]
  rhsContracting := [0]
  lhsNonContracting := [1]
  rhsNonContracting := [1]
  lhsBatch := []
  rhsBatch := []
  wf := dot_S1000x256_S1000x512_S256x512_0_0_1_1_n_n_wf
def dot_S1000x256_S1000x1_S256x1_0_0_1_1_n_n : DotDims S1000x256 S1000x1 S256x1 where
  lhsContracting := [0]
  rhsContracting := [0]
  lhsNonContracting := [1]
  rhsNonContracting := [1]
  lhsBatch := []
  rhsBatch := []
  wf := dot_S1000x256_S1000x1_S256x1_0_0_1_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v33) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S256x512.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S10000 : Shape := ⟨1, ![10000]⟩
abbrev S512 : Shape := ⟨1, ![512]⟩
abbrev S512x512 : Shape := ⟨2, ![512, 512]⟩
abbrev S_ : Shape := ⟨0, ![]⟩
abbrev S10000x1 : Shape := ⟨2, ![10000, 1]⟩
abbrev S1x512 : Shape := ⟨2, ![1, 512]⟩
abbrev S1x160000 : Shape := ⟨2, ![1, 160000]⟩
abbrev S160000 : Shape := ⟨1, ![160000]⟩
abbrev S160000x1 : Shape := ⟨2, ![160000, 1]⟩
abbrev S160000x512 : Shape := ⟨2, ![160000, 512]⟩
abbrev S256x512 : Shape := ⟨2, ![256, 512]⟩
abbrev S256 : Shape := ⟨1, ![256]⟩
abbrev S256x1 : Shape := ⟨2, ![256, 1]⟩

abbrev nBuf : Space → Nat
  | .hbm => 124
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S10000, .i32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S10000, .f32⟩
  | .hbm, ⟨12, _⟩ => ⟨S10000x1, .f32⟩
  | .hbm, ⟨13, _⟩ => ⟨S_, .f32⟩
  | .hbm, ⟨14, _⟩ => ⟨S10000x1, .f32⟩
  | .hbm, ⟨15, _⟩ => ⟨S10000x1, .f32⟩
  | .hbm, ⟨16, _⟩ => ⟨S10000x512, .f32⟩
  | .hbm, ⟨17, _⟩ => ⟨S10000x512, .f32⟩
  | .hbm, ⟨18, _⟩ => ⟨S10000x512, .f32⟩
  | .hbm, ⟨19, _⟩ => ⟨S_, .f32⟩
  | .hbm, ⟨20, _⟩ => ⟨S10000, .f32⟩
  | .hbm, ⟨21, _⟩ => ⟨S10000x1, .f32⟩
  | .hbm, ⟨22, _⟩ => ⟨S_, .f32⟩
  | .hbm, ⟨23, _⟩ => ⟨S10000x1, .f32⟩
  | .hbm, ⟨24, _⟩ => ⟨S10000x1, .f32⟩
  | .hbm, ⟨25, _⟩ => ⟨S10000x512, .f32⟩
  | .hbm, ⟨26, _⟩ => ⟨S10000x512, .f32⟩
  | .hbm, ⟨27, _⟩ => ⟨S_, .f32⟩
  | .hbm, ⟨28, _⟩ => ⟨S10000x1, .f32⟩
  | .hbm, ⟨29, _⟩ => ⟨S10000x1, .f32⟩
  | .hbm, ⟨30, _⟩ => ⟨S10000x1, .f32⟩
  | .hbm, ⟨31, _⟩ => ⟨S10000x512, .f32⟩
  | .hbm, ⟨32, _⟩ => ⟨S10000x512, .f32⟩
  | .hbm, ⟨33, _⟩ => ⟨S1x512, .f32⟩
  | .hbm, ⟨34, _⟩ => ⟨S10000x512, .f32⟩
  | .hbm, ⟨35, _⟩ => ⟨S10000x512, .f32⟩
  | .hbm, ⟨36, _⟩ => ⟨S1x512, .f32⟩
  | .hbm, ⟨37, _⟩ => ⟨S10000x512, .f32⟩
  | .hbm, ⟨38, _⟩ => ⟨S10000x512, .f32⟩
  | .hbm, ⟨39, _⟩ => ⟨S1x160000, .i32⟩
  | .hbm, ⟨40, _⟩ => ⟨S160000, .i32⟩
  | .hbm, ⟨41, _⟩ => ⟨S1x160000, .i32⟩
  | .hbm, ⟨42, _⟩ => ⟨S160000, .i32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S160000x512, .f32⟩
  | .hbm, ⟨52, _⟩ => ⟨S_, .f32⟩
  | .hbm, ⟨53, _⟩ => ⟨S10000x512, .f32⟩
  | .hbm, ⟨54, _⟩ => ⟨S160000x1, .i32⟩
  | .hbm, ⟨55, _⟩ => ⟨S10000x512, .f32⟩
  | .hbm, ⟨56, _⟩ => ⟨S_, .f32⟩
  | .hbm, ⟨57, _⟩ => ⟨S160000, .f32⟩
  | .hbm, ⟨58, _⟩ => ⟨S_, .f32⟩
  | .hbm, ⟨59, _⟩ => ⟨S10000, .f32⟩
  | .hbm, ⟨60, _⟩ => ⟨S160000x1, .i32⟩
  | .hbm, ⟨61, _⟩ => ⟨S10000, .f32⟩
  | .hbm, ⟨62, _⟩ => ⟨S_, .f32⟩
  | .hbm, ⟨63, _⟩ => ⟨S10000, .f32⟩
  | .hbm, ⟨64, _⟩ => ⟨S10000, .f32⟩
  | .hbm, ⟨65, _⟩ => ⟨S10000x1, .f32⟩
  | .hbm, ⟨66, _⟩ => ⟨S10000x512, .f32⟩
  | .hbm, ⟨67, _⟩ => ⟨S10000x512, .f32⟩
  | .hbm, ⟨68, _⟩ => ⟨S512x512, .f32⟩
  | .hbm, ⟨69, _⟩ => ⟨S10000x512, .f32⟩
  | .hbm, ⟨70, _⟩ => ⟨S512x512, .f32⟩
  | .hbm, ⟨71, _⟩ => ⟨S10000x512, .f32⟩
  | .hbm, ⟨72, _⟩ => ⟨S10000x512, .f32⟩
  | .hbm, ⟨73, _⟩ => ⟨S1x512, .f32⟩
  | .hbm, ⟨74, _⟩ => ⟨S10000x512, .f32⟩
  | .hbm, ⟨75, _⟩ => ⟨S10000x512, .f32⟩
  | .hbm, ⟨76, _⟩ => ⟨S_, .f32⟩
  | .hbm, ⟨77, _⟩ => ⟨S10000x512, .f32⟩
  | .hbm, ⟨78, _⟩ => ⟨S10000x512, .f32⟩
  | .hbm, ⟨79, _⟩ => ⟨S_, .f32⟩
  | .hbm, ⟨80, _⟩ => ⟨S10000, .f32⟩
  | .hbm, ⟨81, _⟩ => ⟨S10000x1, .f32⟩
  | .hbm, ⟨82, _⟩ => ⟨S_, .f32⟩
  | .hbm, ⟨83, _⟩ => ⟨S10000x1, .f32⟩
  | .hbm, ⟨84, _⟩ => ⟨S10000x1, .f32⟩
  | .hbm, ⟨85, _⟩ => ⟨S10000x512, .f32⟩
  | .hbm, ⟨86, _⟩ => ⟨S10000x512, .f32⟩
  | .hbm, ⟨87, _⟩ => ⟨S10000x512, .f32⟩
  | .hbm, ⟨88, _⟩ => ⟨S_, .f32⟩
  | .hbm, ⟨89, _⟩ => ⟨S10000, .f32⟩
  | .hbm, ⟨90, _⟩ => ⟨S10000x1, .f32⟩
  | .hbm, ⟨91, _⟩ => ⟨S_, .f32⟩
  | .hbm, ⟨92, _⟩ => ⟨S10000x1, .f32⟩
  | .hbm, ⟨93, _⟩ => ⟨S10000x1, .f32⟩
  | .hbm, ⟨94, _⟩ => ⟨S10000x512, .f32⟩
  | .hbm, ⟨95, _⟩ => ⟨S10000x512, .f32⟩
  | .hbm, ⟨96, _⟩ => ⟨S_, .f32⟩
  | .hbm, ⟨97, _⟩ => ⟨S10000x1, .f32⟩
  | .hbm, ⟨98, _⟩ => ⟨S10000x1, .f32⟩
  | .hbm, ⟨99, _⟩ => ⟨S10000x1, .f32⟩
  | .hbm, ⟨100, _⟩ => ⟨S10000x512, .f32⟩
  | .hbm, ⟨101, _⟩ => ⟨S10000x512, .f32⟩
  | .hbm, ⟨102, _⟩ => ⟨S1x512, .f32⟩
  | .hbm, ⟨103, _⟩ => ⟨S10000x512, .f32⟩
  | .hbm, ⟨104, _⟩ => ⟨S10000x512, .f32⟩
  | .hbm, ⟨105, _⟩ => ⟨S1x512, .f32⟩
  | .hbm, ⟨106, _⟩ => ⟨S10000x512, .f32⟩
  | .hbm, ⟨107, _⟩ => ⟨S10000x512, .f32⟩
  | .hbm, ⟨108, _⟩ => ⟨S_, .f32⟩
  | .hbm, ⟨109, _⟩ => ⟨S256x512, .f32⟩
  | .hbm, ⟨110, _⟩ => ⟨S10000x1, .i32⟩
  | .hbm, ⟨111, _⟩ => ⟨S256x512, .f32⟩
  | .hbm, ⟨112, _⟩ => ⟨S_, .f32⟩
  | .hbm, ⟨113, _⟩ => ⟨S10000, .f32⟩
  | .hbm, ⟨114, _⟩ => ⟨S_, .f32⟩
  | .hbm, ⟨115, _⟩ => ⟨S256, .f32⟩
  | .hbm, ⟨116, _⟩ => ⟨S10000x1, .i32⟩
  | .hbm, ⟨117, _⟩ => ⟨S256, .f32⟩
  | .hbm, ⟨118, _⟩ => ⟨S_, .f32⟩
  | .hbm, ⟨119, _⟩ => ⟨S256, .f32⟩
  | .hbm, ⟨120, _⟩ => ⟨S256, .f32⟩
  | .hbm, ⟨121, _⟩ => ⟨S256x1, .f32⟩
  | .hbm, ⟨122, _⟩ => ⟨S256x512, .f32⟩
  | .hbm, ⟨123, _⟩ => ⟨S256x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call0_cst : Ref sig .tc := ⟨.hbm, 76, rfl⟩
abbrev main_call0_v0 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_cst_12 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_14 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_15 : Ref sig .tc := ⟨.hbm, 112, rfl⟩
abbrev main_v83 : Ref sig .tc := ⟨.hbm, 113, rfl⟩
abbrev main_cst_16 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  transposes_S512x512_S512x512_1_0 : S512x512.Transposes [1, 0] S512x512
  bcast_S_S256x512 : S_.BroadcastsInDim S256x512 (![] : Fin 0 → Fin S256x512.rank)
  bcast_S_S256 : S_.BroadcastsInDim S256 (![] : Fin 0 → Fin S256.rank)
  bcast_S256_S256x1_0 : S256.BroadcastsInDim S256x1 (![0] : Fin 1 → Fin S256x1.rank)
  bcast_S256x1_S256x512_0_1 : S256x1.BroadcastsInDim S256x512 (![0, 1] : Fin 2 → Fin S256x512.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  scatter_S256x512_S10000x1_S10000x512_1_0_0_1_wf : ScatterDims.WF S256x512 S10000x1 S10000x512 [1] [0] [0] 1
  scatter_S256_S10000x1_S10000_n_0_0_1_wf : ScatterDims.WF S256 S10000x1 S10000 [] [0] [0] 1

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S256x512_S10000x1_S10000x512_1_0_0_1 : ScatterDims S256x512 S10000x1 S10000x512 where
  updateWindowDims := [1]
  insertedWindowDims := [0]
  scatterDimsToOperandDims := [0]
  indexVectorDim := 1
  wf := scatter_S256x512_S10000x1_S10000x512_1_0_0_1_wf
def scatter_S256_S10000x1_S10000_n_0_0_1 : ScatterDims S256 S10000x1 S10000 where
  updateWindowDims := []
  insertedWindowDims := [0]
  scatterDimsToOperandDims := [0]
  indexVectorDim := 1
  wf := scatter_S256_S10000x1_S10000_n_0_0_1_wf

class Facts : Prop extends Facts₀ where

variable [Facts]
-- ==== Proof.KB.Reg0.lean ====
/- Region 0 of the program: the row-wise layer normalisation kernel, at the buffer contents `V` the region is
   entered from. Each grid point loads a block of 1000 rows, the weight row and the bias row, and stores the
   normalised block whole; nothing is kept between points. -/
import proofs.«416240_j52329881534579_1_alg».proof.Proof.Gen.Kernel.Launch
import proofs.«416240_j52329881534579_1_alg».proof.Proof.Gen.Kernel.Skeleton
import proofs.«416240_j52329881534579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000×512 block and the whole 1×512 row, as rectangles. -/
abbrev r0_x : Rect S1000x512 := Rect.unit (s := S1000x512) ![0, 0] S1000x512.size inb_S1000x512_S1000x512_0_0
abbrev r0_w : Rect S1x512 := Rect.unit (s := S1x512) ![0, 0] S1x512.size inb_S1x512_S1x512_0_0

/-- What the body leaves in the output window's buffer: its one store, of the normalised block. -/
def out0_3 (x0 : Vec F S1000x512 .f32) (x1 x2 : Vec F S1x512 .f32) : Vec F S1000x512 .f32 :=
  View.canon [⟨r0_x, k0_pay1 (View.ld x0 r0_x) (View.ld x1 r0_w) (View.ld x2 r0_w)⟩]

/-- The proof data of pipeline 0 on core `c`: the arrays as the region finds them; after the body each input's buffer
    at its block and the output's at the normalised block; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer -/

/-- The block window holds its block at every point: it is fetched at each one, and an unfetched point would have
    the block index of the point before, whose block the body leaves where it found it. -/
theorem held0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight row is fetched at the first point only; its block index never moves, so every later point still finds
    the row the first point fetched, the body leaving it as found. -/
theorem held0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias row likewise. -/
theorem held0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the output block -/

/-- The single store's rectangle is the whole 1000×512 block, so every index of the block lies in it. -/
theorem whole0_3 (p : Vec F S1000x512 .f32) (y : S1000x512.Idx) :
    ∃ pc ∈ ([⟨r0_x, p⟩] : List (View.Piece (Elt F) S1000x512 .f32)), y ∈ pc.1.set :=
  View.cover_of_tiled [⟨r0_x, p⟩] S1000x512.size (by rfl) y

/-! ## The body on whole buffers -/

set_option maxHeartbeats 1000000 in
/-- Run on four whole buffers — the three inputs' reading `x0`, `x1`, `x2`, the output's reading anything — the body
    reaches its continuation with the inputs unchanged and the output reading `out0_3 x0 x1 x2`: three loads of whole
    buffers, a fourth load whose value goes nowhere, and one store over the whole output. -/
theorem ln_body0 (c : Dev nD) (E : Set ℕ) (i : grid0.Coords)
    (a0 : Memref sig .tc .vmem S1000x512 .f32) (ha0 : a0.IsWhole) (a1 : Memref sig .tc .vmem S1x512 .f32) (ha1 : a1.IsWhole)
    (a2 : Memref sig .tc .vmem S1x512 .f32) (ha2 : a2.IsWhole) (a3 : Memref sig .tc .vmem S1000x512 .f32) (ha3 : a3.IsWhole)
    (x0 : Vec F S1000x512 .f32) (x1 x2 : Vec F S1x512 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__ln_kernel i a0 ha0 a1 ha1 a2 ha2 a3 ha3) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole0_3 _)

/-! ## The body at a point of the grid -/

/-- What the body is handed at point `t`: the invariant, what is owed, and each window's current buffer. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the proof data says the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers read their blocks (`held0_w`), so the body's triple applies with those blocks;
    the invariant and the debt are not touched by the body and pass through. -/
theorem at_point0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (ln_body0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact at_point0 V c t

end Cert.Kernel.Fr

end
-- ==== Proof.KB.Reg1.lean ====
/- Region 1 of the program: the linear update, rectifier and layer normalisation kernel, at the buffer contents
   `V` the region is entered from. Each grid point loads a block of 1000 rows of the neighbour means and of the
   node features, the two transposed weight matrices, the bias row and the two normalisation rows, and stores the
   resulting block whole; nothing is kept between points. -/
import proofs.«416240_j52329881534579_1_alg».proof.Proof.Gen.Kernel.Launch
import proofs.«416240_j52329881534579_1_alg».proof.Proof.Gen.Kernel.Skeleton
import proofs.«416240_j52329881534579_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1000x512 := Rect.unit (s := S1000x512) ![0, 0] S1000x512.size inb_S1000x512_S1000x512_0_0
abbrev r1_m : Rect S512x512 := Rect.unit (s := S512x512) ![0, 0] S512x512.size inb_S512x512_S512x512_0_0
abbrev r1_w : Rect S1x512 := Rect.unit (s := S1x512) ![0, 0] S1x512.size inb_S1x512_S1x512_0_0

/-- What the body leaves in the output window's buffer: its one store. -/
def out1_7 (x0 x1 : Vec F S1000x512 .f32) (x2 x3 : Vec F S512x512 .bf16) (x4 x5 x6 : Vec F S1x512 .f32) : Vec F S1000x512 .f32 :=
  View.canon [⟨r1_x, k1_pay1 (k1_pay2 (View.ld x0 r1_x) (View.ld x1 r1_x) (View.ld x2 r1_m) (View.ld x3 r1_m) (View.ld x4 r1_w) (View.ld x5 r1_w)) (View.ld x6 r1_w)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! ## What the body finds in the input windows

An input window's buffer holds the window's block at every point, whether the block was fetched there or not: a
window that is not fetched at a point has the block index of the point before, its block is whole (no cut) and it is
never idle, and the body leaves each input block as it found it. The row blocks (windows 0 and 1) move with the point;
the weights, the bias and the normalisation rows (windows 2 to 6) stay at block 0 and are fetched once. -/

theorem held1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem held1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem held1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem held1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem held1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem held1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem held1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The output block -/

/-- The one store of the body is through the whole block, so it covers it. -/
theorem cover1_7 (p : Vec F S1000x512 .f32) (y : S1000x512.Idx) :
    ∃ pc ∈ ([⟨r1_x, p⟩] : List (View.Piece (Elt F) S1000x512 .f32)), y ∈ pc.1.set :=
  View.cover_of_tiled [⟨r1_x, p⟩] S1000x512.size (by rfl) y

/-! ## The body's triple -/

set_option maxHeartbeats 1000000 in
/-- The body on whole memrefs, the seven inputs' at contents `x0 … x6` and the output's at anything, runs to a
    continuation that holds the inputs' as they were and the output's at `out1_7` of the inputs: the first part loads
    the six operands of the linear update and normalisation, the tail loads the shift row and stores the block. -/
theorem run_sage1 (c : Dev nD) (E : Set ℕ) (i : grid1.Coords)
    (a0 : Memref sig .tc .vmem S1000x512 .f32) (w0 : a0.IsWhole)
    (a1 : Memref sig .tc .vmem S1000x512 .f32) (w1 : a1.IsWhole)
    (a2 : Memref sig .tc .vmem S512x512 .bf16) (w2 : a2.IsWhole)
    (a3 : Memref sig .tc .vmem S512x512 .bf16) (w3 : a3.IsWhole)
    (a4 : Memref sig .tc .vmem S1x512 .f32) (w4 : a4.IsWhole)
    (a5 : Memref sig .tc .vmem S1x512 .f32) (w5 : a5.IsWhole)
    (a6 : Memref sig .tc .vmem S1x512 .f32) (w6 : a6.IsWhole)
    (a7 : Memref sig .tc .vmem S1000x512 .f32) (w7 : a7.IsWhole)
    (x0 x1 : Vec F S1000x512 .f32) (x2 x3 : Vec F S512x512 .bf16) (x4 x5 x6 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out1_7 x0 x1 x2 x3 x4 x5 x6)) -∗ K ⟨⟩))
      ⊢ wp frame (wpE (defs₀ (F := F)) Variants.none c none) E
          (cc1__sage_kernel i a0 w0 a1 w1 a2 w2 a3 w3 a4 w4 a5 w5 a6 w6 a7 w7) K := by
  simp only [cc1__sage_kernel_eq_skeleton]; unfold cc1__sage_kernel_skel
  simp only [k1_part1_eq_skeleton]; unfold k1_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation at a point -/

/-- What the body is handed at point `t`: the invariant, what the core owes, and each window's current buffer. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks (`held1_w`), so `run_sage1` applies at them; the
    invariant and what the core owes pass through untouched. -/
theorem run_body1 (c : Dev nD) (t : Fin cfg1.N) :
    handed1 V c t ⊢ wp frame (wpE (defs₀ (F := F)) Variants.none c none) Set.univ (bodyAt1 t) (fun _ => left1 V c t) := by
  unfold handed1 left1 bodyAt1
  simp only [held1_0, held1_1, held1_2, held1_3, held1_4, held1_5, held1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_sage1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 1, at every point. -/
theorem body_obligation1 (c : Dev nD) : BodyObligation (dat1 (F := F) V c) (defs₀ (F := F)) Variants.none () Set.univ := fun t => by
  rw [bigSep_W1, bigSep_W1]
  exact run_body1 V c t

end Cert.Kernel.Fr

end
-- ==== Proof.KB.Reg2.lean ====
/- Region 2 of the program: the segment pooling kernel, at the buffer contents `V` the region is entered from.
   The output block (256×512 sums) and a scratch column (256 counts) are carried across the ten grid points: reset at
   the first point, added to at every point, and at the last point the sums are divided by the counts clamped below
   by one. The output window's block index never moves, so it is written back once, after the last point. -/
import proofs.«416240_j52329881534579_1_alg».proof.Proof.Gen.Kernel.Launch
import proofs.«416240_j52329881534579_1_alg».proof.Proof.Gen.Kernel.Skeleton
import proofs.«416240_j52329881534579_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Grid point number `n` (taken modulo the ten points, so that it is total). -/
def pt2 (n : ℕ) : Fin cfg2.N := ⟨n % 10, lt_of_lt_of_eq (Nat.mod_lt _ (by decide)) N_2.symm⟩

/-- The running sums and counts after point `n`, before the last point's division: the first point starts from the
    zero block and the zero column, every point adds its tile's contribution. -/
def acc2 (c : Dev nD) : ℕ → Vec F S256x512 .f32 × Vec F S256x1 .f32
  | 0 => (k2_pay4 (iblk2 V c 1 (pt2 0)) (iblk2 V c 0 (pt2 0)) (k2_pay1 (F := F)),
          k2_pay5 (iblk2 V c 1 (pt2 0)) (k2_pay2 (F := F)))
  | n + 1 => (k2_pay4 (iblk2 V c 1 (pt2 (n + 1))) (iblk2 V c 0 (pt2 (n + 1))) (acc2 c n).1,
              k2_pay5 (iblk2 V c 1 (pt2 (n + 1))) (acc2 c n).2)

/-- What the output window's buffer holds after point `n`: the running sums, and after the last point the quotient. -/
def oAt2 (c : Dev nD) (n : ℕ) : Vec F S256x512 .f32 :=
  if n = 9 then k2_pay6 (acc2 V c 9).1 (acc2 V c 9).2 else (acc2 V c n).1

/-- The count scratch whole at contents `d`. -/
def scr2 (c : Dev nD) (d : Vec F S256x1 .f32) : sProp 𝕄 :=
  owns (c : Thread nD τ) (Memref.whole cc2_scratch0 : Memref sig .tc .vmem S256x1 .f32) fullShare d

/-- The invariant before point `n`: before the first point the scoped rest and the generator register as the launch
    hands them over; afterwards the count scratch at the running counts, beside what gives the handed-over state back
    once the scratch is returned at any contents. -/
def Phi2 (c : Dev nD) : ℕ → sProp 𝕄
  | 0 => Pipeline.ΦA spec2 c
  | n + 1 => iprop(scr2 c (acc2 V c n).2 ∗ ((∃ d, scr2 c d) -∗ Pipeline.ΦA spec2 c))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => oAt2 V c t.val
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = oAt2 V c t.val := by dsimp only [dat2]

/-! ## The two tests on the grid coordinate -/

/-- Whether the point is the first: the body's test of its grid coordinate against 0, as the body spells it. -/
abbrev first2 (i : grid2.Coords) : Prop :=
  (Scalar.cmpi .ne (Scalar.extui (Scalar.cmpi .eq (BitVec.ofNat 32 (i 0).val) 0#32)) 0#32) = 1#1
/-- Whether the point is the last: its test of the coordinate against 9. -/
abbrev last2 (i : grid2.Coords) : Prop :=
  (Scalar.cmpi .ne (Scalar.extui (Scalar.cmpi .eq (BitVec.ofNat 32 (i 0).val) 9#32)) 0#32) = 1#1

/-- The first test holds at point 0 only, -/
theorem first2_iff : ∀ t : Fin cfg2.N, first2 (grid2.coords t) ↔ t.val % 10 = 0 :=
  (by decide +kernel : ∀ t : Fin grid2.N, first2 (grid2.coords t) ↔ t.val % 10 = 0)
/-- the second at point 9 only: both decided over the ten points. -/
theorem last2_iff : ∀ t : Fin cfg2.N, last2 (grid2.coords t) ↔ t.val % 10 = 9 :=
  (by decide +kernel : ∀ t : Fin grid2.N, last2 (grid2.coords t) ↔ t.val % 10 = 9)

/-! ## The body on whole buffers, one control case at a time

Every load and every store of the body goes through the rectangle that is the whole buffer, at the origin. So a load reads
the buffer's contents, a store replaces them, and a load after a store reads what was stored. -/

/-- Both coordinates of the origin are zero. -/
theorem zero2 : (![0, 0] : Fin 2 → Nat) = fun _ => 0 := funext fun a => by fin_cases a <;> rfl

set_option maxHeartbeats 1000000 in
/-- AT THE FIRST POINT the sums' buffer and the counts' buffer may hold anything: the body overwrites both with zeros before it
    reads them, then adds the tile's sums to the zero block and the tile's counts to the zero column. No division. -/
theorem pool_first2 (c : Dev nD) (E : Set ℕ) (i : grid2.Coords)
    (a1 : Memref sig .tc .vmem S1000x512 .f32) (ha1 : a1.IsWhole) (a2 : Memref sig .tc .vmem S1000x1 .i32) (ha2 : a2.IsWhole)
    (a3 : Memref sig .tc .vmem S256x512 .f32) (ha3 : a3.IsWhole) (a4 : Memref sig .tc .vmem S256x1 .f32) (ha4 : a4.IsWhole)
    (hf : first2 i) (hl : ¬last2 i)
    (x : Vec F S1000x512 .f32) (b : Vec F S1000x1 .i32) (K : PUnit → sProp 𝕄) :
    iprop(owns (c : Thread nD τ) a1 fullShare x ∗ owns (c : Thread nD τ) a2 fullShare b
        ∗ (∃ d, owns (c : Thread nD τ) a3 fullShare d) ∗ (∃ d, owns (c : Thread nD τ) a4 fullShare d)
        ∗ (iprop(owns (c : Thread nD τ) a1 fullShare x ∗ owns (c : Thread nD τ) a2 fullShare b
            ∗ owns (c : Thread nD τ) a3 fullShare (k2_pay4 b x (k2_pay1 (F := F)))
            ∗ owns (c : Thread nD τ) a4 fullShare (k2_pay5 b (k2_pay2 (F := F)))) -∗ K ⟨⟩))
      ⊢ wp frame (wpE (defs₀ (F := F)) Variants.none c none) E (cc2__pool_kernel i a1 ha1 a2 ha2 a3 ha3 a4 ha4) K := by
  simp only [cc2__pool_kernel_eq_skeleton]; unfold cc2__pool_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero zero2 inb_S256x512_S256x512_0_0 y⟩)]
    rw [View.canon_cons_unit_zero (S := S256x512) zero2]
    simp only [View.readAt_eq_ld, View.ld_unit_zero (S := S1000x1) zero2, View.ld_unit_zero (S := S1000x512) zero2,
      View.ld_unit_zero (S := S256x512) zero2, View.ld_unit_zero (S := S256x1) zero2,
      View.readCov_unit_zero (S := S256x512) _ zero2, View.readCov_unit_zero (S := S256x1) _ zero2]
  iexists _; isplitr
  swap; · iexact H4
  ipureintro
  sl_unfold_words
  rw [View.read_writes_eq_canon _ _ _ (fun y => ⟨_, List.mem_cons_self, View.mem_set_unit_zero zero2 inb_S256x1_S256x1_0_0 y⟩)]
  rw [View.canon_cons_unit_zero (S := S256x1) zero2]
  simp only [View.readAt_eq_ld, View.ld_unit_zero (S := S1000x1) zero2, View.ld_unit_zero (S := S256x1) zero2,
    View.readCov_unit_zero (S := S256x1) _ zero2]

set_option maxHeartbeats 1000000 in
/-- AT A POINT THAT IS NEITHER FIRST NOR LAST the body adds the tile's sums to what the sums' buffer held (`o`) and the tile's
    counts to what the counts' buffer held (`s`), and does nothing else. -/
theorem pool_mid2 (c : Dev nD) (E : Set ℕ) (i : grid2.Coords)
    (a1 : Memref sig .tc .vmem S1000x512 .f32) (ha1 : a1.IsWhole) (a2 : Memref sig .tc .vmem S1000x1 .i32) (ha2 : a2.IsWhole)
    (a3 : Memref sig .tc .vmem S256x512 .f32) (ha3 : a3.IsWhole) (a4 : Memref sig .tc .vmem S256x1 .f32) (ha4 : a4.IsWhole)
    (hf : ¬first2 i) (hl : ¬last2 i)
    (x : Vec F S1000x512 .f32) (b : Vec F S1000x1 .i32) (o : Vec F S256x512 .f32) (s : Vec F S256x1 .f32) (K : PUnit → sProp 𝕄) :
    iprop(owns (c : Thread nD τ) a1 fullShare x ∗ owns (c : Thread nD τ) a2 fullShare b
        ∗ owns (c : Thread nD τ) a3 fullShare o ∗ owns (c : Thread nD τ) a4 fullShare s
        ∗ (iprop(owns (c : Thread nD τ) a1 fullShare x ∗ owns (c : Thread nD τ) a2 fullShare b
            ∗ owns (c : Thread nD τ) a3 fullShare (k2_pay4 b x o)
            ∗ owns (c : Thread nD τ) a4 fullShare (k2_pay5 b s)) -∗ K ⟨⟩))
      ⊢ wp frame (wpE (defs₀ (F := F)) Variants.none c none) E (cc2__pool_kernel i a1 ha1 a2 ha2 a3 ha3 a4 ha4) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero zero2 inb_S256x512_S256x512_0_0 y⟩)]
    rw [View.canon_cons_unit_zero (S := S256x512) zero2]
    simp only [View.readAt_eq_ld, View.ld_unit_zero (S := S1000x1) zero2, View.ld_unit_zero (S := S1000x512) zero2,
      View.ld_unit_zero (S := S256x512) zero2, View.ld_unit_zero (S := S256x1) zero2,
      View.readCov_unit_zero (S := S256x512) _ zero2, View.readCov_unit_zero (S := S256x1) _ zero2]
  iexists _; isplitr
  swap; · iexact H4
  ipureintro
  sl_unfold_words
  rw [View.read_writes_eq_canon _ _ _ (fun y => ⟨_, List.mem_cons_self, View.mem_set_unit_zero zero2 inb_S256x1_S256x1_0_0 y⟩)]
  rw [View.canon_cons_unit_zero (S := S256x1) zero2]
  simp only [View.readAt_eq_ld, View.ld_unit_zero (S := S1000x1) zero2, View.ld_unit_zero (S := S256x1) zero2,
    View.readCov_unit_zero (S := S256x1) _ zero2]

set_option maxHeartbeats 1000000 in
/-- AT THE LAST POINT the body adds as at any later point, then reads both buffers back and replaces the sums by their
    quotient by the counts clamped below by one; the counts stay. -/
theorem pool_last2 (c : Dev nD) (E : Set ℕ) (i : grid2.Coords)
    (a1 : Memref sig .tc .vmem S1000x512 .f32) (ha1 : a1.IsWhole) (a2 : Memref sig .tc .vmem S1000x1 .i32) (ha2 : a2.IsWhole)
    (a3 : Memref sig .tc .vmem S256x512 .f32) (ha3 : a3.IsWhole) (a4 : Memref sig .tc .vmem S256x1 .f32) (ha4 : a4.IsWhole)
    (hf : ¬first2 i) (hl : last2 i)
    (x : Vec F S1000x512 .f32) (b : Vec F S1000x1 .i32) (o : Vec F S256x512 .f32) (s : Vec F S256x1 .f32) (K : PUnit → sProp 𝕄) :
    iprop(owns (c : Thread nD τ) a1 fullShare x ∗ owns (c : Thread nD τ) a2 fullShare b
        ∗ owns (c : Thread nD τ) a3 fullShare o ∗ owns (c : Thread nD τ) a4 fullShare s
        ∗ (iprop(owns (c : Thread nD τ) a1 fullShare x ∗ owns (c : Thread nD τ) a2 fullShare b
            ∗ owns (c : Thread nD τ) a3 fullShare (k2_pay6 (k2_pay4 b x o) (k2_pay5 b s))
            ∗ owns (c : Thread nD τ) a4 fullShare (k2_pay5 b s)) -∗ K ⟨⟩))
      ⊢ wp frame (wpE (defs₀ (F := F)) Variants.none c none) E (cc2__pool_kernel i a1 ha1 a2 ha2 a3 ha3 a4 ha4) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero zero2 inb_S256x512_S256x512_0_0 y⟩)]
    rw [View.canon_cons_unit_zero (S := S256x512) zero2]
    simp only [View.readAt_eq_ld, View.ld_unit_zero (S := S1000x1) zero2, View.ld_unit_zero (S := S1000x512) zero2,
      View.ld_unit_zero (S := S256x512) zero2, View.ld_unit_zero (S := S256x1) zero2,
      View.readCov_unit_zero (S := S256x512) _ zero2, View.readCov_unit_zero (S := S256x1) _ zero2]
  iexists _; isplitr
  swap; · iexact H4
  ipureintro
  sl_unfold_words
  rw [View.read_writes_eq_canon _ _ _ (fun y => ⟨_, List.mem_cons_self, View.mem_set_unit_zero zero2 inb_S256x1_S256x1_0_0 y⟩)]
  rw [View.canon_cons_unit_zero (S := S256x1) zero2]
  simp only [View.readAt_eq_ld, View.ld_unit_zero (S := S1000x1) zero2, View.ld_unit_zero (S := S256x1) zero2,
    View.readCov_unit_zero (S := S256x1) _ zero2]

/-! ## What the body finds in the windows' buffers -/

/-- The feature window is fetched at every point, so its buffer holds its block there. -/
theorem held2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The segment-id window likewise. -/
theorem held2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The output window's one buffer is written back after the last point only; so at any point but the first it still
    holds what the body left at the point before, and that point was not the last: the running sums. -/
theorem kept2_2 (c : Dev nD) (t : Fin cfg2.N) (ht : t.val ≠ 0) (d) :
    (dat2 V c).before 2 t d = (acc2 V c (t.val - 1)).1 := by
  have hN : t.val < 10 := lt_of_lt_of_eq t.isLt (show cfg2.N = 10 from N_2)
  rw [Dat.before_out_kept _ 2 rfl t ht (Bool.eq_false_iff.mpr fun h => by have := (flush2_2 _).mp h; dsimp only at this; omega)
    (fun _ => rfl) (fun _ _ => rfl)]
  dsimp only [dat2]
  exact if_neg (by omega)

/-! ## The running pair and the invariant, point by point -/

/-- Away from the last point the output buffer holds the running sums, -/
theorem oAt2_of_ne (c : Dev nD) (n : ℕ) (h : n ≠ 9) : oAt2 V c n = (acc2 V c n).1 := if_neg h
/-- at the last point their quotient by the clamped counts. -/
theorem oAt2_last (c : Dev nD) (n : ℕ) (h : n = 9) : oAt2 V c n = k2_pay6 (acc2 V c n).1 (acc2 V c n).2 := by
  subst h; exact if_pos rfl

/-- After the first point: the tile's contribution on top of zeros. -/
theorem acc2_first (c : Dev nD) (t : Fin cfg2.N) (h : t.val = 0) :
    acc2 V c t.val = (k2_pay4 (iblk2 V c 1 t) (iblk2 V c 0 t) (k2_pay1 (F := F)), k2_pay5 (iblk2 V c 1 t) (k2_pay2 (F := F))) := by
  obtain ⟨n, hn⟩ := t
  dsimp only at h; subst h; rfl

/-- After a later point: the tile's contribution on top of the pair after the point before. -/
theorem acc2_later (c : Dev nD) (t : Fin cfg2.N) (h : t.val ≠ 0) :
    acc2 V c t.val = (k2_pay4 (iblk2 V c 1 t) (iblk2 V c 0 t) (acc2 V c (t.val - 1)).1,
      k2_pay5 (iblk2 V c 1 t) (acc2 V c (t.val - 1)).2) := by
  obtain ⟨n, hn⟩ := t
  cases n with
  | zero => exact absurd rfl h
  | succ n =>
    have hp : pt2 (n + 1) = ⟨n + 1, hn⟩ := Fin.ext (Nat.mod_eq_of_lt (lt_of_lt_of_eq hn N_2))
    show acc2 V c (n + 1) = _
    rw [show acc2 V c (n + 1) = (k2_pay4 (iblk2 V c 1 (pt2 (n + 1))) (iblk2 V c 0 (pt2 (n + 1))) (acc2 V c n).1,
      k2_pay5 (iblk2 V c 1 (pt2 (n + 1))) (acc2 V c n).2) from rfl, hp]
    rfl

theorem Phi2_zero (c : Dev nD) (n : ℕ) (h : n = 0) : Phi2 V c n = Pipeline.ΦA spec2 c := by subst h; rfl

theorem Phi2_succ (c : Dev nD) (n : ℕ) :
    Phi2 V c (n + 1) = iprop(scr2 c (acc2 V c n).2 ∗ ((∃ d, scr2 (F := F) c d) -∗ Pipeline.ΦA spec2 c)) := rfl

theorem Phi2_pos (c : Dev nD) (n : ℕ) (h : n ≠ 0) :
    Phi2 V c n = iprop(scr2 c (acc2 V c (n - 1)).2 ∗ ((∃ d, scr2 (F := F) c d) -∗ Pipeline.ΦA spec2 c)) := by
  cases n with
  | zero => exact absurd rfl h
  | succ n => rfl

/-! ## The scratch, lent by the handed-over state -/

/-- The handed-over state holds the count scratch whole at some contents, as the last of the core's scoped buffers that
    are no staging buffer of this call. Taking it out leaves a state that, given the scratch back at any contents, is the
    handed-over state again. -/
theorem lend2 (c : Dev nD) :
    (Pipeline.ΦA spec2 c : sProp 𝕄)
      ⊢ iprop((∃ d, owns (c : Thread nD τ) (Memref.whole cc2_scratch0 : Memref sig .tc .vmem S256x1 .f32) fullShare d)
        ∗ ((∃ d, owns (c : Thread nD τ) (Memref.whole cc2_scratch0 : Memref sig .tc .vmem S256x1 .f32) fullShare d)
          -∗ Pipeline.ΦA spec2 c)) := by
  unfold Pipeline.ΦA; rw [scopedRest2_eq]
  simp only [owns_whole]
  iintro ⟨⟨H1, H2, H3, H4, H5, H6, H7, H8, H9, H10, H11, H12, H13, H14, H15, H16, H17, HS⟩, Hg⟩
  isplitl [HS]; · iexact HS
  iintro HS
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HS

/-! ## The body at a point of the grid -/

/-- What the body is handed at point `t`: the invariant, what is owed, and each window's current buffer. -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back: the next invariant, the same debt, each buffer at what the proof data says the body leaves. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 2000000 in
/-- The two input buffers read their blocks at every point. At the first point the invariant is the handed-over state, which
    lends the scratch at some contents, and the output buffer holds anything; at a later point the invariant holds the scratch
    at the counts after the point before and the output buffer the sums after the point before. Each time the matching case
    of the body applies and leaves the pair after this point — at the last point the sums divided. -/
theorem at_point2 (c : Dev nD) (t : Fin cfg2.N) :
    handed2 V c t ⊢ wp frame (wpE (defs₀ (F := F)) Variants.none c none) Set.univ (bodyAt2 t) (fun _ => returned2 V c t) := by
  unfold handed2 returned2 bodyAt2
  simp only [held2_0, held2_1]
  rw [show (dat2 V c).owesAt () t.succ = (dat2 V c).owesAt () t.castSucc from rfl,
    show (dat2 V c).Φ t.castSucc = Phi2 V c t.val from rfl,
    show (dat2 V c).Φ t.succ = Phi2 V c (t.val + 1) from rfl,
    after2_0, after2_1, after2_2, Phi2_succ]
  have hN : t.val < 10 := lt_of_lt_of_eq t.isLt (show cfg2.N = 10 from N_2)
  by_cases h0 : t.val = 0
  · have hf : first2 (grid2.coords t) := (first2_iff t).mpr (by omega)
    have hl : ¬last2 (grid2.coords t) := fun h => by have := (last2_iff t).mp h; omega
    rw [Phi2_zero V c t.val h0, oAt2_of_ne V c t.val (by omega), acc2_first V c t h0]
    dsimp only
    unfold scr2
    iintro ⟨HΦ, Ho, ⟨%d0, H0⟩, ⟨%d1, H1⟩, ⟨%d2, H2⟩⟩
    ihave ⟨HS, Hw⟩ := (lend2 (F := F) c) $$ HΦ
    iapply (pool_first2 c Set.univ _ _ _ _ _ _ _ _ _ hf hl (iblk2 V c 0 t) (iblk2 V c 1 t) _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2
  · have hf : ¬first2 (grid2.coords t) := fun h => by have := (first2_iff t).mp h; omega
    rw [Phi2_pos V c t.val h0, acc2_later V c t h0]
    simp only [kept2_2 V c t h0]
    by_cases h9 : t.val = 9
    · have hl : last2 (grid2.coords t) := (last2_iff t).mpr (by omega)
      rw [oAt2_last V c t.val h9, acc2_later V c t h0]
      dsimp only
      unfold scr2
      iintro ⟨⟨HS, Hw⟩, Ho, ⟨%d0, H0⟩, ⟨%d1, H1⟩, ⟨%d2, H2⟩⟩
      iapply (pool_last2 c Set.univ _ _ _ _ _ _ _ _ _ hf hl (iblk2 V c 0 t) (iblk2 V c 1 t)
        (acc2 V c (t.val - 1)).1 (acc2 V c (t.val - 1)).2 _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · have hl : ¬last2 (grid2.coords t) := fun h => by have := (last2_iff t).mp h; omega
      rw [oAt2_of_ne V c t.val h9, acc2_later V c t h0]
      dsimp only
      unfold scr2
      iintro ⟨⟨HS, Hw⟩, Ho, ⟨%d0, H0⟩, ⟨%d1, H1⟩, ⟨%d2, H2⟩⟩
      iapply (pool_mid2 c Set.univ _ _ _ _ _ _ _ _ _ hf hl (iblk2 V c 0 t) (iblk2 V c 1 t)
        (acc2 V c (t.val - 1)).1 (acc2 V c (t.val - 1)).2 _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2

/-- The body obligation of pipeline 2, at every point. -/
theorem body_obligation2 (c : Dev nD) : BodyObligation (dat2 (F := F) V c) (defs₀ (F := F)) Variants.none () Set.univ := fun t => by
  rw [bigSep_W2, bigSep_W2]
  exact at_point2 V c t

/-- What the launch hands the region is the invariant before the first point. -/
theorem hin2 (c : Dev nD) : Pipeline.ΦA spec2 c ⊢ (dat2 V c).Φ 0 := by
  rw [show (dat2 V c).Φ 0 = Pipeline.ΦA spec2 c from rfl]

/-- After the last point the invariant gives the handed-over state back: it holds the scratch, which is what its other half
    asks for. -/
theorem hout2 (c : Dev nD) : (dat2 V c).Φ (Fin.last cfg2.N) ⊢ Pipeline.ΦA spec2 c := by
  rw [show (dat2 V c).Φ (Fin.last cfg2.N) = Phi2 V c (9 + 1) from by
    show Phi2 V c (Fin.last cfg2.N).val = _
    rw [Fin.val_last, show cfg2.N = 10 from N_2], Phi2_succ]
  iintro ⟨HS, Hw⟩
  iapply Hw
  iexists _; iexact HS

end Cert.Kernel.Fr

end
-- ==== Proof.KB.Fold.lean ====
/- The buffer contents at every boundary of the program: the launch memory, then after each stretch of host
   operations what the stretch computes, and after each kernel region the region's arrays at what its write-backs
   leave — every other buffer as the region found it. No host operation and no region writes an argument array, so
   each argument is read back unchanged at the end; each region's output array is what that region's proof data
   say the pipeline leaves in it. -/
import proofs.«416240_j52329881534579_1_alg».proof.Proof.Gen.Kernel.Launch
import proofs.«416240_j52329881534579_1_alg».proof.Proof.Gen.Kernel.Skeleton
import proofs.«416240_j52329881534579_1_alg».proof.Proof.Gen.Kernel.Points
import proofs.«416240_j52329881534579_1_alg».proof.Proof.Gen.Kernel.Regions
import proofs.«416240_j52329881534579_1_alg».proof.Proof.KB.Reg0
import proofs.«416240_j52329881534579_1_alg».proof.Proof.KB.Reg1
import proofs.«416240_j52329881534579_1_alg».proof.Proof.KB.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
/-- The same read at the TensorCore's references. -/
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (region 1's entry). -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (region 2's entry). -/
abbrev W5 (c : Dev nD) : Valuation τ sig (Elt F) := StableHlo.after hostOps2 (W4 m c)
abbrev E5 : (c : Dev nD) → (b : Ref sig .tc) → Buf (Elt F) ((c : Thread nD τ).loc b) := fun c b => W5 m c b
/-- At region 2's exit: the end of the program. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-! ## A region changes only its output array -/

/-- Region 0 leaves every buffer but its output array as it found it: an input window's array is read only. -/
theorem W2_keep (c : Dev nD) (b : Ref sig .tc) (hb : b ≠ main_v2) :
    W2 m c (Proc.devRef .tc b) = W1 m c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, hb => exact absurd rfl hb
    exact (W2_arr m c w).trans (((dat0 (E1 m) c).arrAt_in w hw _).trans (A_eq0 (E1 m) c w))
  · exact W2_of_ne m c b fun w e => h ⟨w, e⟩

theorem W4_keep (c : Dev nD) (b : Ref sig .tc) (hb : b ≠ main_v33) :
    W4 m c (Proc.devRef .tc b) = W3 m c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact (W4_arr m c w).trans (((dat1 (E3 m) c).arrAt_in w hw _).trans (A_eq1 (E3 m) c w))
  · exact W4_of_ne m c b fun w e => h ⟨w, e⟩

theorem W6_keep (c : Dev nD) (b : Ref sig .tc) (hb : b ≠ main_v35) :
    W6 m c (Proc.devRef .tc b) = W5 m c (Proc.devRef .tc b) := by
  by_cases h : ∃ w, Pipeline.arrRef spec2 w = b
  · obtain ⟨w, rfl⟩ := h
    have hw : (cfg2.win w).isOut = false := by
      match w, hb with
      | ⟨0, _⟩, _ => rfl
      | ⟨1, _⟩, _ => rfl
      | ⟨2, _⟩, hb => exact absurd rfl hb
    exact (W6_arr m c w).trans (((dat2 (E5 m) c).arrAt_in w hw _).trans (A_eq2 (E5 m) c w))
  · exact W6_of_ne m c b fun w e => h ⟨w, e⟩

/-! ## What reaches the end -/

/-- A buffer no host stretch writes and no region has for its output reaches the end as launched. -/
theorem W6_launch (c : Dev nD) (b : Ref sig .tc) (h0 : b ∉ hostOps0_W) (h1 : b ∉ hostOps1_W) (h2 : b ∉ hostOps2_W)
    (hb0 : b ≠ main_v2) (hb1 : b ≠ main_v33) (hb2 : b ≠ main_v35) :
    W6 m c (Proc.devRef .tc b) = m ((c : Thread nD τ).loc b) :=
  (W6_keep m c b hb2).trans <| (StableHlo.after_of_writes_sub hostOps2 _ hostOps2_writes h2).trans <|
    (W4_keep m c b hb1).trans <| (StableHlo.after_of_writes_sub hostOps1 _ hostOps1_writes h1).trans <|
    (W2_keep m c b hb0).trans <| (StableHlo.after_of_writes_sub hostOps0 _ hostOps0_writes h0).trans rfl

/-- The program's result array at the end is what the last region's pipeline leaves in it. -/
theorem W6_main_v35 (c : Dev nD) : W6 m c (Proc.devRef .tc main_v35) = (dat2 (E5 m) c).arrAt 2 cfg2.N :=
  W6_arr m c 2

/-- Region 2 reads the node outputs as region 1's pipeline left them: the third host stretch does not write them. -/
theorem E5_main_v33 (c : Dev nD) : E5 m c main_v33 = (dat1 (E3 m) c).arrAt 7 cfg1.N :=
  (StableHlo.after_of_writes_sub hostOps2 _ hostOps2_writes (by decide)).trans (W4_arr m c 7)

/-- Region 1 reads the normalised features as region 0's pipeline left them: the second host stretch does not
    write them. -/
theorem E3_main_v2 (c : Dev nD) : E3 m c main_v2 = (dat0 (E1 m) c).arrAt 3 cfg0.N :=
  (StableHlo.after_of_writes_sub hostOps1 _ hostOps1_writes (by decide)).trans (W2_arr m c 3)

/-- The second host stretch starts from buffers in which the normalised features are region 0's output. -/
theorem W2_main_v2 (c : Dev nD) : W2 m c (Proc.devRef .tc main_v2) = (dat0 (E1 m) c).arrAt 3 cfg0.N :=
  W2_arr m c 3

end Cert.Kernel.Fr

end
-- ==== Proof.KB.Run.lean ====
/- The program's run: @main as host stretches and kernel regions in order, each region entered from the buffer
   contents the stretch before it leaves and left at what its pipeline writes back; every weakly fair execution
   terminates, the result array ends at what the last region's pipeline leaves in it, and every argument array ends
   as launched. -/
import proofs.«416240_j52329881534579_1_alg».proof.Proof.Gen.Kernel.Launch
import proofs.«416240_j52329881534579_1_alg».proof.Proof.Gen.Kernel.Skeleton
import proofs.«416240_j52329881534579_1_alg».proof.Proof.Gen.Kernel.Points
import proofs.«416240_j52329881534579_1_alg».proof.Proof.KB.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    obligations, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the obligations: every unscoped buffer at the last boundary's contents, the
    generator register at some state. -/
abbrev Tₙ (c : Dev nD) : sProp 𝕄 := iprop(StableHlo.held (c : Thread nD τ) (Pipeline.ucRefs τ sig) (W6 m c) ∗ ∃ r, prngReg c r)

-- a library lemma stated over the pinned configuration unifies with the printed one only when unification may unfold
-- plain definitions in a metavariable's type
set_option backward.isDefEq.respectTransparency.types false in
/-- Region 0 over the thread state: entered from every unscoped buffer at its entry contents, left at its exit
    contents. Its arrays are split out of the unscoped buffers and put back at what the pipeline leaves; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry contents, left at its exit
    contents. Its arrays are split out of the unscoped buffers and put back at what the pipeline leaves; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class's invariant of pipeline 2 gives back the generator register and the scoped rest. -/
theorem PhiA_giveback (c : Dev nD) :
    (Pipeline.ΦA spec2 c : sProp 𝕄) ⊢ iprop((∃ r, prngReg c r) ∗ emp ∗ Pipeline.scopedRest spec2 c) := by
  unfold Pipeline.ΦA
  iintro ⟨Hr, Hp⟩
  isplitl [Hp]; · iexact Hp
  isplitr; · iempintro
  iexact Hr

-- a library lemma stated over the pinned configuration unifies with the printed one only when unification may unfold
-- plain definitions in a metavariable's type
set_option backward.isDefEq.respectTransparency.types false in
/-- Region 2 over the thread state: entered from every unscoped buffer at its entry contents, left at its exit
    contents. Its arrays are split out of the unscoped buffers and put back at what the pipeline leaves; the generator
    register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 := hin2 (E5 m) c
    unfold Pipeline.ΦA at h2
    rw [show (pdats m 2 c).Φ 0 = (dat2 (E5 m) c).Φ 0 from rfl]
    iintro ⟨Hp, -, Hr⟩
    iapply h2
    isplitl [Hr]; · iexact Hr
    iexact Hp
  hout c := by
    rw [Pipeline.ownSems0_none]
    exact (hout2 (E5 m) c).trans (PhiA_giveback c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; the result
    array ends at what region 2's pipeline leaves in it, and every argument array ends as launched. -/
theorem run_main : θ_run defs (onTc (τ := τ) (main (F := F))) ⟨m, fun _ => 0, ρ⟩ (fun r => ∀ c : Dev nD,
      r.2.mem ((c.tc : Thread nD τ).loc main_v35) = (dat2 (E5 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v35 (by decide))).trans (W6_main_v35 m c),
       (h c _ (mem_uc main_arg0 (by decide))).trans (W6_launch m c main_arg0 (by decide) (by decide) (by decide) (by decide) (by decide) (by decide)),
       (h c _ (mem_uc main_arg1 (by decide))).trans (W6_launch m c main_arg1 (by decide) (by decide) (by decide) (by decide) (by decide) (by decide)),
       (h c _ (mem_uc main_arg2 (by decide))).trans (W6_launch m c main_arg2 (by decide) (by decide) (by decide) (by decide) (by decide) (by decide)),
       (h c _ (mem_uc main_arg3 (by decide))).trans (W6_launch m c main_arg3 (by decide) (by decide) (by decide) (by decide) (by decide) (by decide)),
       (h c _ (mem_uc main_arg4 (by decide))).trans (W6_launch m c main_arg4 (by decide) (by decide) (by decide) (by decide) (by decide) (by decide)),
       (h c _ (mem_uc main_arg5 (by decide))).trans (W6_launch m c main_arg5 (by decide) (by decide) (by decide) (by decide) (by decide) (by decide)),
       (h c _ (mem_uc main_arg6 (by decide))).trans (W6_launch m c main_arg6 (by decide) (by decide) (by decide) (by decide) (by decide) (by decide)),
       (h c _ (mem_uc main_arg7 (by decide))).trans (W6_launch m c main_arg7 (by decide) (by decide) (by decide) (by decide) (by decide) (by decide)),
       (h c _ (mem_uc main_arg8 (by decide))).trans (W6_launch m c main_arg8 (by decide) (by decide) (by decide) (by decide) (by decide) (by decide)),
       (h c _ (mem_uc main_arg9 (by decide))).trans (W6_launch m c main_arg9 (by decide) (by decide) (by decide) (by decide) (by decide) (by decide))⟩)

/-- The frame: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.Kernel.Fr

end
-- ==== Proof.KI.Reg0.lean ====
/- Region 0 of the program: the row-wise layer normalisation kernel, at the buffer contents `V` the region is
   entered from. Each grid point loads a block of 1000 rows, the weight row and the bias row, and stores the
   normalised block whole; nothing is kept between points. -/
import proofs.«416240_j52329881534579_1_alg».proof.Proof.Gen.KernelIdeal.Launch
import proofs.«416240_j52329881534579_1_alg».proof.Proof.Gen.KernelIdeal.Skeleton
import proofs.«416240_j52329881534579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1000×512 block and the whole 1×512 row, as rectangles. -/
abbrev r0_x : Rect S1000x512 := Rect.unit (s := S1000x512) ![0, 0] S1000x512.size inb_S1000x512_S1000x512_0_0
abbrev r0_w : Rect S1x512 := Rect.unit (s := S1x512) ![0, 0] S1x512.size inb_S1x512_S1x512_0_0

/-- What the body leaves in the output window's buffer: its one store, of the normalised block. -/
def out0_3 (x0 : Vec F S1000x512 .f32) (x1 x2 : Vec F S1x512 .f32) : Vec F S1000x512 .f32 :=
  View.canon [⟨r0_x, k0_pay1 (View.ld x0 r0_x) (View.ld x1 r0_w) (View.ld x2 r0_w)⟩]

/-- The proof data of pipeline 0 on core `c`: the arrays as the region finds them; after the body each input's buffer
    at its block and the output's at the normalised block; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## What the body finds in each input window's buffer -/

/-- The block window holds its block at every point: it is fetched at each one, and an unfetched point would have
    the block index of the point before, whose block the body leaves where it found it. -/
theorem held0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight row is fetched at the first point only; its block index never moves, so every later point still finds
    the row the first point fetched, the body leaving it as found. -/
theorem held0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias row likewise. -/
theorem held0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The one store covers the output block -/

/-- The single store's rectangle is the whole 1000×512 block, so every index of the block lies in it. -/
theorem whole0_3 (p : Vec F S1000x512 .f32) (y : S1000x512.Idx) :
    ∃ pc ∈ ([⟨r0_x, p⟩] : List (View.Piece (Elt F) S1000x512 .f32)), y ∈ pc.1.set :=
  View.cover_of_tiled [⟨r0_x, p⟩] S1000x512.size (by rfl) y

/-! ## The body on whole buffers -/

set_option maxHeartbeats 1000000 in
/-- Run on four whole buffers — the three inputs' reading `x0`, `x1`, `x2`, the output's reading anything — the body
    reaches its continuation with the inputs unchanged and the output reading `out0_3 x0 x1 x2`: three loads of whole
    buffers, a fourth load whose value goes nowhere, and one store over the whole output. -/
theorem ln_body0 (c : Dev nD) (E : Set ℕ) (i : grid0.Coords)
    (a0 : Memref sig .tc .vmem S1000x512 .f32) (ha0 : a0.IsWhole) (a1 : Memref sig .tc .vmem S1x512 .f32) (ha1 : a1.IsWhole)
    (a2 : Memref sig .tc .vmem S1x512 .f32) (ha2 : a2.IsWhole) (a3 : Memref sig .tc .vmem S1000x512 .f32) (ha3 : a3.IsWhole)
    (x0 : Vec F S1000x512 .f32) (x1 x2 : Vec F S1x512 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out0_3 x0 x1 x2)) -∗ K ⟨⟩))
      ⊢ wp frame (wpE (defs₀ (F := F)) Variants.none c none) E (cc0__ln_kernel i a0 ha0 a1 ha1 a2 ha2 a3 ha3) K := by
  simp only [cc0__ln_kernel_eq_skeleton]; unfold cc0__ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (whole0_3 _)

/-! ## The body at a point of the grid -/

/-- What the body is handed at point `t`: the invariant, what is owed, and each window's current buffer. -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the proof data says the body leaves. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers read their blocks (`held0_w`), so the body's triple applies with those blocks;
    the invariant and the debt are not touched by the body and pass through. -/
theorem at_point0 (c : Dev nD) (t : Fin cfg0.N) :
    handed0 V c t ⊢ wp frame (wpE (defs₀ (F := F)) Variants.none c none) Set.univ (bodyAt0 t) (fun _ => returned0 V c t) := by
  unfold handed0 returned0 bodyAt0
  simp only [held0_0, held0_1, held0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (ln_body0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 0, at every point. -/
theorem body_obligation0 (c : Dev nD) : BodyObligation (dat0 (F := F) V c) (defs₀ (F := F)) Variants.none () Set.univ := fun t => by
  rw [bigSep_W0, bigSep_W0]
  exact at_point0 V c t

end Cert.KernelIdeal.Fr

end
-- ==== Proof.KI.Reg1.lean ====
/- Region 1 of the program: the linear update, rectifier and layer normalisation kernel, at the buffer contents
   `V` the region is entered from. Each grid point loads a block of 1000 rows of the neighbour means and of the
   node features, the two transposed weight matrices, the bias row and the two normalisation rows, and stores the
   resulting block whole; nothing is kept between points. -/
import proofs.«416240_j52329881534579_1_alg».proof.Proof.Gen.KernelIdeal.Launch
import proofs.«416240_j52329881534579_1_alg».proof.Proof.Gen.KernelIdeal.Skeleton
import proofs.«416240_j52329881534579_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S1000x512 := Rect.unit (s := S1000x512) ![0, 0] S1000x512.size inb_S1000x512_S1000x512_0_0
abbrev r1_m : Rect S512x512 := Rect.unit (s := S512x512) ![0, 0] S512x512.size inb_S512x512_S512x512_0_0
abbrev r1_w : Rect S1x512 := Rect.unit (s := S1x512) ![0, 0] S1x512.size inb_S1x512_S1x512_0_0

/-- What the body leaves in the output window's buffer: its one store. -/
def out1_7 (x0 x1 : Vec F S1000x512 .f32) (x2 x3 : Vec F S512x512 .bf16) (x4 x5 x6 : Vec F S1x512 .f32) : Vec F S1000x512 .f32 :=
  View.canon [⟨r1_x, k1_pay1 (k1_pay2 (View.ld x0 r1_x) (View.ld x1 r1_x) (View.ld x2 r1_m) (View.ld x3 r1_m) (View.ld x4 r1_w) (View.ld x5 r1_w)) (View.ld x6 r1_w)⟩]

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! ## What the body finds in the input windows

An input window's buffer holds the window's block at every point, whether the block was fetched there or not: a
window that is not fetched at a point has the block index of the point before, its block is whole (no cut) and it is
never idle, and the body leaves each input block as it found it. The row blocks (windows 0 and 1) move with the point;
the weights, the bias and the normalisation rows (windows 2 to 6) stay at block 0 and are fetched once. -/

theorem held1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem held1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem held1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem held1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem held1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem held1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem held1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The output block -/

/-- The one store of the body is through the whole block, so it covers it. -/
theorem cover1_7 (p : Vec F S1000x512 .f32) (y : S1000x512.Idx) :
    ∃ pc ∈ ([⟨r1_x, p⟩] : List (View.Piece (Elt F) S1000x512 .f32)), y ∈ pc.1.set :=
  View.cover_of_tiled [⟨r1_x, p⟩] S1000x512.size (by rfl) y

/-! ## The body's triple -/

set_option maxHeartbeats 1000000 in
/-- The body on whole memrefs, the seven inputs' at contents `x0 … x6` and the output's at anything, runs to a
    continuation that holds the inputs' as they were and the output's at `out1_7` of the inputs: the first part loads
    the six operands of the linear update and normalisation, the tail loads the shift row and stores the block. -/
theorem run_sage1 (c : Dev nD) (E : Set ℕ) (i : grid1.Coords)
    (a0 : Memref sig .tc .vmem S1000x512 .f32) (w0 : a0.IsWhole)
    (a1 : Memref sig .tc .vmem S1000x512 .f32) (w1 : a1.IsWhole)
    (a2 : Memref sig .tc .vmem S512x512 .bf16) (w2 : a2.IsWhole)
    (a3 : Memref sig .tc .vmem S512x512 .bf16) (w3 : a3.IsWhole)
    (a4 : Memref sig .tc .vmem S1x512 .f32) (w4 : a4.IsWhole)
    (a5 : Memref sig .tc .vmem S1x512 .f32) (w5 : a5.IsWhole)
    (a6 : Memref sig .tc .vmem S1x512 .f32) (w6 : a6.IsWhole)
    (a7 : Memref sig .tc .vmem S1000x512 .f32) (w7 : a7.IsWhole)
    (x0 x1 : Vec F S1000x512 .f32) (x2 x3 : Vec F S512x512 .bf16) (x4 x5 x6 : Vec F S1x512 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
        ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6
            ∗ owns (c : Thread nD τ) a7 fullShare (out1_7 x0 x1 x2 x3 x4 x5 x6)) -∗ K ⟨⟩))
      ⊢ wp frame (wpE (defs₀ (F := F)) Variants.none c none) E
          (cc1__sage_kernel i a0 w0 a1 w1 a2 w2 a3 w3 a4 w4 a5 w5 a6 w6 a7 w7) K := by
  simp only [cc1__sage_kernel_eq_skeleton]; unfold cc1__sage_kernel_skel
  simp only [k1_part1_eq_skeleton]; unfold k1_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation at a point -/

/-- What the body is handed at point `t`: the invariant, what the core owes, and each window's current buffer. -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the input buffers hold their blocks (`held1_w`), so `run_sage1` applies at them; the
    invariant and what the core owes pass through untouched. -/
theorem run_body1 (c : Dev nD) (t : Fin cfg1.N) :
    handed1 V c t ⊢ wp frame (wpE (defs₀ (F := F)) Variants.none c none) Set.univ (bodyAt1 t) (fun _ => left1 V c t) := by
  unfold handed1 left1 bodyAt1
  simp only [held1_0, held1_1, held1_2, held1_3, held1_4, held1_5, held1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_sage1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of pipeline 1, at every point. -/
theorem body_obligation1 (c : Dev nD) : BodyObligation (dat1 (F := F) V c) (defs₀ (F := F)) Variants.none () Set.univ := fun t => by
  rw [bigSep_W1, bigSep_W1]
  exact run_body1 V c t

end Cert.KernelIdeal.Fr

end
-- ==== Proof.KI.Reg2.lean ====
/- Region 2 of the program: the segment pooling kernel, at the buffer contents `V` the region is entered from.
   The output block (256×512 sums) and a scratch column (256 counts) are carried across the ten grid points: reset at
   the first point, added to at every point, and at the last point the sums are divided by the counts clamped below
   by one. The output window's block index never moves, so it is written back once, after the last point. -/
import proofs.«416240_j52329881534579_1_alg».proof.Proof.Gen.KernelIdeal.Launch
import proofs.«416240_j52329881534579_1_alg».proof.Proof.Gen.KernelIdeal.Skeleton
import proofs.«416240_j52329881534579_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Grid point number `n` (taken modulo the ten points, so that it is total). -/
def pt2 (n : ℕ) : Fin cfg2.N := ⟨n % 10, lt_of_lt_of_eq (Nat.mod_lt _ (by decide)) N_2.symm⟩

/-- The running sums and counts after point `n`, before the last point's division: the first point starts from the
    zero block and the zero column, every point adds its tile's contribution. -/
def acc2 (c : Dev nD) : ℕ → Vec F S256x512 .f32 × Vec F S256x1 .f32
  | 0 => (k2_pay4 (iblk2 V c 1 (pt2 0)) (iblk2 V c 0 (pt2 0)) (k2_pay1 (F := F)),
          k2_pay5 (iblk2 V c 1 (pt2 0)) (k2_pay2 (F := F)))
  | n + 1 => (k2_pay4 (iblk2 V c 1 (pt2 (n + 1))) (iblk2 V c 0 (pt2 (n + 1))) (acc2 c n).1,
              k2_pay5 (iblk2 V c 1 (pt2 (n + 1))) (acc2 c n).2)

/-- What the output window's buffer holds after point `n`: the running sums, and after the last point the quotient. -/
def oAt2 (c : Dev nD) (n : ℕ) : Vec F S256x512 .f32 :=
  if n = 9 then k2_pay6 (acc2 V c 9).1 (acc2 V c 9).2 else (acc2 V c n).1

/-- The count scratch whole at contents `d`. -/
def scr2 (c : Dev nD) (d : Vec F S256x1 .f32) : sProp 𝕄 :=
  owns (c : Thread nD τ) (Memref.whole cc2_scratch0 : Memref sig .tc .vmem S256x1 .f32) fullShare d

/-- The invariant before point `n`: before the first point the scoped rest and the generator register as the launch
    hands them over; afterwards the count scratch at the running counts, beside what gives the handed-over state back
    once the scratch is returned at any contents. -/
def Phi2 (c : Dev nD) : ℕ → sProp 𝕄
  | 0 => Pipeline.ΦA spec2 c
  | n + 1 => iprop(scr2 c (acc2 V c n).2 ∗ ((∃ d, scr2 c d) -∗ Pipeline.ΦA spec2 c))

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => oAt2 V c t.val
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = oAt2 V c t.val := by dsimp only [dat2]

/-! ## The two tests on the grid coordinate -/

/-- Whether the point is the first: the body's test of its grid coordinate against 0, as the body spells it. -/
abbrev first2 (i : grid2.Coords) : Prop :=
  (Scalar.cmpi .ne (Scalar.extui (Scalar.cmpi .eq (BitVec.ofNat 32 (i 0).val) 0#32)) 0#32) = 1#1
/-- Whether the point is the last: its test of the coordinate against 9. -/
abbrev last2 (i : grid2.Coords) : Prop :=
  (Scalar.cmpi .ne (Scalar.extui (Scalar.cmpi .eq (BitVec.ofNat 32 (i 0).val) 9#32)) 0#32) = 1#1

/-- The first test holds at point 0 only, -/
theorem first2_iff : ∀ t : Fin cfg2.N, first2 (grid2.coords t) ↔ t.val % 10 = 0 :=
  (by decide +kernel : ∀ t : Fin grid2.N, first2 (grid2.coords t) ↔ t.val % 10 = 0)
/-- the second at point 9 only: both decided over the ten points. -/
theorem last2_iff : ∀ t : Fin cfg2.N, last2 (grid2.coords t) ↔ t.val % 10 = 9 :=
  (by decide +kernel : ∀ t : Fin grid2.N, last2 (grid2.coords t) ↔ t.val % 10 = 9)

/-! ## The body on whole buffers, one control case at a time

Every load and every store of the body goes through the rectangle that is the whole buffer, at the origin. So a load reads
the buffer's contents, a store replaces them, and a load after a store reads what was stored. -/

/-- Both coordinates of the origin are zero. -/
theorem zero2 : (![0, 0] : Fin 2 → Nat) = fun _ => 0 := funext fun a => by fin_cases a <;> rfl

set_option maxHeartbeats 1000000 in
/-- AT THE FIRST POINT the sums' buffer and the counts' buffer may hold anything: the body overwrites both with zeros before it
    reads them, then adds the tile's sums to the zero block and the tile's counts to the zero column. No division. -/
theorem pool_first2 (c : Dev nD) (E : Set ℕ) (i : grid2.Coords)
    (a1 : Memref sig .tc .vmem S1000x512 .f32) (ha1 : a1.IsWhole) (a2 : Memref sig .tc .vmem S1000x1 .i32) (ha2 : a2.IsWhole)
    (a3 : Memref sig .tc .vmem S256x512 .f32) (ha3 : a3.IsWhole) (a4 : Memref sig .tc .vmem S256x1 .f32) (ha4 : a4.IsWhole)
    (hf : first2 i) (hl : ¬last2 i)
    (x : Vec F S1000x512 .f32) (b : Vec F S1000x1 .i32) (K : PUnit → sProp 𝕄) :
    iprop(owns (c : Thread nD τ) a1 fullShare x ∗ owns (c : Thread nD τ) a2 fullShare b
        ∗ (∃ d, owns (c : Thread nD τ) a3 fullShare d) ∗ (∃ d, owns (c : Thread nD τ) a4 fullShare d)
        ∗ (iprop(owns (c : Thread nD τ) a1 fullShare x ∗ owns (c : Thread nD τ) a2 fullShare b
            ∗ owns (c : Thread nD τ) a3 fullShare (k2_pay4 b x (k2_pay1 (F := F)))
            ∗ owns (c : Thread nD τ) a4 fullShare (k2_pay5 b (k2_pay2 (F := F)))) -∗ K ⟨⟩))
      ⊢ wp frame (wpE (defs₀ (F := F)) Variants.none c none) E (cc2__pool_kernel i a1 ha1 a2 ha2 a3 ha3 a4 ha4) K := by
  simp only [cc2__pool_kernel_eq_skeleton]; unfold cc2__pool_kernel_skel
  unfold owns
  iintro ⟨⟨%f1, %hf1, H1⟩, ⟨%f2, %hf2, H2⟩, ⟨%d3, %f3, -, H3⟩, ⟨%d4, %f4, -, H4⟩, Hk⟩
  subst hf1; subst hf2
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero zero2 inb_S256x512_S256x512_0_0 y⟩)]
    rw [View.canon_cons_unit_zero (S := S256x512) zero2]
    simp only [View.readAt_eq_ld, View.ld_unit_zero (S := S1000x1) zero2, View.ld_unit_zero (S := S1000x512) zero2,
      View.ld_unit_zero (S := S256x512) zero2, View.ld_unit_zero (S := S256x1) zero2,
      View.readCov_unit_zero (S := S256x512) _ zero2, View.readCov_unit_zero (S := S256x1) _ zero2]
  iexists _; isplitr
  swap; · iexact H4
  ipureintro
  sl_unfold_words
  rw [View.read_writes_eq_canon _ _ _ (fun y => ⟨_, List.mem_cons_self, View.mem_set_unit_zero zero2 inb_S256x1_S256x1_0_0 y⟩)]
  rw [View.canon_cons_unit_zero (S := S256x1) zero2]
  simp only [View.readAt_eq_ld, View.ld_unit_zero (S := S1000x1) zero2, View.ld_unit_zero (S := S256x1) zero2,
    View.readCov_unit_zero (S := S256x1) _ zero2]

set_option maxHeartbeats 1000000 in
/-- AT A POINT THAT IS NEITHER FIRST NOR LAST the body adds the tile's sums to what the sums' buffer held (`o`) and the tile's
    counts to what the counts' buffer held (`s`), and does nothing else. -/
theorem pool_mid2 (c : Dev nD) (E : Set ℕ) (i : grid2.Coords)
    (a1 : Memref sig .tc .vmem S1000x512 .f32) (ha1 : a1.IsWhole) (a2 : Memref sig .tc .vmem S1000x1 .i32) (ha2 : a2.IsWhole)
    (a3 : Memref sig .tc .vmem S256x512 .f32) (ha3 : a3.IsWhole) (a4 : Memref sig .tc .vmem S256x1 .f32) (ha4 : a4.IsWhole)
    (hf : ¬first2 i) (hl : ¬last2 i)
    (x : Vec F S1000x512 .f32) (b : Vec F S1000x1 .i32) (o : Vec F S256x512 .f32) (s : Vec F S256x1 .f32) (K : PUnit → sProp 𝕄) :
    iprop(owns (c : Thread nD τ) a1 fullShare x ∗ owns (c : Thread nD τ) a2 fullShare b
        ∗ owns (c : Thread nD τ) a3 fullShare o ∗ owns (c : Thread nD τ) a4 fullShare s
        ∗ (iprop(owns (c : Thread nD τ) a1 fullShare x ∗ owns (c : Thread nD τ) a2 fullShare b
            ∗ owns (c : Thread nD τ) a3 fullShare (k2_pay4 b x o)
            ∗ owns (c : Thread nD τ) a4 fullShare (k2_pay5 b s)) -∗ K ⟨⟩))
      ⊢ wp frame (wpE (defs₀ (F := F)) Variants.none c none) E (cc2__pool_kernel i a1 ha1 a2 ha2 a3 ha3 a4 ha4) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero zero2 inb_S256x512_S256x512_0_0 y⟩)]
    rw [View.canon_cons_unit_zero (S := S256x512) zero2]
    simp only [View.readAt_eq_ld, View.ld_unit_zero (S := S1000x1) zero2, View.ld_unit_zero (S := S1000x512) zero2,
      View.ld_unit_zero (S := S256x512) zero2, View.ld_unit_zero (S := S256x1) zero2,
      View.readCov_unit_zero (S := S256x512) _ zero2, View.readCov_unit_zero (S := S256x1) _ zero2]
  iexists _; isplitr
  swap; · iexact H4
  ipureintro
  sl_unfold_words
  rw [View.read_writes_eq_canon _ _ _ (fun y => ⟨_, List.mem_cons_self, View.mem_set_unit_zero zero2 inb_S256x1_S256x1_0_0 y⟩)]
  rw [View.canon_cons_unit_zero (S := S256x1) zero2]
  simp only [View.readAt_eq_ld, View.ld_unit_zero (S := S1000x1) zero2, View.ld_unit_zero (S := S256x1) zero2,
    View.readCov_unit_zero (S := S256x1) _ zero2]

set_option maxHeartbeats 1000000 in
/-- AT THE LAST POINT the body adds as at any later point, then reads both buffers back and replaces the sums by their
    quotient by the counts clamped below by one; the counts stay. -/
theorem pool_last2 (c : Dev nD) (E : Set ℕ) (i : grid2.Coords)
    (a1 : Memref sig .tc .vmem S1000x512 .f32) (ha1 : a1.IsWhole) (a2 : Memref sig .tc .vmem S1000x1 .i32) (ha2 : a2.IsWhole)
    (a3 : Memref sig .tc .vmem S256x512 .f32) (ha3 : a3.IsWhole) (a4 : Memref sig .tc .vmem S256x1 .f32) (ha4 : a4.IsWhole)
    (hf : ¬first2 i) (hl : last2 i)
    (x : Vec F S1000x512 .f32) (b : Vec F S1000x1 .i32) (o : Vec F S256x512 .f32) (s : Vec F S256x1 .f32) (K : PUnit → sProp 𝕄) :
    iprop(owns (c : Thread nD τ) a1 fullShare x ∗ owns (c : Thread nD τ) a2 fullShare b
        ∗ owns (c : Thread nD τ) a3 fullShare o ∗ owns (c : Thread nD τ) a4 fullShare s
        ∗ (iprop(owns (c : Thread nD τ) a1 fullShare x ∗ owns (c : Thread nD τ) a2 fullShare b
            ∗ owns (c : Thread nD τ) a3 fullShare (k2_pay6 (k2_pay4 b x o) (k2_pay5 b s))
            ∗ owns (c : Thread nD τ) a4 fullShare (k2_pay5 b s)) -∗ K ⟨⟩))
      ⊢ wp frame (wpE (defs₀ (F := F)) Variants.none c none) E (cc2__pool_kernel i a1 ha1 a2 ha2 a3 ha3 a4 ha4) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, Hk⟩
  subst hf1; subst hf2; subst hf3; subst hf4
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons_self, View.mem_set_unit_zero zero2 inb_S256x512_S256x512_0_0 y⟩)]
    rw [View.canon_cons_unit_zero (S := S256x512) zero2]
    simp only [View.readAt_eq_ld, View.ld_unit_zero (S := S1000x1) zero2, View.ld_unit_zero (S := S1000x512) zero2,
      View.ld_unit_zero (S := S256x512) zero2, View.ld_unit_zero (S := S256x1) zero2,
      View.readCov_unit_zero (S := S256x512) _ zero2, View.readCov_unit_zero (S := S256x1) _ zero2]
  iexists _; isplitr
  swap; · iexact H4
  ipureintro
  sl_unfold_words
  rw [View.read_writes_eq_canon _ _ _ (fun y => ⟨_, List.mem_cons_self, View.mem_set_unit_zero zero2 inb_S256x1_S256x1_0_0 y⟩)]
  rw [View.canon_cons_unit_zero (S := S256x1) zero2]
  simp only [View.readAt_eq_ld, View.ld_unit_zero (S := S1000x1) zero2, View.ld_unit_zero (S := S256x1) zero2,
    View.readCov_unit_zero (S := S256x1) _ zero2]

/-! ## What the body finds in the windows' buffers -/

/-- The feature window is fetched at every point, so its buffer holds its block there. -/
theorem held2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

/-- The segment-id window likewise. -/
theorem held2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

/-- The output window's one buffer is written back after the last point only; so at any point but the first it still
    holds what the body left at the point before, and that point was not the last: the running sums. -/
theorem kept2_2 (c : Dev nD) (t : Fin cfg2.N) (ht : t.val ≠ 0) (d) :
    (dat2 V c).before 2 t d = (acc2 V c (t.val - 1)).1 := by
  have hN : t.val < 10 := lt_of_lt_of_eq t.isLt (show cfg2.N = 10 from N_2)
  rw [Dat.before_out_kept _ 2 rfl t ht (Bool.eq_false_iff.mpr fun h => by have := (flush2_2 _).mp h; dsimp only at this; omega)
    (fun _ => rfl) (fun _ _ => rfl)]
  dsimp only [dat2]
  exact if_neg (by omega)

/-! ## The running pair and the invariant, point by point -/

/-- Away from the last point the output buffer holds the running sums, -/
theorem oAt2_of_ne (c : Dev nD) (n : ℕ) (h : n ≠ 9) : oAt2 V c n = (acc2 V c n).1 := if_neg h
/-- at the last point their quotient by the clamped counts. -/
theorem oAt2_last (c : Dev nD) (n : ℕ) (h : n = 9) : oAt2 V c n = k2_pay6 (acc2 V c n).1 (acc2 V c n).2 := by
  subst h; exact if_pos rfl

/-- After the first point: the tile's contribution on top of zeros. -/
theorem acc2_first (c : Dev nD) (t : Fin cfg2.N) (h : t.val = 0) :
    acc2 V c t.val = (k2_pay4 (iblk2 V c 1 t) (iblk2 V c 0 t) (k2_pay1 (F := F)), k2_pay5 (iblk2 V c 1 t) (k2_pay2 (F := F))) := by
  obtain ⟨n, hn⟩ := t
  dsimp only at h; subst h; rfl

/-- After a later point: the tile's contribution on top of the pair after the point before. -/
theorem acc2_later (c : Dev nD) (t : Fin cfg2.N) (h : t.val ≠ 0) :
    acc2 V c t.val = (k2_pay4 (iblk2 V c 1 t) (iblk2 V c 0 t) (acc2 V c (t.val - 1)).1,
      k2_pay5 (iblk2 V c 1 t) (acc2 V c (t.val - 1)).2) := by
  obtain ⟨n, hn⟩ := t
  cases n with
  | zero => exact absurd rfl h
  | succ n =>
    have hp : pt2 (n + 1) = ⟨n + 1, hn⟩ := Fin.ext (Nat.mod_eq_of_lt (lt_of_lt_of_eq hn N_2))
    show acc2 V c (n + 1) = _
    rw [show acc2 V c (n + 1) = (k2_pay4 (iblk2 V c 1 (pt2 (n + 1))) (iblk2 V c 0 (pt2 (n + 1))) (acc2 V c n).1,
      k2_pay5 (iblk2 V c 1 (pt2 (n + 1))) (acc2 V c n).2) from rfl, hp]
    rfl

theorem Phi2_zero (c : Dev nD) (n : ℕ) (h : n = 0) : Phi2 V c n = Pipeline.ΦA spec2 c := by subst h; rfl

theorem Phi2_succ (c : Dev nD) (n : ℕ) :
    Phi2 V c (n + 1) = iprop(scr2 c (acc2 V c n).2 ∗ ((∃ d, scr2 (F := F) c d) -∗ Pipeline.ΦA spec2 c)) := rfl

theorem Phi2_pos (c : Dev nD) (n : ℕ) (h : n ≠ 0) :
    Phi2 V c n = iprop(scr2 c (acc2 V c (n - 1)).2 ∗ ((∃ d, scr2 (F := F) c d) -∗ Pipeline.ΦA spec2 c)) := by
  cases n with
  | zero => exact absurd rfl h
  | succ n => rfl

/-! ## The scratch, lent by the handed-over state -/

/-- The handed-over state holds the count scratch whole at some contents, as the last of the core's scoped buffers that
    are no staging buffer of this call. Taking it out leaves a state that, given the scratch back at any contents, is the
    handed-over state again. -/
theorem lend2 (c : Dev nD) :
    (Pipeline.ΦA spec2 c : sProp 𝕄)
      ⊢ iprop((∃ d, owns (c : Thread nD τ) (Memref.whole cc2_scratch0 : Memref sig .tc .vmem S256x1 .f32) fullShare d)
        ∗ ((∃ d, owns (c : Thread nD τ) (Memref.whole cc2_scratch0 : Memref sig .tc .vmem S256x1 .f32) fullShare d)
          -∗ Pipeline.ΦA spec2 c)) := by
  unfold Pipeline.ΦA; rw [scopedRest2_eq]
  simp only [owns_whole]
  iintro ⟨⟨H1, H2, H3, H4, H5, H6, H7, H8, H9, H10, H11, H12, H13, H14, H15, H16, H17, HS⟩, Hg⟩
  isplitl [HS]; · iexact HS
  iintro HS
  isplitr [Hg]; swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact HS

/-! ## The body at a point of the grid -/

/-- What the body is handed at point `t`: the invariant, what is owed, and each window's current buffer. -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back: the next invariant, the same debt, each buffer at what the proof data says the body leaves. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 2000000 in
/-- The two input buffers read their blocks at every point. At the first point the invariant is the handed-over state, which
    lends the scratch at some contents, and the output buffer holds anything; at a later point the invariant holds the scratch
    at the counts after the point before and the output buffer the sums after the point before. Each time the matching case
    of the body applies and leaves the pair after this point — at the last point the sums divided. -/
theorem at_point2 (c : Dev nD) (t : Fin cfg2.N) :
    handed2 V c t ⊢ wp frame (wpE (defs₀ (F := F)) Variants.none c none) Set.univ (bodyAt2 t) (fun _ => returned2 V c t) := by
  unfold handed2 returned2 bodyAt2
  simp only [held2_0, held2_1]
  rw [show (dat2 V c).owesAt () t.succ = (dat2 V c).owesAt () t.castSucc from rfl,
    show (dat2 V c).Φ t.castSucc = Phi2 V c t.val from rfl,
    show (dat2 V c).Φ t.succ = Phi2 V c (t.val + 1) from rfl,
    after2_0, after2_1, after2_2, Phi2_succ]
  have hN : t.val < 10 := lt_of_lt_of_eq t.isLt (show cfg2.N = 10 from N_2)
  by_cases h0 : t.val = 0
  · have hf : first2 (grid2.coords t) := (first2_iff t).mpr (by omega)
    have hl : ¬last2 (grid2.coords t) := fun h => by have := (last2_iff t).mp h; omega
    rw [Phi2_zero V c t.val h0, oAt2_of_ne V c t.val (by omega), acc2_first V c t h0]
    dsimp only
    unfold scr2
    iintro ⟨HΦ, Ho, ⟨%d0, H0⟩, ⟨%d1, H1⟩, ⟨%d2, H2⟩⟩
    ihave ⟨HS, Hw⟩ := (lend2 (F := F) c) $$ HΦ
    iapply (pool_first2 c Set.univ _ _ _ _ _ _ _ _ _ hf hl (iblk2 V c 0 t) (iblk2 V c 1 t) _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2
  · have hf : ¬first2 (grid2.coords t) := fun h => by have := (first2_iff t).mp h; omega
    rw [Phi2_pos V c t.val h0, acc2_later V c t h0]
    simp only [kept2_2 V c t h0]
    by_cases h9 : t.val = 9
    · have hl : last2 (grid2.coords t) := (last2_iff t).mpr (by omega)
      rw [oAt2_last V c t.val h9, acc2_later V c t h0]
      dsimp only
      unfold scr2
      iintro ⟨⟨HS, Hw⟩, Ho, ⟨%d0, H0⟩, ⟨%d1, H1⟩, ⟨%d2, H2⟩⟩
      iapply (pool_last2 c Set.univ _ _ _ _ _ _ _ _ _ hf hl (iblk2 V c 0 t) (iblk2 V c 1 t)
        (acc2 V c (t.val - 1)).1 (acc2 V c (t.val - 1)).2 _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · have hl : ¬last2 (grid2.coords t) := fun h => by have := (last2_iff t).mp h; omega
      rw [oAt2_of_ne V c t.val h9, acc2_later V c t h0]
      dsimp only
      unfold scr2
      iintro ⟨⟨HS, Hw⟩, Ho, ⟨%d0, H0⟩, ⟨%d1, H1⟩, ⟨%d2, H2⟩⟩
      iapply (pool_mid2 c Set.univ _ _ _ _ _ _ _ _ _ hf hl (iblk2 V c 0 t) (iblk2 V c 1 t)
        (acc2 V c (t.val - 1)).1 (acc2 V c (t.val - 1)).2 _)
      isplitl [H0]; · iexact H0
      isplitl [H1]; · iexact H1
      isplitl [H2]; · iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2

/-- The body obligation of pipeline 2, at every point. -/
theorem body_obligation2 (c : Dev nD) : BodyObligation (dat2 (F := F) V c) (defs₀ (F := F)) Variants.none () Set.univ := fun t => by
  rw [bigSep_W2, bigSep_W2]
  exact at_point2 V c t

/-- What the launch hands the region is the invariant before the first point. -/
theorem hin2 (c : Dev nD) : Pipeline.ΦA spec2 c ⊢ (dat2 V c).Φ 0 := by
  rw [show (dat2 V c).Φ 0 = Pipeline.ΦA spec2 c from rfl]

/-- After the last point the invariant gives the handed-over state back: it holds the scratch, which is what its other half
    asks for. -/
theorem hout2 (c : Dev nD) : (dat2 V c).Φ (Fin.last cfg2.N) ⊢ Pipeline.ΦA spec2 c := by
  rw [show (dat2 V c).Φ (Fin.last cfg2.N) = Phi2 V c (9 + 1) from by
    show Phi2 V c (Fin.last cfg2.N).val = _
    rw [Fin.val_last, show cfg2.N = 10 from N_2], Phi2_succ]
  iintro ⟨HS, Hw⟩
  iapply Hw
  iexists _; iexact HS

end Cert.KernelIdeal.Fr

end
-- ==== Proof.KI.Fold.lean ====
/- The buffer contents at every boundary of the program: the launch memory, then after each stretch of host
   operations what the stretch computes, and after each kernel region the region's arrays at what its write-backs
   leave — every other buffer as the region found it. No host operation and no region writes an argument array, so
   each argument is read back unchanged at the end; each region's output array is what that region's proof data
   say the pipeline leaves in it. -/
import proofs.«416240_j52329881534579_1_alg».proof.Proof.Gen.KernelIdeal.Launch
import proofs.«416240_j52329881534579_1_alg».proof.Proof.Gen.KernelIdeal.Skeleton
import proofs.«416240_j52329881534579_1_alg».proof.Proof.Gen.KernelIdeal.Points
import proofs.«416240_j52329881534579_1_alg».proof.Proof.Gen.KernelIdeal.Regions
import proofs.«416240_j52329881534579_1_alg».proof.Proof.KI.Reg0
import proofs.«416240_j52329881534579_1_alg».proof.Proof.KI.Reg1
import proofs.«416240_j52329881534579_1_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
/-- The same read at the TensorCore's references. -/
abbrev E1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (region 1's entry). -/
abbrev W3 (c : Dev nD) : Valuation τ sig (Elt F) := StableHlo.after hostOps1 (W2 m c)
abbrev E3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the third host stretch (region 2's entry). -/
abbrev W5 (c : Dev nD) : Valuation τ sig (Elt F) := StableHlo.after hostOps2 (W4 m c)
abbrev E5 : (c : Dev nD) → (b : Ref sig .tc) → Buf (Elt F) ((c : Thread nD τ).loc b) := fun c b => W5 m c b
/-- At region 2's exit: the end of the program. -/
def W6 (c : Dev nD) : Valuation τ sig (Elt F) :=
  Pipeline.withArrays spec2 c (W5 m c) fun w => (dat2 (E5 m) c).arrAt w cfg2.N
theorem W6_arr (c : Dev nD) (w : Fin cfg2.W) :
    W6 m c (Proc.devRef .tc (Pipeline.arrRef spec2 w)) = (dat2 (E5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev E6 : (c : Dev nD) → (b : Ref sig .tc) → Buf (Elt F) ((c : Thread nD τ).loc b) := fun c b => W6 m c b
theorem hF2 (c : Dev nD) (w : Fin cfg2.W) : (dat2 (E5 m) c).arrAt w cfg2.N = E6 m c (Pipeline.arrRef spec2 w) :=
  (W6_arr m c w).symm
theorem hrest2 (c : Dev nD) : ∀ b, b ∉ Finset.univ.image (Pipeline.arrRef spec2) → E6 m c b = E5 m c b :=
  fun b hb => W6_of_ne m c b fun w e => hb (Finset.mem_image.mpr ⟨w, Finset.mem_univ _, e⟩)

/-! ## A region changes only its output array -/

/-- Region 0 leaves every buffer but its output array as it found it: an input window's array is read only. -/
theorem W2_keep (c : Dev nD) (b : Ref sig .tc) (hb : b ≠ main_v2) :
    W2 m c (Proc.devRef .tc b) = W1 m c (Proc.devRef .tc b) := by
  by_cases h : ∃ w, Pipeline.arrRef spec0 w = b
  · obtain ⟨w, rfl⟩ := h
    have hw : (cfg0.win w).isOut = false := by
      match w, hb with
      | ⟨0, _⟩, _ => rfl
      | ⟨1, _⟩, _ => rfl
      | ⟨2, _⟩, _ => rfl
      | ⟨3, _⟩, hb => exact absurd rfl hb
    exact (W2_arr m c w).trans (((dat0 (E1 m) c).arrAt_in w hw _).trans (A_eq0 (E1 m) c w))
  · exact W2_of_ne m c b fun w e => h ⟨w, e⟩

theorem W4_keep (c : Dev nD) (b : Ref sig .tc) (hb : b ≠ main_v33) :
    W4 m c (Proc.devRef .tc b) = W3 m c (Proc.devRef .tc b) := by
  by_cases h : ∃ w, Pipeline.arrRef spec1 w = b
  · obtain ⟨w, rfl⟩ := h
    have hw : (cfg1.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, _ => rfl
      | ⟨7, _⟩, hb => exact absurd rfl hb
    exact (W4_arr m c w).trans (((dat1 (E3 m) c).arrAt_in w hw _).trans (A_eq1 (E3 m) c w))
  · exact W4_of_ne m c b fun w e => h ⟨w, e⟩

theorem W6_keep (c : Dev nD) (b : Ref sig .tc) (hb : b ≠ main_v35) :
    W6 m c (Proc.devRef .tc b) = W5 m c (Proc.devRef .tc b) := by
  by_cases h : ∃ w, Pipeline.arrRef spec2 w = b
  · obtain ⟨w, rfl⟩ := h
    have hw : (cfg2.win w).isOut = false := by
      match w, hb with
      | ⟨0, _⟩, _ => rfl
      | ⟨1, _⟩, _ => rfl
      | ⟨2, _⟩, hb => exact absurd rfl hb
    exact (W6_arr m c w).trans (((dat2 (E5 m) c).arrAt_in w hw _).trans (A_eq2 (E5 m) c w))
  · exact W6_of_ne m c b fun w e => h ⟨w, e⟩

/-! ## What reaches the end -/

/-- A buffer no host stretch writes and no region has for its output reaches the end as launched. -/
theorem W6_launch (c : Dev nD) (b : Ref sig .tc) (h0 : b ∉ hostOps0_W) (h1 : b ∉ hostOps1_W) (h2 : b ∉ hostOps2_W)
    (hb0 : b ≠ main_v2) (hb1 : b ≠ main_v33) (hb2 : b ≠ main_v35) :
    W6 m c (Proc.devRef .tc b) = m ((c : Thread nD τ).loc b) :=
  (W6_keep m c b hb2).trans <| (StableHlo.after_of_writes_sub hostOps2 _ hostOps2_writes h2).trans <|
    (W4_keep m c b hb1).trans <| (StableHlo.after_of_writes_sub hostOps1 _ hostOps1_writes h1).trans <|
    (W2_keep m c b hb0).trans <| (StableHlo.after_of_writes_sub hostOps0 _ hostOps0_writes h0).trans rfl

/-- The program's result array at the end is what the last region's pipeline leaves in it. -/
theorem W6_main_v35 (c : Dev nD) : W6 m c (Proc.devRef .tc main_v35) = (dat2 (E5 m) c).arrAt 2 cfg2.N :=
  W6_arr m c 2

/-- Region 2 reads the node outputs as region 1's pipeline left them: the third host stretch does not write them. -/
theorem E5_main_v33 (c : Dev nD) : E5 m c main_v33 = (dat1 (E3 m) c).arrAt 7 cfg1.N :=
  (StableHlo.after_of_writes_sub hostOps2 _ hostOps2_writes (by decide)).trans (W4_arr m c 7)

/-- Region 1 reads the normalised features as region 0's pipeline left them: the second host stretch does not
    write them. -/
theorem E3_main_v2 (c : Dev nD) : E3 m c main_v2 = (dat0 (E1 m) c).arrAt 3 cfg0.N :=
  (StableHlo.after_of_writes_sub hostOps1 _ hostOps1_writes (by decide)).trans (W2_arr m c 3)

/-- The second host stretch starts from buffers in which the normalised features are region 0's output. -/
theorem W2_main_v2 (c : Dev nD) : W2 m c (Proc.devRef .tc main_v2) = (dat0 (E1 m) c).arrAt 3 cfg0.N :=
  W2_arr m c 3

end Cert.KernelIdeal.Fr

end
-- ==== Proof.KI.Run.lean ====
/- The program's run: @main as host stretches and kernel regions in order, each region entered from the buffer
   contents the stretch before it leaves and left at what its pipeline writes back; every weakly fair execution
   terminates, the result array ends at what the last region's pipeline leaves in it, and every argument array ends
   as launched. -/
import proofs.«416240_j52329881534579_1_alg».proof.Proof.Gen.KernelIdeal.Launch
import proofs.«416240_j52329881534579_1_alg».proof.Proof.Gen.KernelIdeal.Skeleton
import proofs.«416240_j52329881534579_1_alg».proof.Proof.Gen.KernelIdeal.Points
import proofs.«416240_j52329881534579_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    obligations, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the obligations: every unscoped buffer at the last boundary's contents, the
    generator register at some state. -/
abbrev Tₙ (c : Dev nD) : sProp 𝕄 := iprop(StableHlo.held (c : Thread nD τ) (Pipeline.ucRefs τ sig) (W6 m c) ∗ ∃ r, prngReg c r)

-- a library lemma stated over the pinned configuration unifies with the printed one only when unification may unfold
-- plain definitions in a metavariable's type
set_option backward.isDefEq.respectTransparency.types false in
/-- Region 0 over the thread state: entered from every unscoped buffer at its entry contents, left at its exit
    contents. Its arrays are split out of the unscoped buffers and put back at what the pipeline leaves; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry contents, left at its exit
    contents. Its arrays are split out of the unscoped buffers and put back at what the pipeline leaves; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The class's invariant of pipeline 2 gives back the generator register and the scoped rest. -/
theorem PhiA_giveback (c : Dev nD) :
    (Pipeline.ΦA spec2 c : sProp 𝕄) ⊢ iprop((∃ r, prngReg c r) ∗ emp ∗ Pipeline.scopedRest spec2 c) := by
  unfold Pipeline.ΦA
  iintro ⟨Hr, Hp⟩
  isplitl [Hp]; · iexact Hp
  isplitr; · iempintro
  iexact Hr

-- a library lemma stated over the pinned configuration unifies with the printed one only when unification may unfold
-- plain definitions in a metavariable's type
set_option backward.isDefEq.respectTransparency.types false in
/-- Region 2 over the thread state: entered from every unscoped buffer at its entry contents, left at its exit
    contents. Its arrays are split out of the unscoped buffers and put back at what the pipeline leaves; the generator
    register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 := hin2 (E5 m) c
    unfold Pipeline.ΦA at h2
    rw [show (pdats m 2 c).Φ 0 = (dat2 (E5 m) c).Φ 0 from rfl]
    iintro ⟨Hp, -, Hr⟩
    iapply h2
    isplitl [Hr]; · iexact Hr
    iexact Hp
  hout c := by
    rw [Pipeline.ownSems0_none]
    exact (hout2 (E5 m) c).trans (PhiA_giveback c)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; the result
    array ends at what region 2's pipeline leaves in it, and every argument array ends as launched. -/
theorem run_main : θ_run defs (onTc (τ := τ) (main (F := F))) ⟨m, fun _ => 0, ρ⟩ (fun r => ∀ c : Dev nD,
      r.2.mem ((c.tc : Thread nD τ).loc main_v35) = (dat2 (E5 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v35 (by decide))).trans (W6_main_v35 m c),
       (h c _ (mem_uc main_arg0 (by decide))).trans (W6_launch m c main_arg0 (by decide) (by decide) (by decide) (by decide) (by decide) (by decide)),
       (h c _ (mem_uc main_arg1 (by decide))).trans (W6_launch m c main_arg1 (by decide) (by decide) (by decide) (by decide) (by decide) (by decide)),
       (h c _ (mem_uc main_arg2 (by decide))).trans (W6_launch m c main_arg2 (by decide) (by decide) (by decide) (by decide) (by decide) (by decide)),
       (h c _ (mem_uc main_arg3 (by decide))).trans (W6_launch m c main_arg3 (by decide) (by decide) (by decide) (by decide) (by decide) (by decide)),
       (h c _ (mem_uc main_arg4 (by decide))).trans (W6_launch m c main_arg4 (by decide) (by decide) (by decide) (by decide) (by decide) (by decide)),
       (h c _ (mem_uc main_arg5 (by decide))).trans (W6_launch m c main_arg5 (by decide) (by decide) (by decide) (by decide) (by decide) (by decide)),
       (h c _ (mem_uc main_arg6 (by decide))).trans (W6_launch m c main_arg6 (by decide) (by decide) (by decide) (by decide) (by decide) (by decide)),
       (h c _ (mem_uc main_arg7 (by decide))).trans (W6_launch m c main_arg7 (by decide) (by decide) (by decide) (by decide) (by decide) (by decide)),
       (h c _ (mem_uc main_arg8 (by decide))).trans (W6_launch m c main_arg8 (by decide) (by decide) (by decide) (by decide) (by decide) (by decide)),
       (h c _ (mem_uc main_arg9 (by decide))).trans (W6_launch m c main_arg9 (by decide) (by decide) (by decide) (by decide) (by decide) (by decide))⟩)

/-- The frame: every weakly fair execution terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

end Cert.KernelIdeal.Fr

end
-- ==== Proof.Spec.lean ====
/- The mathematics both programs compute, one output entry at a time, over the extended reals.
   A row's layer normalisation; a row of the linear update, rectified and normalised; one entry of the
   segment mean pool. The three float literals the programs share are kept as the values of their bit patterns. -/
import Idealize.ShloMosaic.PureOps.Ideal
import Idealize.ShloMosaic.PureOps.Ideal.Laws
import Mathlib.Algebra.BigOperators.Group.Finset.Basic

noncomputable section

namespace Cert.Spec

open Idealize.ShloMosaic

/-- The literal 512.0. -/
def c512 : EReal := Ideal.ofBits .f32 0x44000000#32
/-- The literal added under the reciprocal square root (the float nearest 1e-5). -/
def ceps : EReal := Ideal.ofBits .f32 0x3727C5AC#32
/-- The literal 1.0. -/
def cone : EReal := Ideal.ofBits .f32 0x3F800000#32

/-- The mean of a row of 512 entries: their sum divided by 512. -/
def rowMean (x : Fin 512 → EReal) : EReal := Ideal.div (∑ k : Fin 512, x k) c512

/-- Layer normalisation of one row, at column `q`: the centred entry times the reciprocal square root of the
    row's mean squared deviation plus the literal, times the weight, plus the bias. -/
def lnRow (x w b : Fin 512 → EReal) (q : Fin 512) : EReal :=
  ((x q - rowMean x) * Ideal.rsqrt (rowMean (fun k => (x k - rowMean x) * (x k - rowMean x)) + ceps)) * w q + b q

/-- One row of the update before normalisation, at output column `j`: the neighbour mean's row against row `j` of
    the first matrix, plus the node's row against row `j` of the second, plus the bias, clamped below by zero. -/
def sagePre (mean h : Fin 512 → EReal) (Wn Wr : Fin 512 → Fin 512 → EReal) (bias : Fin 512 → EReal) (j : Fin 512) : EReal :=
  max (((∑ k : Fin 512, mean k * Wn j k) + (∑ k : Fin 512, h k * Wr j k)) + bias j) 0

/-- One row of the update, normalised. -/
def sageRow (mean h : Fin 512 → EReal) (Wn Wr : Fin 512 → Fin 512 → EReal) (bias lw lb : Fin 512 → EReal) (j : Fin 512) : EReal :=
  lnRow (sagePre mean h Wn Wr bias) lw lb j

/-- Whether node `r` belongs to segment `s`, as 0 or 1: its 32-bit label is the word `s`. -/
def member (batch : Fin 10000 → BitVec 32) (s : Fin 256) (r : Fin 10000) : EReal :=
  if batch r = BitVec.ofNat 32 s.val then 1 else 0

/-- One entry of the segment mean pool: the sum of a column over the nodes of segment `s`, divided by the number
    of those nodes clamped below by one. -/
def poolAt (col : Fin 10000 → EReal) (batch : Fin 10000 → BitVec 32) (s : Fin 256) : EReal :=
  Ideal.div (∑ r : Fin 10000, member batch s r * col r) (max (∑ r : Fin 10000, member batch s r) cone)

end Cert.Spec

end
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.Val.KLn.lean ====
/- What region 0's pipeline leaves in the normalised-features array, one entry at a time: row `r` of the array the
   region found in its first window, normalised with the weight and bias rows it found in the other two. Each of the
   ten grid points writes back its own 1000 rows; together they cover the array. -/
import proofs.«416240_j52329881534579_1_alg».proof.Proof.KI.Reg0
import proofs.«416240_j52329881534579_1_alg».proof.Proof.Spec
import proofs.«416240_j52329881534579_1_alg».proof.Proof.LibLayoutColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
variable (V : (c : Dev nD) → (b : Ref sig .tc) → Buf (Elt Ideal) ((c : Thread nD τ).loc b))

namespace LnRegion

/-! ## The body's arithmetic at one entry of a block -/

/-- The lane sum of a 1000×512 block, at row `p`: the sum of that row's 512 entries. -/
theorem laneSum_apply (x : FVec Ideal S1000x512 .f32) (p : Fin 1000) :
    multiReduction (F := Ideal) .add [1] S1000 x 0x00000000#32 reduces_S1000x512_S1000 (.inl rfl) rfl (ix1 p)
      = ∑ k : Fin 512, x (ix2 p k) := by
  refine (Ideal.multiReduction_add_single x 0x00000000#32 reduces_S1000x512_S1000 (.inl rfl) rfl (ix1 p)).trans ?_
  refine Finset.sum_congr rfl fun k _ => congrArg x ?_
  funext a
  match a with
  | ⟨0, _⟩ => rfl
  | ⟨1, _⟩ => rfl

/-- The lane sum kept as a column and divided by the literal 512, at row `p`: the row's mean. -/
theorem meanColumn_apply (x : FVec Ideal S1000x512 .f32) (p : Fin 1000) :
    divf (shapeCast S1000x1 (multiReduction (F := Ideal) .add [1] S1000 x 0x00000000#32 reduces_S1000x512_S1000 (.inl rfl) rfl)
        shapeCasts_S1000_S1000x1) (broadcast S1000x1 (Scalar.ofBits (F := Ideal) .f32 0x44000000#32)) (ix2 p (0 : Fin 1))
      = Cert.Spec.rowMean (fun k => x (ix2 p k)) := by
  rw [divf_apply, broadcast_apply, shapeCast_a_a1_apply, laneSum_apply]
  rfl

/-- The reciprocal square root of a vector, at an index. -/
theorem rsqrt_apply {s : Shape} {φ : FTy} (a : FVec Ideal s φ) (i : s.Idx) : rsqrt a i = Ideal.rsqrt (a i) := rfl

/-- The block with each row's mean taken off, at `(p, q)`. -/
theorem centred_apply (x : FVec Ideal S1000x512 .f32) (p : Fin 1000) (q : Fin 512) :
    subf x (broadcastTo S1000x512
        (divf (shapeCast S1000x1 (multiReduction (F := Ideal) .add [1] S1000 x 0x00000000#32 reduces_S1000x512_S1000 (.inl rfl) rfl)
          shapeCasts_S1000_S1000x1) (broadcast S1000x1 (Scalar.ofBits (F := Ideal) .f32 0x44000000#32)))
        broadcasts_S1000x1_S1000x512) (ix2 p q)
      = x (ix2 p q) - Cert.Spec.rowMean (fun k => x (ix2 p k)) := by
  rw [subf_apply, broadcastTo_a1_ab_apply, meanColumn_apply]

/-- A block `d` whose row `p` is `row`, scaled row by row with the reciprocal square root of its rows' mean squares
    plus the literal, then by the weight row, plus the bias row, at `(p, q)`. -/
theorem scaled_apply (d : FVec Ideal S1000x512 .f32) (w b : Vec Ideal S1x512 .f32) (p : Fin 1000) (q : Fin 512)
    (row : Fin 512 → EReal) (hd : ∀ k : Fin 512, d (ix2 p k) = row k) :
    addf (mulf (mulf d (broadcastTo S1000x512
          (rsqrt (addf (divf (shapeCast S1000x1 (multiReduction (F := Ideal) .add [1] S1000 (mulf d d) 0x00000000#32 reduces_S1000x512_S1000 (.inl rfl) rfl)
              shapeCasts_S1000_S1000x1) (broadcast S1000x1 (Scalar.ofBits (F := Ideal) .f32 0x44000000#32)))
            (broadcast S1000x1 (Scalar.ofBits (F := Ideal) .f32 0x3727C5AC#32))))
          broadcasts_S1000x1_S1000x512))
        (broadcastTo S1000x512 (shapeCast S1x512 w shapeCasts_S1x512_S1x512) broadcasts_S1x512_S1000x512))
      (broadcastTo S1000x512 (shapeCast S1x512 b shapeCasts_S1x512_S1x512) broadcasts_S1x512_S1000x512) (ix2 p q)
      = (row q * Ideal.rsqrt (Cert.Spec.rowMean (fun k => row k * row k) + Cert.Spec.ceps))
          * w (ix2 (0 : Fin 1) q) + b (ix2 (0 : Fin 1) q) := by
  rw [addf_apply, mulf_apply, mulf_apply, broadcastTo_a1_ab_apply, broadcastTo_1b_ab_apply, broadcastTo_1b_ab_apply,
    shapeCast_self, shapeCast_self, rsqrt_apply, addf_apply, broadcast_apply, meanColumn_apply, hd q,
    show (fun k : Fin 512 => mulf d d (ix2 p k)) = fun k => row k * row k from funext fun k => by rw [mulf_apply, hd k]]
  rfl

/-- The body's stored value at `(p, q)` of the block: the layer normalisation of row `p` of the loaded block with the
    loaded weight and bias rows, at column `q`. -/
theorem ln_pay_apply (x : Vec Ideal S1000x512 .f32) (w b : Vec Ideal S1x512 .f32) (p : Fin 1000) (q : Fin 512) :
    k0_pay1 (F := Ideal) x w b (ix2 p q)
      = Cert.Spec.lnRow (fun k => x (ix2 p k)) (fun k => w (ix2 (0 : Fin 1) k)) (fun k => b (ix2 (0 : Fin 1) k)) q := by
  unfold k0_pay1
  dsimp only
  exact scaled_apply _ w b p q _ (fun k => centred_apply x p k)

/-! ## From the blocks to the array -/

/-- The body's rectangles start at the zero offsets. -/
theorem zero_offsets : (![0, 0] : Fin 2 → Nat) = fun _ => 0 := funext fun a => by fin_cases a <;> rfl

/-- The array of normalised rows: entry `(r, q)` is the layer normalisation of row `r` of `X` with the one weight row
    `W` and the one bias row `B`, at column `q`. -/
def lnArr (X : S10000x512.Idx → EReal) (W B : S1x512.Idx → EReal) : S10000x512.Idx → EReal := fun i =>
  Cert.Spec.lnRow (fun k => X (ix2 (i 0) k)) (fun k => W (ix2 (0 : Fin 1) k)) (fun k => B (ix2 (0 : Fin 1) k)) (i 1)

/-- The printed index maps over the ten points: the input's and the output's blocks are block `t` of their rows and the
    one block of columns; the weight and bias rows are always their one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the array of normalised rows of the arrays the region found. -/
theorem flushed_eq (c : Dev nD) (t : Fin cfg0.N) :
    (dat0 (F := Ideal) V c).flushed 3 t
      = ((cfg0.win 3).blk t).view.read (Elt Ideal) (lnArr (V c main_arg0) (V c main_v0) (V c main_v1)) := by
  show (cfg0.win 3).cut (grid0.coords t) ((dat0 (F := Ideal) V c).after 3 t) = _
  rw [after0_3]
  unfold out0_3
  rw [View.canon_unit_zero zero_offsets]
  simp only [View.ld_unit_zero (S := S1000x512) zero_offsets, View.ld_unit_zero (S := S1x512) zero_offsets]
  obtain ⟨e00, e01, e10, e11, e20, e21, e30, e31⟩ := block_indices t
  have ht : t.val < 10 := t.isLt
  funext j
  obtain ⟨p, q, rfl⟩ : ∃ (p : Fin 1000) (q : Fin 512), j = ix2 p q := ⟨j 0, j 1, eq_ix2 j⟩
  have hi : ((cfg0.win 3).blk t).view.emb (ix2 p q) = ix2 (⟨1000 * t.val + p.val, by omega⟩ : Fin 10000) q := by
    funext a; apply Fin.ext
    match a with
    | ⟨0, _⟩ => show win0_3.index t (0 : Fin 2) * 1000 + 1 * p.val = 1000 * t.val + p.val; omega
    | ⟨1, _⟩ => show win0_3.index t (1 : Fin 2) * 512 + 1 * q.val = q.val; omega
  show k0_pay1 (F := Ideal) (iblk0 V c 0 t) (iblk0 V c 1 t) (iblk0 V c 2 t) (ix2 p q)
    = lnArr (V c main_arg0) (V c main_v0) (V c main_v1) (((cfg0.win 3).blk t).view.emb (ix2 p q))
  rw [hi, ln_pay_apply]
  show _ = Cert.Spec.lnRow (fun k => V c main_arg0 (ix2 (⟨1000 * t.val + p.val, by omega⟩ : Fin 10000) k))
    (fun k => V c main_v0 (ix2 (0 : Fin 1) k)) (fun k => V c main_v1 (ix2 (0 : Fin 1) k)) q
  have hx : (fun k : Fin 512 => iblk0 V c 0 t (ix2 p k))
      = fun k => V c main_arg0 (ix2 (⟨1000 * t.val + p.val, by omega⟩ : Fin 10000) k) := by
    funext k
    show V c main_arg0 (((cfg0.win 0).blk t).view.emb (ix2 p k)) = _
    congr 1
    funext a; apply Fin.ext
    match a with
    | ⟨0, _⟩ => show win0_0.index t (0 : Fin 2) * 1000 + 1 * p.val = 1000 * t.val + p.val; omega
    | ⟨1, _⟩ => show win0_0.index t (1 : Fin 2) * 512 + 1 * k.val = k.val; omega
  have hw : (fun k : Fin 512 => iblk0 V c 1 t (ix2 (0 : Fin 1) k)) = fun k => V c main_v0 (ix2 (0 : Fin 1) k) := by
    funext k
    show V c main_v0 (((cfg0.win 1).blk t).view.emb (ix2 (0 : Fin 1) k)) = _
    congr 1
    funext a; apply Fin.ext
    match a with
    | ⟨0, _⟩ => show win0_1.index t (0 : Fin 2) * 1 + 1 * 0 = 0; omega
    | ⟨1, _⟩ => show win0_1.index t (1 : Fin 2) * 512 + 1 * k.val = k.val; omega
  have hb : (fun k : Fin 512 => iblk0 V c 2 t (ix2 (0 : Fin 1) k)) = fun k => V c main_v1 (ix2 (0 : Fin 1) k) := by
    funext k
    show V c main_v1 (((cfg0.win 2).blk t).view.emb (ix2 (0 : Fin 1) k)) = _
    congr 1
    funext a; apply Fin.ext
    match a with
    | ⟨0, _⟩ => show win0_2.index t (0 : Fin 2) * 1 + 1 * 0 = 0; omega
    | ⟨1, _⟩ => show win0_2.index t (1 : Fin 2) * 512 + 1 * k.val = k.val; omega
  rw [hx, hw, hb]

/-- An index of the array is in point `t`'s block iff each coordinate is in the block's range on its axis. -/
theorem mem_block (t : Fin cfg0.N) (i : S10000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v2).slice (win0_3.rect t)).set ↔ _
  rw [View.set_slice_whole, Rect.mem_set_unit]
  exact Iff.rfl

/-- Every entry of the array lies in the block of the point its row number divided by 1000 names, and that point writes
    its block back. -/
theorem covered (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  have hN : grid0.N = 10 := N_0
  have hlt : (i 0).val / 1000 < grid0.N := by omega
  obtain ⟨-, -, -, -, -, -, e30, e31⟩ := block_indices ⟨(i 0).val / 1000, hlt⟩
  refine ⟨⟨(i 0).val / 1000, hlt⟩, flush0_3 _, ?_⟩
  rw [mem_block]
  intro a
  match a with
  | ⟨0, _⟩ =>
    show win0_3.index ⟨(i 0).val / 1000, hlt⟩ (0 : Fin 2) * 1000 ≤ (i 0).val
      ∧ (i 0).val < win0_3.index ⟨(i 0).val / 1000, hlt⟩ (0 : Fin 2) * 1000 + 1000
    rw [e30]
    show (i 0).val / 1000 * 1000 ≤ (i 0).val ∧ (i 0).val < (i 0).val / 1000 * 1000 + 1000
    omega
  | ⟨1, _⟩ =>
    show win0_3.index ⟨(i 0).val / 1000, hlt⟩ (1 : Fin 2) * 512 ≤ (i 1).val
      ∧ (i 1).val < win0_3.index ⟨(i 0).val / 1000, hlt⟩ (1 : Fin 2) * 512 + 512
    rw [e31]
    omega

/-- So after the ten points the output array is the array of normalised rows. -/
theorem final (c : Dev nD) :
    (dat0 (F := Ideal) V c).arrAt 3 cfg0.N = lnArr (V c main_arg0) (V c main_v0) (V c main_v1) :=
  (dat0 (F := Ideal) V c).arrAt_eq_of_cover 3 (lnArr (V c main_arg0) (V c main_v0) (V c main_v1))
    (fun t _ => flushed_eq V c t) covered

end LnRegion

theorem kernel_ln (c : Dev nD) (r : Fin 10000) (q : Fin 512) :
    (dat0 (F := Ideal) V c).arrAt 3 cfg0.N (ix2 r q)
      = Cert.Spec.lnRow (fun k => V c main_arg0 (ix2 r k)) (fun k => V c main_v0 (ix2 0 k)) (fun k => V c main_v1 (ix2 0 k)) q := by
  rw [LnRegion.final V c]
  rfl

end Cert.KernelIdeal.Val

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.Val.KSage.lean ====
/- What region 1's pipeline leaves in the node-outputs array, one entry at a time: row `r` of the neighbour means
   and of the normalised features the region found, against the two transposed weight matrices, with the bias row,
   rectified and normalised with the two rows of the second normalisation. Each of the ten grid points writes back
   its own 1000 rows; together they cover the array. -/
import proofs.«416240_j52329881534579_1_alg».proof.Proof.KI.Reg1
import proofs.«416240_j52329881534579_1_alg».proof.Proof.Spec
import proofs.«416240_j52329881534579_1_alg».proof.Proof.LibRowTile
import proofs.«416240_j52329881534579_1_alg».proof.Proof.LibLayoutColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

/-- The index over a row index with the lane coordinate inserted is the pair. -/
theorem lift_row (p : Fin 1000) (k : Fin 512) :
    reduces_S1000x512_S1000.lift (ix1 p) k = ix2 p k := by
  funext a; apply Fin.ext
  match a with
  | ⟨0, _⟩ => rfl
  | ⟨1, _⟩ => rfl

/-- A lane sum of a block, at row p: the sum of the row's 512 entries. -/
theorem laneSum_apply (y : FVec Ideal S1000x512 .f32) (hacc : (0x00000000#32 : BitVec 32) = 0x00000000#32) (p : Fin 1000) :
    multiReduction (F := Ideal) .add [1] S1000 y 0x00000000#32 reduces_S1000x512_S1000 (.inl rfl) hacc (ix1 p)
      = ∑ k : Fin 512, y (ix2 p k) := by
  refine (Ideal.multiReduction_add_single y 0x00000000#32 reduces_S1000x512_S1000 (.inl rfl) hacc (ix1 p)).trans ?_
  exact Finset.sum_congr rfl fun k _ => congrArg y (lift_row p k)

/-- The column of row means of a block: each row's lane sum, kept as a column, divided by 512. -/
def meanCol (y : FVec Ideal S1000x512 .f32) : FVec Ideal S1000x1 .f32 :=
  divf (shapeCast S1000x1 (multiReduction .add [1] S1000 y 0x00000000#32 reduces_S1000x512_S1000 (.inl rfl) rfl) shapeCasts_S1000_S1000x1)
    (broadcast S1000x1 (Scalar.ofBits .f32 0x44000000#32))

/-- The column of row means at row p is the mean of row p. -/
theorem meanCol_apply (y : FVec Ideal S1000x512 .f32) (p : Fin 1000) :
    meanCol y (ix2 p (0 : Fin 1)) = Cert.Spec.rowMean (fun k => y (ix2 p k)) := by
  unfold meanCol Cert.Spec.rowMean Cert.Spec.c512
  refine (divf_apply _ _ _).trans ?_
  refine congrArg₂ Ideal.div ?_ rfl
  refine (shapeCast_a_a1_apply _ shapeCasts_S1000_S1000x1 p (0 : Fin 1)).trans ?_
  exact laneSum_apply y rfl p

/-- The normalisation half of the body: a block centred by its row means, scaled by the reciprocal square root of
    the rows' mean squared deviations plus the literal, times the weight row, plus the shift row. -/
def normBlk (y : FVec Ideal S1000x512 .f32) (w b : Vec Ideal S1x512 .f32) : FVec Ideal S1000x512 .f32 :=
  have cen : FVec Ideal S1000x512 .f32 := subf y (broadcastTo S1000x512 (meanCol y) broadcasts_S1000x1_S1000x512)
  have inv : FVec Ideal S1000x1 .f32 := rsqrt (addf (meanCol (mulf cen cen)) (broadcast S1000x1 (Scalar.ofBits .f32 0x3727C5AC#32)))
  addf (mulf (mulf cen (broadcastTo S1000x512 inv broadcasts_S1000x1_S1000x512))
      (broadcastTo S1000x512 (shapeCast S1x512 w shapeCasts_S1x512_S1x512) broadcasts_S1x512_S1000x512))
    (broadcastTo S1000x512 (shapeCast S1x512 b shapeCasts_S1x512_S1x512) broadcasts_S1x512_S1000x512)

/-- A block minus its column of row means, at (p, k): the entry minus the mean of row p. -/
theorem centred_apply (y : FVec Ideal S1000x512 .f32) (p : Fin 1000) (k : Fin 512) :
    subf y (broadcastTo S1000x512 (meanCol y) broadcasts_S1000x1_S1000x512) (ix2 p k)
      = y (ix2 p k) - Cert.Spec.rowMean (fun k' => y (ix2 p k')) := by
  refine (subf_apply _ _ _).trans ?_
  refine congrArg (y (ix2 p k) - ·) ?_
  refine (broadcastTo_a1_ab_apply _ broadcasts_S1000x1_S1000x512 p k).trans ?_
  exact meanCol_apply y p

/-- The normalisation of a block at (p, q) is the layer normalisation of row p at column q. -/
theorem normBlk_apply (y : FVec Ideal S1000x512 .f32) (w b : Vec Ideal S1x512 .f32) (p : Fin 1000) (q : Fin 512) :
    normBlk y w b (ix2 p q)
      = Cert.Spec.lnRow (fun k => y (ix2 p k)) (fun k => w (ix2 (0 : Fin 1) k)) (fun k => b (ix2 (0 : Fin 1) k)) q := by
  unfold normBlk Cert.Spec.lnRow
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (centred_apply y p q) ?_
      refine (broadcastTo_a1_ab_apply _ broadcasts_S1000x1_S1000x512 p q).trans ?_
      show Ideal.rsqrt (meanCol _ (ix2 p (0 : Fin 1)) + Cert.Spec.ceps) = _
      refine congrArg (fun z => Ideal.rsqrt (z + Cert.Spec.ceps)) ?_
      refine (meanCol_apply _ p).trans ?_
      refine congrArg Cert.Spec.rowMean (funext fun k => ?_)
      refine (mulf_apply _ _ _).trans ?_
      exact congrArg₂ (· * ·) (centred_apply y p k) (centred_apply y p k)
    · refine (broadcastTo_1b_ab_apply _ broadcasts_S1x512_S1000x512 p q).trans ?_
      rw [shapeCast_self]
  · refine (broadcastTo_1b_ab_apply _ broadcasts_S1x512_S1000x512 p q).trans ?_
    rw [shapeCast_self]

/-- The dimension record of the body's two products is the plain one: rows times contraction, against contraction
    times columns, no batch axes. -/
theorem dot_plain : Cert.Lib.IsPlain (a := 1000) (K := 512) (n := 512) dot_S1000x512_S512x512_S1000x512_1_0_0_1_n_n where
  lc := rfl
  rc := rfl
  ln := rfl
  rn := rfl
  lb := rfl
  rb := rfl
  rank := rfl
  size := rfl

/-- A product into the zero accumulator, at (p, j): row p of the left factor against column j of the right. -/
theorem prod_apply (l : FVec Ideal S1000x512 .bf16) (r : FVec Ideal S512x512 .bf16) (p : Fin 1000) (j : Fin 512) :
    matmul dot_S1000x512_S512x512_S1000x512_1_0_0_1_n_n none l r (constant (F := Ideal) S1000x512 .f32 0x00000000#32) (ix2 p j)
      = ∑ k : Fin 512, l (ix2 p k) * r (ix2 k j) := by
  refine (Ideal.matmul_constant_zero_apply dot_S1000x512_S512x512_S1000x512_1_0_0_1_n_n none l r (ix2 p j)).trans ?_
  exact dot_plain.sum_eq l r (ix2 p j)

/-- The first half of the body: the two products of the row blocks with the matrices, added, plus the bias row,
    clamped below by the zero literal. -/
def preBlk (x0 x1 : Vec Ideal S1000x512 .f32) (x2 x3 : Vec Ideal S512x512 .bf16) (x4 : Vec Ideal S1x512 .f32) : FVec Ideal S1000x512 .f32 :=
  have l0 : FVec Ideal S1000x512 .bf16 := truncf .bf16 (shapeCast S1000x512 x0 shapeCasts_S1000x512_S1000x512) bitsLt_bf16_f32
  have l1 : FVec Ideal S1000x512 .bf16 := truncf .bf16 (shapeCast S1000x512 x1 shapeCasts_S1000x512_S1000x512) bitsLt_bf16_f32
  have m0 : FVec Ideal S512x512 .bf16 := shapeCast S512x512 x2 shapeCasts_S512x512_S512x512
  have m1 : FVec Ideal S512x512 .bf16 := shapeCast S512x512 x3 shapeCasts_S512x512_S512x512
  have z : FVec Ideal S1000x512 .f32 := constant S1000x512 .f32 0x00000000#32
  have bias : FVec Ideal S1000x512 .f32 := broadcastTo S1000x512 (shapeCast S1x512 x4 shapeCasts_S1x512_S1x512) broadcasts_S1x512_S1000x512
  maximumf
    (addf
      (addf (matmul dot_S1000x512_S512x512_S1000x512_1_0_0_1_n_n none l0 m0 z)
        (matmul dot_S1000x512_S512x512_S1000x512_1_0_0_1_n_n none l1 m1 z))
      bias)
    (broadcast S1000x512 (Scalar.ofBits .f32 0x00000000#32))

/-- The rectified block at (p, j) is the update of row p before normalisation, at column j: the matrices are read
    with the contracted coordinate first. -/
theorem preBlk_apply (x0 x1 : Vec Ideal S1000x512 .f32) (x2 x3 : Vec Ideal S512x512 .bf16) (x4 : Vec Ideal S1x512 .f32)
    (p : Fin 1000) (j : Fin 512) :
    preBlk x0 x1 x2 x3 x4 (ix2 p j)
      = Cert.Spec.sagePre (fun k => x0 (ix2 p k)) (fun k => x1 (ix2 p k)) (fun j' k => x2 (ix2 k j')) (fun j' k => x3 (ix2 k j'))
          (fun k => x4 (ix2 (0 : Fin 1) k)) j := by
  unfold preBlk Cert.Spec.sagePre
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · refine (prod_apply _ _ p j).trans ?_
      rw [shapeCast_self, shapeCast_self]
      rfl
    · refine (prod_apply _ _ p j).trans ?_
      rw [shapeCast_self, shapeCast_self]
      rfl
  · refine (broadcastTo_1b_ab_apply _ broadcasts_S1x512_S1000x512 p j).trans ?_
    rw [shapeCast_self]

/-- The body's one stored value is the normalisation of the rectified block. -/
theorem pay_eq (x0 x1 : Vec Ideal S1000x512 .f32) (x2 x3 : Vec Ideal S512x512 .bf16) (x4 x5 x6 : Vec Ideal S1x512 .f32) :
    k1_pay1 (F := Ideal) (k1_pay2 (F := Ideal) x0 x1 x2 x3 x4 x5) x6 = normBlk (preBlk x0 x1 x2 x3 x4) x5 x6 := rfl

/-- The body's stored block at (p, j): the normalised update of row p at column j. -/
theorem pay_apply (x0 x1 : Vec Ideal S1000x512 .f32) (x2 x3 : Vec Ideal S512x512 .bf16) (x4 x5 x6 : Vec Ideal S1x512 .f32)
    (p : Fin 1000) (j : Fin 512) :
    k1_pay1 (F := Ideal) (k1_pay2 (F := Ideal) x0 x1 x2 x3 x4 x5) x6 (ix2 p j)
      = Cert.Spec.sageRow (fun k => x0 (ix2 p k)) (fun k => x1 (ix2 p k)) (fun j' k => x2 (ix2 k j')) (fun j' k => x3 (ix2 k j'))
          (fun k => x4 (ix2 (0 : Fin 1) k)) (fun k => x5 (ix2 (0 : Fin 1) k)) (fun k => x6 (ix2 (0 : Fin 1) k)) j := by
  rw [pay_eq]
  refine (normBlk_apply _ x5 x6 p j).trans ?_
  unfold Cert.Spec.sageRow
  exact congrArg (fun f => Cert.Spec.lnRow f (fun k => x5 (ix2 (0 : Fin 1) k)) (fun k => x6 (ix2 (0 : Fin 1) k)) j)
    (funext fun k => preBlk_apply x0 x1 x2 x3 x4 p k)

variable (V : (c : Dev nD) → (b : Ref sig .tc) → Buf (Elt Ideal) ((c : Thread nD τ).loc b))

theorem hz : (![0, 0] : Fin 2 → Nat) = fun _ => 0 := funext fun a => by fin_cases a <;> rfl

/-- The index maps of the eight windows, decided once over the ten grid points: the two row windows and the output window sit at
    block (t, 0); the matrices, the bias row and the two normalisation rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The neighbour means' block at point t, at (p, k): row 1000 t + p of the array. -/
theorem blk0_apply (c : Dev nD) (t : Fin cfg1.N) (p : Fin 1000) (k : Fin 512) (r : Fin 10000) (hr : r.val = 1000 * t.val + p.val) :
    (iblk1 V c 0 t : Vec Ideal S1000x512 .f32) (ix2 p k) = V c main_v25 (ix2 r k) := by
  obtain ⟨e0, e1, -⟩ := idx_facts t
  unfold iblk1
  rw [View.read_apply]
  show V c main_v25 _ = V c main_v25 _
  refine congrArg (V c main_v25) (funext fun a => Fin.ext ?_)
  match a with
  | ⟨0, _⟩ => show win1_0.index t (0 : Fin 2) * 1000 + 1 * p.val = r.val; omega
  | ⟨1, _⟩ => show win1_0.index t (1 : Fin 2) * 512 + 1 * k.val = k.val; omega

/-- The node features' block at point t, at (p, k): row 1000 t + p of the array. -/
theorem blk1_apply (c : Dev nD) (t : Fin cfg1.N) (p : Fin 1000) (k : Fin 512) (r : Fin 10000) (hr : r.val = 1000 * t.val + p.val) :
    (iblk1 V c 1 t : Vec Ideal S1000x512 .f32) (ix2 p k) = V c main_v2 (ix2 r k) := by
  obtain ⟨-, -, e0, e1, -⟩ := idx_facts t
  unfold iblk1
  rw [View.read_apply]
  show V c main_v2 _ = V c main_v2 _
  refine congrArg (V c main_v2) (funext fun a => Fin.ext ?_)
  match a with
  | ⟨0, _⟩ => show win1_1.index t (0 : Fin 2) * 1000 + 1 * p.val = r.val; omega
  | ⟨1, _⟩ => show win1_1.index t (1 : Fin 2) * 512 + 1 * k.val = k.val; omega

/-- The first matrix's block at any point is the whole matrix. -/
theorem blk2_apply (c : Dev nD) (t : Fin cfg1.N) (k j : Fin 512) :
    (iblk1 V c 2 t : Vec Ideal S512x512 .bf16) (ix2 k j) = V c main_v27 (ix2 k j) := by
  obtain ⟨-, -, -, -, e0, e1, -⟩ := idx_facts t
  unfold iblk1
  rw [View.read_apply]
  show V c main_v27 _ = V c main_v27 _
  refine congrArg (V c main_v27) (funext fun a => Fin.ext ?_)
  match a with
  | ⟨0, _⟩ => show win1_2.index t (0 : Fin 2) * 512 + 1 * k.val = k.val; omega
  | ⟨1, _⟩ => show win1_2.index t (1 : Fin 2) * 512 + 1 * j.val = j.val; omega

/-- The second matrix's block at any point is the whole matrix. -/
theorem blk3_apply (c : Dev nD) (t : Fin cfg1.N) (k j : Fin 512) :
    (iblk1 V c 3 t : Vec Ideal S512x512 .bf16) (ix2 k j) = V c main_v29 (ix2 k j) := by
  obtain ⟨-, -, -, -, -, -, e0, e1, -⟩ := idx_facts t
  unfold iblk1
  rw [View.read_apply]
  show V c main_v29 _ = V c main_v29 _
  refine congrArg (V c main_v29) (funext fun a => Fin.ext ?_)
  match a with
  | ⟨0, _⟩ => show win1_3.index t (0 : Fin 2) * 512 + 1 * k.val = k.val; omega
  | ⟨1, _⟩ => show win1_3.index t (1 : Fin 2) * 512 + 1 * j.val = j.val; omega

/-- The bias row's block at any point is the whole row. -/
theorem blk4_apply (c : Dev nD) (t : Fin cfg1.N) (k : Fin 512) :
    (iblk1 V c 4 t : Vec Ideal S1x512 .f32) (ix2 (0 : Fin 1) k) = V c main_v30 (ix2 (0 : Fin 1) k) := by
  obtain ⟨-, -, -, -, -, -, -, -, e0, e1, -⟩ := idx_facts t
  unfold iblk1
  rw [View.read_apply]
  show V c main_v30 _ = V c main_v30 _
  refine congrArg (V c main_v30) (funext fun a => Fin.ext ?_)
  match a with
  | ⟨0, _⟩ => show win1_4.index t (0 : Fin 2) * 1 + 1 * 0 = 0; omega
  | ⟨1, _⟩ => show win1_4.index t (1 : Fin 2) * 512 + 1 * k.val = k.val; omega

/-- The normalisation weight row's block at any point is the whole row. -/
theorem blk5_apply (c : Dev nD) (t : Fin cfg1.N) (k : Fin 512) :
    (iblk1 V c 5 t : Vec Ideal S1x512 .f32) (ix2 (0 : Fin 1) k) = V c main_v31 (ix2 (0 : Fin 1) k) := by
  obtain ⟨-, -, -, -, -, -, -, -, -, -, e0, e1, -⟩ := idx_facts t
  unfold iblk1
  rw [View.read_apply]
  show V c main_v31 _ = V c main_v31 _
  refine congrArg (V c main_v31) (funext fun a => Fin.ext ?_)
  match a with
  | ⟨0, _⟩ => show win1_5.index t (0 : Fin 2) * 1 + 1 * 0 = 0; omega
  | ⟨1, _⟩ => show win1_5.index t (1 : Fin 2) * 512 + 1 * k.val = k.val; omega

/-- The normalisation shift row's block at any point is the whole row. -/
theorem blk6_apply (c : Dev nD) (t : Fin cfg1.N) (k : Fin 512) :
    (iblk1 V c 6 t : Vec Ideal S1x512 .f32) (ix2 (0 : Fin 1) k) = V c main_v32 (ix2 (0 : Fin 1) k) := by
  obtain ⟨-, -, -, -, -, -, -, -, -, -, -, -, e0, e1, -⟩ := idx_facts t
  unfold iblk1
  rw [View.read_apply]
  show V c main_v32 _ = V c main_v32 _
  refine congrArg (V c main_v32) (funext fun a => Fin.ext ?_)
  match a with
  | ⟨0, _⟩ => show win1_6.index t (0 : Fin 2) * 1 + 1 * 0 = 0; omega
  | ⟨1, _⟩ => show win1_6.index t (1 : Fin 2) * 512 + 1 * k.val = k.val; omega

/-- The row coordinate of an index of the node-outputs array. -/
def rowOf (i : S10000x512.Idx) : Fin 10000 := ⟨(i 0).val, idx2_lt0 i⟩
/-- Its column coordinate. -/
def colOf (i : S10000x512.Idx) : Fin 512 := ⟨(i 1).val, idx2_lt1 i⟩

/-- What the region leaves in the node-outputs array, as one function of the arrays it is entered from: at each
    index the normalised update of that row, at that column. -/
def sageArr (c : Dev nD) : S10000x512.Idx → EReal := fun i =>
  Cert.Spec.sageRow (fun k => V c main_v25 (ix2 (rowOf i) k)) (fun k => V c main_v2 (ix2 (rowOf i) k))
    (fun j' k => V c main_v27 (ix2 k j')) (fun j' k => V c main_v29 (ix2 k j'))
    (fun k => V c main_v30 (ix2 0 k)) (fun k => V c main_v31 (ix2 0 k)) (fun k => V c main_v32 (ix2 0 k)) (colOf i)

/-- The update's value depends on its seven arguments only through their entries. -/
theorem sageRow_congr {m m' h h' : Fin 512 → EReal} {Wn Wn' Wr Wr' : Fin 512 → Fin 512 → EReal}
    {b b' lw lw' lb lb' : Fin 512 → EReal} (j : Fin 512)
    (hm : ∀ k, m k = m' k) (hh : ∀ k, h k = h' k) (hn : ∀ j' k, Wn j' k = Wn' j' k) (hr : ∀ j' k, Wr j' k = Wr' j' k)
    (hb : ∀ k, b k = b' k) (hlw : ∀ k, lw k = lw' k) (hlb : ∀ k, lb k = lb' k) :
    Cert.Spec.sageRow m h Wn Wr b lw lb j = Cert.Spec.sageRow m' h' Wn' Wr' b' lw' lb' j := by
  obtain rfl : m = m' := funext hm
  obtain rfl : h = h' := funext hh
  obtain rfl : Wn = Wn' := funext fun j' => funext (hn j')
  obtain rfl : Wr = Wr' := funext fun j' => funext (hr j')
  obtain rfl : b = b' := funext hb
  obtain rfl : lw = lw' := funext hlw
  obtain rfl : lb = lb' := funext hlb
  rfl

/-- WHAT POINT t WRITES BACK is block t of that function: the body's stored block at (p, q) is the normalised
    update of the block's row p, which is row 1000 t + p of the arrays. -/
theorem flushed_eq (c : Dev nD) (t : Fin cfg1.N) :
    (dat1 (F := Ideal) V c).flushed 7 t = ((cfg1.win 7).blk t).view.read (Elt Ideal) (sageArr V c) := by
  show (cfg1.win 7).cut (grid1.coords t) ((dat1 V c).after 7 t) = _
  rw [after1_7]
  unfold out1_7
  rw [View.canon_unit_zero hz]
  simp only [View.ld_unit_zero (S := S1000x512) hz, View.ld_unit_zero (S := S512x512) hz, View.ld_unit_zero (S := S1x512) hz]
  obtain ⟨-, -, -, -, -, -, -, -, -, -, -, -, -, -, e0, e1⟩ := idx_facts t
  funext y
  have hy0 : (y 0).val < 1000 := (y 0).isLt
  have hy1 : (y 1).val < 512 := (y 1).isLt
  have hN : grid1.N = 10 := N_1
  have ht : t.val < grid1.N := t.isLt
  obtain ⟨p, hp⟩ : ∃ p : Fin 1000, p.val = (y 0).val := ⟨⟨_, hy0⟩, rfl⟩
  obtain ⟨q, hq⟩ : ∃ q : Fin 512, q.val = (y 1).val := ⟨⟨_, hy1⟩, rfl⟩
  obtain ⟨r, hr⟩ : ∃ r : Fin 10000, r.val = 1000 * t.val + p.val := ⟨⟨1000 * t.val + p.val, by omega⟩, rfl⟩
  have hx : (cfg1.win 7).xinj (grid1.coords t) y = ix2 p q := funext fun a => Fin.ext (by
    match a with
    | ⟨0, _⟩ => exact hp.symm
    | ⟨1, _⟩ => exact hq.symm)
  have he : ((cfg1.win 7).blk t).view.emb y = ix2 r q := funext fun a => Fin.ext (by
    match a with
    | ⟨0, _⟩ => show win1_7.index t (0 : Fin 2) * 1000 + 1 * (y 0).val = r.val; omega
    | ⟨1, _⟩ => show win1_7.index t (1 : Fin 2) * 512 + 1 * (y 1).val = q.val; omega)
  show k1_pay1 (F := Ideal) (k1_pay2 (F := Ideal) (iblk1 V c 0 t) (iblk1 V c 1 t) (iblk1 V c 2 t) (iblk1 V c 3 t) (iblk1 V c 4 t) (iblk1 V c 5 t)) (iblk1 V c 6 t)
      ((cfg1.win 7).xinj (grid1.coords t) y) = sageArr V c (((cfg1.win 7).blk t).view.emb y)
  rw [hx, he]
  refine (pay_apply (iblk1 V c 0 t) (iblk1 V c 1 t) (iblk1 V c 2 t) (iblk1 V c 3 t) (iblk1 V c 4 t) (iblk1 V c 5 t) (iblk1 V c 6 t) p q).trans ?_
  exact sageRow_congr q (fun k => blk0_apply V c t p k r hr) (fun k => blk1_apply V c t p k r hr)
    (fun j' k => blk2_apply V c t k j') (fun j' k => blk3_apply V c t k j')
    (fun k => blk4_apply V c t k) (fun k => blk5_apply V c t k) (fun k => blk6_apply V c t k)

/-- An index of the array is in point t's block iff each coordinate is in the block's range on its axis. -/
theorem mem_blk (t : Fin cfg1.N) (i : S10000x512.Idx) :
    i ∈ ((cfg1.win 7).blk t).view.set ↔ ∀ a : Fin 2, win1_7.index t a * S1000x512.size a ≤ (i a).val ∧ (i a).val < win1_7.index t a * S1000x512.size a + S1000x512.size a := by
  show i ∈ ((View.whole main_v33).slice (win1_7.rect t)).set ↔ _
  rw [View.set_slice_whole, Rect.mem_set_unit]
  exact Iff.rfl

/-- The ten blocks of 1000 rows cover the array: row r is in the block of point r / 1000. -/
theorem covered (i : S10000x512.Idx) :
    ∃ t : Fin cfg1.N, (cfg1.win 7).flush t = true ∧ i ∈ ((cfg1.win 7).blk t).view.set := by
  have hi0 : (i 0).val < 10000 := idx2_lt0 i
  have hi1 : (i 1).val < 512 := idx2_lt1 i
  have hN : grid1.N = 10 := N_1
  obtain ⟨t, ht⟩ : ∃ t : Fin cfg1.N, t.val = (i 0).val / 1000 := ⟨⟨(i 0).val / 1000, by show _ < grid1.N; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 512 ≤ (i 1).val ∧ (i 1).val < win1_7.index t (1 : Fin 2) * 512 + 512; omega

theorem kernel_sage (c : Dev nD) (r : Fin 10000) (j : Fin 512) :
    (dat1 (F := Ideal) V c).arrAt 7 cfg1.N (ix2 r j)
      = Cert.Spec.sageRow (fun k => V c main_v25 (ix2 r k)) (fun k => V c main_v2 (ix2 r k))
          (fun j' k => V c main_v27 (ix2 k j')) (fun j' k => V c main_v29 (ix2 k j'))
          (fun k => V c main_v30 (ix2 0 k)) (fun k => V c main_v31 (ix2 0 k)) (fun k => V c main_v32 (ix2 0 k)) j := by
  have h := (dat1 (F := Ideal) V c).arrAt_eq_of_cover 7 (sageArr V c) (fun t _ => flushed_eq V c t) covered
  exact congrFun h (ix2 r j)

end Cert.KernelIdeal.Val

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.Val.KPool.lean ====
/- What region 2's pipeline leaves in the result array, one entry at a time: the output block is written back
   once, after the last grid point, holding the sums accumulated over the ten tiles of 1000 nodes divided by the
   accumulated counts clamped below by one. A tile's contribution to segment `s` is the product of the tile's 0/1
   membership matrix, transposed, with the tile's rows; over the ten tiles these are the sums over all nodes. -/
import proofs.«416240_j52329881534579_1_alg».proof.Proof.KI.Reg2
import proofs.«416240_j52329881534579_1_alg».proof.Proof.Spec
import proofs.«416240_j52329881534579_1_alg».proof.Proof.LibLayoutColumn
import proofs.«416240_j52329881534579_1_alg».proof.Proof.LibTileSum
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open scoped BigOperators

/-! ## The body's arithmetic, one entry at a time -/

/-- A one-bit word widened to 32 bits and read as a signed integer is 1 where the bit is set and 0 elsewhere. -/
theorem bit_toInt (b : BitVec 1) : (((b.setWidth 32).toInt : ℝ) : EReal) = if b = 1#1 then 1 else 0 := by
  rcases BitVec.eq_zero_or_eq_one b with rfl | rfl
  · rw [if_neg (by decide)]; norm_num
  · rw [if_pos rfl]; norm_num

/-- The position word along a row of 256 lanes: lane s holds the word s. -/
theorem lane_word (s : Fin 256) :
    iota Kind.tc S1x256 32 [1] iota_S1x256_d1_w32 (ix2 (0 : Fin 1) s) = BitVec.ofNat 32 s.val := by
  show BitVec.ofNat 32 (0 * 256 + s.val) = _
  rw [Nat.zero_mul, Nat.zero_add]

/-- The membership matrix of a tile: entry (p, s) is 1 where row p's label is the word s, and 0 elsewhere. -/
theorem member_tile (v4 : Vec Ideal S1000x1 .i32) (p : Fin 1000) (s : Fin 256) :
    k2_pay3 (F := Ideal) v4 (ix2 p s) = if v4 (ix2 p (0 : Fin 1)) = BitVec.ofNat 32 s.val then 1 else 0 := by
  unfold k2_pay3
  rw [truncf_apply, sitofp_apply, extui_apply]
  show (((BitVec.setWidth 32 (IntOp.cmpi .eq
      (broadcastTo S1000x256 (shapeCast S1000x1 v4 shapeCasts_S1000x1_S1000x1) broadcasts_S1000x1_S1000x256 (ix2 p s))
      (broadcastTo S1000x256 (iota Kind.tc S1x256 32 [1] iota_S1x256_d1_w32) broadcasts_S1x256_S1000x256 (ix2 p s)))).toInt : ℝ) : EReal) = _
  rw [bit_toInt, broadcastTo_a1_ab_apply, broadcastTo_1b_ab_apply, shapeCast_self, lane_word]
  exact if_congr StableHlo.Predicate.cmpi_eq_iff rfl rfl

/-! ### The two contractions: the membership matrix, transposed, against the tile's rows and against a column of ones -/

theorem sums_lhs_0 (i : S256x512.Idx) (q : dot_S1000x256_S1000x512_S256x512_0_0_1_1_n_n.contr.Idx) :
    (dot_S1000x256_S1000x512_S256x512_0_0_1_1_n_n.lhsIdx i q 0).val = (q ⟨0, by decide⟩).val :=
  dot_S1000x256_S1000x512_S256x512_0_0_1_1_n_n.lhsIdx_val_of_single rfl i q
theorem sums_lhs_1 (i : S256x512.Idx) (q : dot_S1000x256_S1000x512_S256x512_0_0_1_1_n_n.contr.Idx) :
    (dot_S1000x256_S1000x512_S256x512_0_0_1_1_n_n.lhsIdx i q 1).val = (i 0).val := by
  unfold DotDims.lhsIdx
  rw [dif_neg (show ¬(1 : Fin S1000x256.rank) ∈ dot_S1000x256_S1000x512_S256x512_0_0_1_1_n_n.lhsBatch by decide), dif_pos (show (1 : Fin S1000x256.rank) ∈ dot_S1000x256_S1000x512_S256x512_0_0_1_1_n_n.lhsNonContracting by decide)]
  rfl
theorem sums_rhs_0 (i : S256x512.Idx) (q : dot_S1000x256_S1000x512_S256x512_0_0_1_1_n_n.contr.Idx) :
    (dot_S1000x256_S1000x512_S256x512_0_0_1_1_n_n.rhsIdx i q 0).val = (q ⟨0, by decide⟩).val :=
  dot_S1000x256_S1000x512_S256x512_0_0_1_1_n_n.rhsIdx_val_of_single rfl i q
theorem sums_rhs_1 (i : S256x512.Idx) (q : dot_S1000x256_S1000x512_S256x512_0_0_1_1_n_n.contr.Idx) :
    (dot_S1000x256_S1000x512_S256x512_0_0_1_1_n_n.rhsIdx i q 1).val = (i 1).val := by
  unfold DotDims.rhsIdx
  rw [dif_neg (show ¬(1 : Fin S1000x512.rank) ∈ dot_S1000x256_S1000x512_S256x512_0_0_1_1_n_n.rhsBatch by decide), dif_pos (show (1 : Fin S1000x512.rank) ∈ dot_S1000x256_S1000x512_S256x512_0_0_1_1_n_n.rhsNonContracting by decide)]
  rfl

/-- The tile's contribution to the sums: entry (s, d) is the sum over the tile's rows p of the left operand at (p, s)
    times the right operand at (p, d). -/
theorem sums_product (l : FVec Ideal S1000x256 .bf16) (r : FVec Ideal S1000x512 .bf16) (s : Fin 256) (d : Fin 512) :
    matmul dot_S1000x256_S1000x512_S256x512_0_0_1_1_n_n none l r (constant (F := Ideal) S256x512 .f32 0x00000000#32) (ix2 s d)
      = ∑ p : Fin 1000, l (ix2 p s) * r (ix2 p d) := by
  simp only [matmul]
  rw [Ideal.matmul_constant_zero_apply, ← Equiv.sum_comp (ValueIdx.contrEquiv1 dot_S1000x256_S1000x512_S256x512_0_0_1_1_n_n 1000 rfl rfl).symm]
  refine Finset.sum_congr rfl fun k _ => ?_
  have hk := ValueIdx.contrEquiv1_symm_val dot_S1000x256_S1000x512_S256x512_0_0_1_1_n_n 1000 rfl rfl k
  have el : dot_S1000x256_S1000x512_S256x512_0_0_1_1_n_n.lhsIdx (ix2 s d) ((ValueIdx.contrEquiv1 dot_S1000x256_S1000x512_S256x512_0_0_1_1_n_n 1000 rfl rfl).symm k) = ix2 k s := funext fun a => Fin.ext (by
    match a with
    | ⟨0, _⟩ => exact (sums_lhs_0 _ _).trans hk
    | ⟨1, _⟩ => exact sums_lhs_1 _ _)
  have er : dot_S1000x256_S1000x512_S256x512_0_0_1_1_n_n.rhsIdx (ix2 s d) ((ValueIdx.contrEquiv1 dot_S1000x256_S1000x512_S256x512_0_0_1_1_n_n 1000 rfl rfl).symm k) = ix2 k d := funext fun a => Fin.ext (by
    match a with
    | ⟨0, _⟩ => exact (sums_rhs_0 _ _).trans hk
    | ⟨1, _⟩ => exact sums_rhs_1 _ _)
  rw [el, er]

theorem counts_lhs_0 (i : S256x1.Idx) (q : dot_S1000x256_S1000x1_S256x1_0_0_1_1_n_n.contr.Idx) :
    (dot_S1000x256_S1000x1_S256x1_0_0_1_1_n_n.lhsIdx i q 0).val = (q ⟨0, by decide⟩).val :=
  dot_S1000x256_S1000x1_S256x1_0_0_1_1_n_n.lhsIdx_val_of_single rfl i q
theorem counts_lhs_1 (i : S256x1.Idx) (q : dot_S1000x256_S1000x1_S256x1_0_0_1_1_n_n.contr.Idx) :
    (dot_S1000x256_S1000x1_S256x1_0_0_1_1_n_n.lhsIdx i q 1).val = (i 0).val := by
  unfold DotDims.lhsIdx
  rw [dif_neg (show ¬(1 : Fin S1000x256.rank) ∈ dot_S1000x256_S1000x1_S256x1_0_0_1_1_n_n.lhsBatch by decide), dif_pos (show (1 : Fin S1000x256.rank) ∈ dot_S1000x256_S1000x1_S256x1_0_0_1_1_n_n.lhsNonContracting by decide)]
  rfl

/-- The tile's contribution to the counts: entry (s, 0) is the sum over the tile's rows p of the left operand at
    (p, s) times the right operand's entry of row p. -/
theorem counts_product (l : FVec Ideal S1000x256 .bf16) (r : FVec Ideal S1000x1 .bf16) (s : Fin 256) :
    matmul dot_S1000x256_S1000x1_S256x1_0_0_1_1_n_n none l r (constant (F := Ideal) S256x1 .f32 0x00000000#32) (ix2 s (0 : Fin 1))
      = ∑ p : Fin 1000, l (ix2 p s) * r (ix2 p (0 : Fin 1)) := by
  simp only [matmul]
  rw [Ideal.matmul_constant_zero_apply, ← Equiv.sum_comp (ValueIdx.contrEquiv1 dot_S1000x256_S1000x1_S256x1_0_0_1_1_n_n 1000 rfl rfl).symm]
  refine Finset.sum_congr rfl fun k _ => ?_
  have hk := ValueIdx.contrEquiv1_symm_val dot_S1000x256_S1000x1_S256x1_0_0_1_1_n_n 1000 rfl rfl k
  have el : dot_S1000x256_S1000x1_S256x1_0_0_1_1_n_n.lhsIdx (ix2 s (0 : Fin 1)) ((ValueIdx.contrEquiv1 dot_S1000x256_S1000x1_S256x1_0_0_1_1_n_n 1000 rfl rfl).symm k) = ix2 k s := funext fun a => Fin.ext (by
    match a with
    | ⟨0, _⟩ => exact (counts_lhs_0 _ _).trans hk
    | ⟨1, _⟩ => exact counts_lhs_1 _ _)
  have er : dot_S1000x256_S1000x1_S256x1_0_0_1_1_n_n.rhsIdx (ix2 s (0 : Fin 1)) ((ValueIdx.contrEquiv1 dot_S1000x256_S1000x1_S256x1_0_0_1_1_n_n 1000 rfl rfl).symm k) = ix2 k (0 : Fin 1) := funext fun a => Fin.ext (by
    match a with
    | ⟨0, _⟩ => exact (dot_S1000x256_S1000x1_S256x1_0_0_1_1_n_n.rhsIdx_val_of_single rfl _ _).trans hk
    | ⟨1, h⟩ =>
      have h1 := (dot_S1000x256_S1000x1_S256x1_0_0_1_1_n_n.rhsIdx (ix2 s (0 : Fin 1)) ((ValueIdx.contrEquiv1 dot_S1000x256_S1000x1_S256x1_0_0_1_1_n_n 1000 rfl rfl).symm k) ⟨1, h⟩).isLt
      have h2 : S1000x1.size ⟨1, h⟩ = 1 := rfl
      show _ = 0
      omega)
  rw [el, er]

/-! ### What a point adds, and the last point's quotient -/

/-- A point's new sums: the sums held so far plus, over the tile's rows, the membership factor times the row's entry. -/
theorem sums_step (v4 : Vec Ideal S1000x1 .i32) (v12 : Vec Ideal S1000x512 .f32) (v18 : Vec Ideal S256x512 .f32)
    (s : Fin 256) (d : Fin 512) :
    k2_pay4 (F := Ideal) v4 v12 v18 (ix2 s d)
      = v18 (ix2 s d) + ∑ p : Fin 1000, (if v4 (ix2 p (0 : Fin 1)) = BitVec.ofNat 32 s.val then (1 : EReal) else 0) * v12 (ix2 p d) := by
  unfold k2_pay4
  rw [addf_apply, shapeCast_self, sums_product]
  refine congrArg (v18 (ix2 s d) + ·) (Finset.sum_congr rfl fun p _ => ?_)
  rw [member_tile, truncf_apply, shapeCast_self]

/-- A point's new counts: the counts held so far plus, over the tile's rows, the membership factor. -/
theorem counts_step (v4 : Vec Ideal S1000x1 .i32) (v22 : Vec Ideal S256x1 .f32) (s : Fin 256) :
    k2_pay5 (F := Ideal) v4 v22 (ix2 s (0 : Fin 1))
      = v22 (ix2 s (0 : Fin 1)) + ∑ p : Fin 1000, (if v4 (ix2 p (0 : Fin 1)) = BitVec.ofNat 32 s.val then (1 : EReal) else 0) := by
  unfold k2_pay5
  rw [shapeCast_self, addf_apply, counts_product]
  refine congrArg (v22 (ix2 s (0 : Fin 1)) + ·) (Finset.sum_congr rfl fun p _ => ?_)
  rw [member_tile, broadcast_apply]
  show _ * Ideal.ofBits .bf16 0x3F80#16 = _
  rw [Ideal.ofBits_one_bf16, mul_one]

/-- The last point's quotient: the sums over the counts clamped below by the literal one. -/
theorem quotient_at (v30 : Vec Ideal S256x512 .f32) (v32 : Vec Ideal S256x1 .f32) (s : Fin 256) (d : Fin 512) :
    k2_pay6 (F := Ideal) v30 v32 (ix2 s d) = Ideal.div (v30 (ix2 s d)) (max (v32 (ix2 s (0 : Fin 1))) Cert.Spec.cone) := by
  unfold k2_pay6
  rw [divf_apply, shapeCast_self, broadcastTo_a1_ab_apply, maximumf_apply, broadcast_apply]
  rfl

/-- The first point starts from zero sums and zero counts. -/
theorem zero_sums (j : S256x512.Idx) : k2_pay1 (F := Ideal) j = 0 := by
  unfold k2_pay1
  rw [broadcast_apply]
  exact Ideal.ofBits_zero_f32

theorem zero_counts (j : S256x1.Idx) : k2_pay2 (F := Ideal) j = 0 := by
  unfold k2_pay2
  rw [shapeCast_self, broadcast_apply]
  exact Ideal.ofBits_zero_f32

/-! ## The blocks the ten points read -/

variable (V : (c : Dev nD) → (b : Ref sig .tc) → Buf (Elt Ideal) ((c : Thread nD τ).loc b))

/-- The printed index maps over the grid: the two input windows move down their arrays one block of rows per point;
    the output window stays on its one block. -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- The row window's block at point t holds rows 1000·t … 1000·t + 999 of the node array. -/
theorem rows_block (c : Dev nD) (t : Fin cfg2.N) (p : Fin 1000) (d : Fin 512) (r : Fin 10000)
    (hr : r.val = 1000 * t.val + p.val) :
    (iblk2 V c 0 t : Vec Ideal S1000x512 .f32) (ix2 p d) = V c main_v33 (ix2 r d) := by
  obtain ⟨e0, e1, -⟩ := index_facts t
  unfold iblk2
  rw [View.read_apply]
  show V c main_v33 _ = V c main_v33 _
  congr 1
  funext a; apply Fin.ext
  match a with
  | ⟨0, _⟩ => show win2_0.index t (0 : Fin 2) * 1000 + 1 * p.val = r.val; rw [e0, hr]; omega
  | ⟨1, _⟩ => show win2_0.index t (1 : Fin 2) * 512 + 1 * d.val = d.val; rw [e1]; omega

/-- The label window's block at point t holds the labels of the same rows. -/
theorem labels_block (c : Dev nD) (t : Fin cfg2.N) (p : Fin 1000) (r : Fin 10000)
    (hr : r.val = 1000 * t.val + p.val) :
    (iblk2 V c 1 t : Vec Ideal S1000x1 .i32) (ix2 p (0 : Fin 1)) = V c main_v34 (ix2 r (0 : Fin 1)) := by
  obtain ⟨-, -, e0, e1, -⟩ := index_facts t
  unfold iblk2
  rw [View.read_apply]
  show V c main_v34 _ = V c main_v34 _
  congr 1
  funext a; apply Fin.ext
  match a with
  | ⟨0, _⟩ => show win2_1.index t (0 : Fin 2) * 1000 + 1 * p.val = r.val; rw [e0, hr]; omega
  | ⟨1, _⟩ => show win2_1.index t (1 : Fin 2) * 1 + 1 * 0 = 0; rw [e1]

/-! ## The ten tiles are the whole axis -/

/-- A function on the 10000 nodes, read at a natural number (zero past the end). -/
def onAxis (f : Fin 10000 → EReal) (e : ℕ) : EReal := if h : e < 10000 then f ⟨e, h⟩ else 0

/-- Ten tiles of 1000 nodes are the 10000 nodes. -/
theorem tiles_total (f : Fin 10000 → EReal) :
    ∑ t' ∈ Finset.range 10, ∑ p : Fin 1000, onAxis f (1000 * t' + p.val) = ∑ r : Fin 10000, f r := by
  rw [Cert.Lib.sum_fin_tiles 1000 10 (onAxis f)]
  show ∑ e : Fin 10000, onAxis f e.val = _
  refine Finset.sum_congr rfl fun e _ => ?_
  unfold onAxis
  rw [dif_pos e.isLt]

/-- What row p of tile n contributes to the sums of segment s at column d. -/
theorem sums_term (c : Dev nD) (s : Fin 256) (d : Fin 512) (n : ℕ) (hn : n < 10) (p : Fin 1000) :
    (if (iblk2 V c 1 (pt2 n) : Vec Ideal S1000x1 .i32) (ix2 p (0 : Fin 1)) = BitVec.ofNat 32 s.val then (1 : EReal) else 0)
        * (iblk2 V c 0 (pt2 n) : Vec Ideal S1000x512 .f32) (ix2 p d)
      = onAxis (fun r => Cert.Spec.member (fun r => V c main_v34 (ix2 r (0 : Fin 1))) s r * V c main_v33 (ix2 r d)) (1000 * n + p.val) := by
  have hlt : 1000 * n + p.val < 10000 := by have := p.isLt; omega
  have hv : ((⟨1000 * n + p.val, hlt⟩ : Fin 10000) : ℕ) = 1000 * (pt2 n).val + p.val := by
    show 1000 * n + p.val = 1000 * (n % 10) + p.val
    rw [Nat.mod_eq_of_lt hn]
  unfold onAxis
  rw [dif_pos hlt, labels_block V c (pt2 n) p ⟨1000 * n + p.val, hlt⟩ hv, rows_block V c (pt2 n) p d ⟨1000 * n + p.val, hlt⟩ hv]
  rfl

/-- What row p of tile n contributes to the count of segment s. -/
theorem counts_term (c : Dev nD) (s : Fin 256) (n : ℕ) (hn : n < 10) (p : Fin 1000) :
    (if (iblk2 V c 1 (pt2 n) : Vec Ideal S1000x1 .i32) (ix2 p (0 : Fin 1)) = BitVec.ofNat 32 s.val then (1 : EReal) else 0)
      = onAxis (Cert.Spec.member (fun r => V c main_v34 (ix2 r (0 : Fin 1))) s) (1000 * n + p.val) := by
  have hlt : 1000 * n + p.val < 10000 := by have := p.isLt; omega
  have hv : ((⟨1000 * n + p.val, hlt⟩ : Fin 10000) : ℕ) = 1000 * (pt2 n).val + p.val := by
    show 1000 * n + p.val = 1000 * (n % 10) + p.val
    rw [Nat.mod_eq_of_lt hn]
  unfold onAxis
  rw [dif_pos hlt, labels_block V c (pt2 n) p ⟨1000 * n + p.val, hlt⟩ hv]
  rfl

/-- The running sums after point n: the contributions of the first n + 1 tiles. -/
theorem acc_sums (c : Dev nD) (s : Fin 256) (d : Fin 512) : ∀ n : ℕ, n < 10 →
    (acc2 (F := Ideal) V c n).1 (ix2 s d)
      = ∑ t' ∈ Finset.range (n + 1), ∑ p : Fin 1000,
          onAxis (fun r => Cert.Spec.member (fun r => V c main_v34 (ix2 r (0 : Fin 1))) s r * V c main_v33 (ix2 r d)) (1000 * t' + p.val)
  | 0, hn => by
    show k2_pay4 (F := Ideal) (iblk2 V c 1 (pt2 0)) (iblk2 V c 0 (pt2 0)) (k2_pay1 (F := Ideal)) (ix2 s d) = _
    rw [sums_step, zero_sums, zero_add, Finset.sum_range_one]
    exact Finset.sum_congr rfl fun p _ => sums_term V c s d 0 hn p
  | n + 1, hn => by
    show k2_pay4 (F := Ideal) (iblk2 V c 1 (pt2 (n + 1))) (iblk2 V c 0 (pt2 (n + 1))) (acc2 (F := Ideal) V c n).1 (ix2 s d) = _
    rw [sums_step, acc_sums c s d n (by omega), Finset.sum_range_succ _ (n + 1)]
    exact congrArg (_ + ·) (Finset.sum_congr rfl fun p _ => sums_term V c s d (n + 1) hn p)

/-- The running counts after point n. -/
theorem acc_counts (c : Dev nD) (s : Fin 256) : ∀ n : ℕ, n < 10 →
    (acc2 (F := Ideal) V c n).2 (ix2 s (0 : Fin 1))
      = ∑ t' ∈ Finset.range (n + 1), ∑ p : Fin 1000,
          onAxis (Cert.Spec.member (fun r => V c main_v34 (ix2 r (0 : Fin 1))) s) (1000 * t' + p.val)
  | 0, hn => by
    show k2_pay5 (F := Ideal) (iblk2 V c 1 (pt2 0)) (k2_pay2 (F := Ideal)) (ix2 s (0 : Fin 1)) = _
    rw [counts_step, zero_counts, zero_add, Finset.sum_range_one]
    exact Finset.sum_congr rfl fun p _ => counts_term V c s 0 hn p
  | n + 1, hn => by
    show k2_pay5 (F := Ideal) (iblk2 V c 1 (pt2 (n + 1))) (acc2 (F := Ideal) V c n).2 (ix2 s (0 : Fin 1)) = _
    rw [counts_step, acc_counts c s n (by omega), Finset.sum_range_succ _ (n + 1)]
    exact congrArg (_ + ·) (Finset.sum_congr rfl fun p _ => counts_term V c s (n + 1) hn p)

/-! ## From the one write-back to the array -/

/-- The one write-back, after the last point, writes the whole output block: block (0, 0) of the 256×512 array read
    through zero offsets is the array. -/
theorem written_back (c : Dev nD) (t : Fin cfg2.N) (hf : (cfg2.win 2).flush t = true) :
    (dat2 (F := Ideal) V c).flushed 2 t = ((cfg2.win 2).blk t).view.read (Elt Ideal) (oAt2 V c 9) := by
  have hlt : t.val < 10 := lt_of_lt_of_eq t.isLt N_2
  have h9 : t.val = 9 := by have := (flush2_2 t).mp hf; omega
  obtain rfl : t = t2_9 := Fin.ext h9
  show (cfg2.win 2).cut (grid2.coords t2_9) ((dat2 V c).after 2 t2_9) = _
  rw [after2_2]
  have hz : (fun a => win2_2.index t2_9 a * main_v35.ty.shape.size a) = fun _ => 0 := funext fun a => by fin_cases a <;> decide
  exact (Memref.read_access_unit_zero (Elt Ideal) main_v35 hz (fun a => by rw [congrFun hz a]; simp) (oAt2 V c 9)).symm

/-- So the result array ends holding what the output block holds after the last point. -/
theorem array_final (c : Dev nD) : (dat2 (F := Ideal) V c).arrAt 2 cfg2.N = oAt2 V c 9 :=
  (dat2 V c).arrAt_eq_of_cover 2 (oAt2 V c 9) (written_back V c) fun i =>
    ⟨t2_9, (flush2_2 t2_9).mpr rfl, by
      show i ∈ ((View.whole main_v35).slice (win2_2.rect t2_9)).set
      rw [View.set_slice_whole, Rect.mem_set_unit]
      intro a
      have h0 : (i 0 : Nat) < 256 := (i 0).isLt
      have h1 : (i 1 : Nat) < 512 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 256 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 512 from by decide +kernel]; omega⟩

theorem kernel_pool (c : Dev nD) (s : Fin 256) (d : Fin 512) :
    (dat2 (F := Ideal) V c).arrAt 2 cfg2.N (ix2 s d)
      = Cert.Spec.poolAt (fun r => V c main_v33 (ix2 r d)) (fun r => V c main_v34 (ix2 r 0)) s := by
  rw [array_final]
  show (if (9 : ℕ) = 9 then k2_pay6 (F := Ideal) (acc2 (F := Ideal) V c 9).1 (acc2 (F := Ideal) V c 9).2 else (acc2 (F := Ideal) V c 9).1) (ix2 s d) = _
  rw [if_pos rfl, quotient_at, acc_sums V c s d 9 (by decide), acc_counts V c s 9 (by decide), tiles_total, tiles_total]
  rfl

end Cert.KernelIdeal.Val

end
-- ==== Proof.Val.RMean.lean ====
/- The neighbour mean as ONE function of the normalised features and the edge list: gather the source rows, add
   them into the destination rows, divide by the destination's edge count clamped below by one. The reference applies
   it to its own normalised features; the kernel's program applies the same host operations to its own. -/
import proofs.«416240_j52329881534579_1_alg».proof.Proof.Gen.ReferenceIdeal.Read
import proofs.«416240_j52329881534579_1_alg».proof.Proof.Spec
import Idealize.ShloMosaic.Lib.ValueIdx
import Idealize.ShloMosaic.Lib.Pipeline.Value
import Idealize.ShloMosaic.PureOps.Ideal.Laws

noncomputable section

namespace Cert.ReferenceIdeal.Val

open Cert.ReferenceIdeal Cert.ReferenceIdeal.Read Idealize.ShloMosaic Idealize.ShloMosaic.TcCoe Idealize.ShloMosaic.ValueIdx

variable {F : FTy → Type} [FloatOps F]

/-- The host chain from the normalised features `h` and the edge list `x1` to the neighbour means. -/
def rmean (h : (⟨S10000x512, .f32⟩ : BufTy).Contents (Elt F)) (x1 : (⟨S2x160000, .i32⟩ : BufTy).Contents (Elt F)) :
    (⟨S10000x512, .f32⟩ : BufTy).Contents (Elt F) :=
  Host.divf (Host.scatterAdd scatter_S10000x512_S160000x1_S160000x512_1_0_0_1 (val_main_v35 (F := F)) (val_main_v36 (F := F) x1)
      (Host.gather gather_S10000x512_S160000x1_S160000x512_1_0_n_n_0_1_1512 h (val_main_v33 (F := F) x1)))
    (val_main_v45 (F := F) x1)

/-- The reference's neighbour means are that chain at its own normalised features. -/
theorem val_main_v46_eq_rmean (x0 : (⟨S10000x512, .f32⟩ : BufTy).Contents (Elt F)) (x1 : (⟨S2x160000, .i32⟩ : BufTy).Contents (Elt F))
    (x3 x4 : (⟨S512, .f32⟩ : BufTy).Contents (Elt F)) :
    val_main_v46 (F := F) x0 x1 x3 x4 = rmean (val_main_v23 (F := F) x0 x3 x4) x1 := rfl

end Cert.ReferenceIdeal.Val

end
-- ==== Proof.Val.KHost.lean ====
/- What the host stretches between the regions compute, read where the regions read it: the weight and bias rows
   are the arguments re-laid as one row; the two matrices are the arguments transposed; the label column is the
   label vector re-laid; and the neighbour means are the shared host chain applied to region 0's output. -/
import proofs.«416240_j52329881534579_1_alg».proof.Proof.KI.Fold
import proofs.«416240_j52329881534579_1_alg».proof.Proof.Val.RMean
import Idealize.ShloMosaic.Lib.StableHlo.Run
import proofs.«416240_j52329881534579_1_alg».proof.Proof.Spec
import proofs.«416240_j52329881534579_1_alg».proof.Proof.LibLayoutColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- A buffer that neither the first host stretch nor region 0 writes holds, at region 0's exit, what was launched. -/
private theorem W2_launch (c : Dev nD) (b : Ref sig .tc) (h0 : b ∉ hostOps0_W) (hb0 : b ≠ main_v2) :
    W2 m c (Proc.devRef .tc b) = m ((c : Thread nD τ).loc b) :=
  (W2_keep m c b hb0).trans <| (StableHlo.after_of_writes_sub hostOps0 _ hostOps0_writes h0).trans rfl

/-- A buffer that no host stretch up to region 1 and neither of the first two regions writes holds, at region 1's
    exit, what was launched. -/
private theorem W4_launch (c : Dev nD) (b : Ref sig .tc) (h0 : b ∉ hostOps0_W) (h1 : b ∉ hostOps1_W)
    (hb0 : b ≠ main_v2) (hb1 : b ≠ main_v33) :
    W4 m c (Proc.devRef .tc b) = m ((c : Thread nD τ).loc b) :=
  (W4_keep m c b hb1).trans <| (StableHlo.after_of_writes_sub hostOps1 _ hostOps1_writes h1).trans <|
    W2_launch m c b h0 hb0

/-- The transposed square matrix at (k, j) is the matrix at (j, k). -/
private theorem transpose_sq_apply {α : Type} (x : S512x512.Idx → α) (h : S512x512.Transposes [1, 0] S512x512)
    (k j : Fin 512) : transpose S512x512 [1, 0] x h (ix2 k j) = x (ix2 j k) :=
  transpose_apply [1, 0] x h (ix2 k j) (ix2 j k) fun b => by
    match b with
    | ⟨0, _⟩ => rfl
    | ⟨1, _⟩ => rfl

/-- Region 0 reads the input array as launched. -/
theorem E1_arg0 (c : Dev nD) : E1 m c main_arg0 = m ((c : Thread nD τ).loc main_arg0) := by
  show StableHlo.after hostOps0 (W0 m c) (Proc.devRef .tc main_arg0) = _
  exact (StableHlo.after_of_writes_sub hostOps0 _ hostOps0_writes (by decide)).trans rfl

/-- Region 0's weight row is the weight vector. -/
theorem E1_v0 (c : Dev nD) (k : Fin 512) : E1 m c main_v0 (ix2 0 k) = m ((c : Thread nD τ).loc main_arg3) (ix1 k) := by
  show StableHlo.after hostOps0 (W0 m c) (Proc.devRef .tc main_v0) (ix2 0 k) = _
  after_results
  exact shapeCast_a_1a_apply (W0 m c (Proc.devRef .tc main_arg3)) shapeCasts_S512_S1x512 0 k

/-- Region 0's bias row is the bias vector. -/
theorem E1_v1 (c : Dev nD) (k : Fin 512) : E1 m c main_v1 (ix2 0 k) = m ((c : Thread nD τ).loc main_arg4) (ix1 k) := by
  show StableHlo.after hostOps0 (W0 m c) (Proc.devRef .tc main_v1) (ix2 0 k) = _
  after_results
  exact shapeCast_a_1a_apply (W0 m c (Proc.devRef .tc main_arg4)) shapeCasts_S512_S1x512 0 k

/-- Region 1's neighbour means are the shared host chain at region 0's output and the edge list. The stretch
    reads the edge list as launched; its slices, index wrap, gather, the two scatter-adds, the clamp below by one
    and the quotient are, operation for operation, the chain the right side names, so the two sides agree by
    unfolding, region 0's output staying the one unknown on both. -/
theorem E3_v25 (c : Dev nD) :
    E3 m c main_v25 = Cert.ReferenceIdeal.Val.rmean (F := Ideal) (W2 m c (Proc.devRef .tc main_v2)) (m ((c : Thread nD τ).loc main_arg1)) := by
  show StableHlo.after hostOps1 (W2 m c) (Proc.devRef .tc main_v25) = _
  after_results
  rw [W2_launch m c main_arg1 (by decide) (by decide)]
  rfl

/-- Region 1's first matrix at (k, j) is the first weight argument at (j, k): transposed, the format change the identity. -/
theorem E3_v27 (c : Dev nD) (k j : Fin 512) : E3 m c main_v27 (ix2 k j) = m ((c : Thread nD τ).loc main_arg5) (ix2 j k) := by
  show StableHlo.after hostOps1 (W2 m c) (Proc.devRef .tc main_v27) (ix2 k j) = _
  after_results
  rw [W2_launch m c main_arg5 (by decide) (by decide)]
  exact transpose_sq_apply (m ((c : Thread nD τ).loc main_arg5)) transposes_S512x512_S512x512_1_0 k j

/-- Region 1's second matrix at (k, j) is the second weight argument at (j, k). -/
theorem E3_v29 (c : Dev nD) (k j : Fin 512) : E3 m c main_v29 (ix2 k j) = m ((c : Thread nD τ).loc main_arg6) (ix2 j k) := by
  show StableHlo.after hostOps1 (W2 m c) (Proc.devRef .tc main_v29) (ix2 k j) = _
  after_results
  rw [W2_launch m c main_arg6 (by decide) (by decide)]
  exact transpose_sq_apply (m ((c : Thread nD τ).loc main_arg6)) transposes_S512x512_S512x512_1_0 k j

/-- Region 1's bias row and its two normalisation rows are the arguments. -/
theorem E3_v30 (c : Dev nD) (k : Fin 512) : E3 m c main_v30 (ix2 0 k) = m ((c : Thread nD τ).loc main_arg7) (ix1 k) := by
  show StableHlo.after hostOps1 (W2 m c) (Proc.devRef .tc main_v30) (ix2 0 k) = _
  after_results
  rw [W2_launch m c main_arg7 (by decide) (by decide)]
  exact shapeCast_a_1a_apply (m ((c : Thread nD τ).loc main_arg7)) shapeCasts_S512_S1x512 0 k
theorem E3_v31 (c : Dev nD) (k : Fin 512) : E3 m c main_v31 (ix2 0 k) = m ((c : Thread nD τ).loc main_arg8) (ix1 k) := by
  show StableHlo.after hostOps1 (W2 m c) (Proc.devRef .tc main_v31) (ix2 0 k) = _
  after_results
  rw [W2_launch m c main_arg8 (by decide) (by decide)]
  exact shapeCast_a_1a_apply (m ((c : Thread nD τ).loc main_arg8)) shapeCasts_S512_S1x512 0 k
theorem E3_v32 (c : Dev nD) (k : Fin 512) : E3 m c main_v32 (ix2 0 k) = m ((c : Thread nD τ).loc main_arg9) (ix1 k) := by
  show StableHlo.after hostOps1 (W2 m c) (Proc.devRef .tc main_v32) (ix2 0 k) = _
  after_results
  rw [W2_launch m c main_arg9 (by decide) (by decide)]
  exact shapeCast_a_1a_apply (m ((c : Thread nD τ).loc main_arg9)) shapeCasts_S512_S1x512 0 k

/-- Region 2's label column is the label vector. -/
theorem E5_v34 (c : Dev nD) (r : Fin 10000) : E5 m c main_v34 (ix2 r 0) = m ((c : Thread nD τ).loc main_arg2) (ix1 r) := by
  show StableHlo.after hostOps2 (W4 m c) (Proc.devRef .tc main_v34) (ix2 r 0) = _
  after_results
  rw [W4_launch m c main_arg2 (by decide) (by decide) (by decide) (by decide)]
  exact shapeCast_a_a1_apply (m ((c : Thread nD τ).loc main_arg2)) shapeCasts_S10000_S10000x1 r 0

end Cert.KernelIdeal.Val

end
-- ==== Proof.Val.RLn.lean ====
/- The reference's first layer normalisation, read at one entry: row `r` of the input normalised, at column `q`. -/
import proofs.«416240_j52329881534579_1_alg».proof.Proof.Gen.ReferenceIdeal.Read
import proofs.«416240_j52329881534579_1_alg».proof.Proof.Spec
import Idealize.ShloMosaic.Lib.ValueIdx
import Idealize.ShloMosaic.Lib.Pipeline.Value
import Idealize.ShloMosaic.PureOps.Ideal.Laws

noncomputable section

namespace Cert.ReferenceIdeal.Val

open Cert.ReferenceIdeal Cert.ReferenceIdeal.Read Idealize.ShloMosaic Idealize.ShloMosaic.TcCoe Idealize.ShloMosaic.ValueIdx

/-! ### Where each layout stage reads

A row reduction at row `r` runs over the entries `(r, k)` of that row; a per-row quantity, kept as a
column of width one, is read by every column of the row at `(r, 0)`; a weight row spread over all rows is
read at its own column. -/

/-- The first row sum, seen through the width-one column: entry `k` of row `r`. -/
theorem idx_sum0 (r : Fin 10000) (z : Fin 1) (k : Fin 512) :
    idx_main_v0 (idx_main_v1 (ix2 r z)) k = ix2 r k :=
  funext fun a => Fin.ext (by match a with | ⟨0, _⟩ => rfl | ⟨1, _⟩ => rfl)

/-- The second row sum, seen through the width-one column: entry `k` of row `r`. -/
theorem idx_sum7 (r : Fin 10000) (z : Fin 1) (k : Fin 512) :
    idx_main_v7 (idx_main_v8 (ix2 r z)) k = ix2 r k :=
  funext fun a => Fin.ext (by match a with | ⟨0, _⟩ => rfl | ⟨1, _⟩ => rfl)

/-- The mean spread over the row's columns is read at the row's one entry. -/
theorem idx_col4 (r : Fin 10000) (q : Fin 512) : idx_main_v4 (ix2 r q) = ix2 r (0 : Fin 1) :=
  funext fun a => Fin.ext (by match a with | ⟨0, _⟩ => rfl | ⟨1, _⟩ => rfl)

/-- The mean spread a second time is read at the same entry. -/
theorem idx_col11 (r : Fin 10000) (q : Fin 512) : idx_main_v11 (ix2 r q) = ix2 r (0 : Fin 1) :=
  funext fun a => Fin.ext (by match a with | ⟨0, _⟩ => rfl | ⟨1, _⟩ => rfl)

/-- The reciprocal square root spread over the row's columns is read at the row's one entry. -/
theorem idx_col16 (r : Fin 10000) (q : Fin 512) : idx_main_v16 (ix2 r q) = ix2 r (0 : Fin 1) :=
  funext fun a => Fin.ext (by match a with | ⟨0, _⟩ => rfl | ⟨1, _⟩ => rfl)

/-- The weight row spread over all rows is read at column `q`. -/
theorem idx_row18 (r : Fin 10000) (q : Fin 512) : idx_main_v18 (idx_main_v19 (ix2 r q)) = ix1 q :=
  funext fun a => Fin.ext (by match a with | ⟨0, _⟩ => rfl)

/-- The bias row spread over all rows is read at column `q`. -/
theorem idx_row21 (r : Fin 10000) (q : Fin 512) : idx_main_v21 (idx_main_v22 (ix2 r q)) = ix1 q :=
  funext fun a => Fin.ext (by match a with | ⟨0, _⟩ => rfl)

/-! ### The per-row quantities -/

/-- The row's mean: the row's sum (started from zero) divided by the literal 512. -/
theorem ref_mean (x0 : (⟨S10000x512, .f32⟩ : BufTy).Contents (Elt Ideal)) (r : Fin 10000) (z : Fin 1) :
    val_main_v3 (F := Ideal) x0 (ix2 r z) = Cert.Spec.rowMean (fun k => x0 (ix2 r k)) := by
  rw [val_main_v3_apply, val_main_v1_apply, val_main_v2_apply, val_main_v0_apply, val_main_cst_0_apply,
    val_main_cst_apply]
  simp only [idx_sum0]
  unfold Cert.Spec.rowMean Cert.Spec.c512
  simp only [Ideal.hostDivf_def, Ideal.ofBits_def, Ideal.ofBits_zero_f32, zero_add]

/-- The centred entry: the entry minus its row's mean. -/
theorem ref_centred (x0 : (⟨S10000x512, .f32⟩ : BufTy).Contents (Elt Ideal)) (r : Fin 10000) (k : Fin 512) :
    val_main_v5 (F := Ideal) x0 (ix2 r k) = x0 (ix2 r k) - Cert.Spec.rowMean (fun k => x0 (ix2 r k)) := by
  rw [val_main_v5_apply, val_main_v4_apply, idx_col4, ref_mean]
  simp only [Ideal.subf_def]

/-- The centred entry computed the second time is the same value. -/
theorem ref_centred' (x0 : (⟨S10000x512, .f32⟩ : BufTy).Contents (Elt Ideal)) (r : Fin 10000) (k : Fin 512) :
    val_main_v12 (F := Ideal) x0 (ix2 r k) = x0 (ix2 r k) - Cert.Spec.rowMean (fun k => x0 (ix2 r k)) := by
  rw [val_main_v12_apply, val_main_v11_apply, idx_col11, ref_mean]
  simp only [Ideal.subf_def]

/-- The row's mean squared deviation: the sum of the squared centred entries divided by the literal 512. -/
theorem ref_var (x0 : (⟨S10000x512, .f32⟩ : BufTy).Contents (Elt Ideal)) (r : Fin 10000) (z : Fin 1) :
    val_main_v10 (F := Ideal) x0 (ix2 r z)
      = Cert.Spec.rowMean (fun k => (x0 (ix2 r k) - Cert.Spec.rowMean (fun k => x0 (ix2 r k)))
          * (x0 (ix2 r k) - Cert.Spec.rowMean (fun k => x0 (ix2 r k)))) := by
  rw [val_main_v10_apply, val_main_v8_apply, val_main_v9_apply, val_main_v7_apply, val_main_cst_2_apply,
    val_main_cst_1_apply]
  simp only [idx_sum7, val_main_v6_apply, ref_centred]
  unfold Cert.Spec.rowMean Cert.Spec.c512
  simp only [Ideal.hostDivf_def, Ideal.mulf_def, Ideal.ofBits_def, Ideal.ofBits_zero_f32, zero_add]

/-- The row's scale: the reciprocal square root of the mean squared deviation plus the literal. -/
theorem ref_scale (x0 : (⟨S10000x512, .f32⟩ : BufTy).Contents (Elt Ideal)) (r : Fin 10000) (z : Fin 1) :
    val_main_v15 (F := Ideal) x0 (ix2 r z)
      = Ideal.rsqrt (Cert.Spec.rowMean (fun k => (x0 (ix2 r k) - Cert.Spec.rowMean (fun k => x0 (ix2 r k)))
          * (x0 (ix2 r k) - Cert.Spec.rowMean (fun k => x0 (ix2 r k)))) + Cert.Spec.ceps) := by
  rw [val_main_v15_apply, val_main_v14_apply, val_main_v13_apply, val_main_cst_3_apply, ref_var]
  unfold Cert.Spec.ceps
  simp only [Ideal.hostUnary_rsqrt_def, Ideal.addf_def, Ideal.ofBits_def]

theorem ref_ln (x0 : (⟨S10000x512, .f32⟩ : BufTy).Contents (Elt Ideal)) (x3 x4 : (⟨S512, .f32⟩ : BufTy).Contents (Elt Ideal))
    (r : Fin 10000) (q : Fin 512) :
    val_main_v23 (F := Ideal) x0 x3 x4 (ix2 r q)
      = Cert.Spec.lnRow (fun k => x0 (ix2 r k)) (fun k => x3 (ix1 k)) (fun k => x4 (ix1 k)) q := by
  rw [val_main_v23_apply, val_main_v20_apply, val_main_v17_apply, val_main_v22_apply, val_main_v21_apply,
    val_main_v19_apply, val_main_v18_apply, val_main_v16_apply, idx_row18, idx_row21, idx_col16, ref_centred',
    ref_scale]
  unfold Cert.Spec.lnRow
  simp only [Ideal.addf_def, Ideal.mulf_def]

end Cert.ReferenceIdeal.Val

end
-- ==== Proof.Val.RSage.lean ====
/- The reference's linear update, rectifier and second layer normalisation, read at one entry: row `r` of the
   neighbour means and of the normalised features against the two weight matrices, at output column `j`. -/
import proofs.«416240_j52329881534579_1_alg».proof.Proof.Gen.ReferenceIdeal.Read
import proofs.«416240_j52329881534579_1_alg».proof.Proof.Spec
import Idealize.ShloMosaic.Lib.ValueIdx
import Idealize.ShloMosaic.Lib.Pipeline.Value
import Idealize.ShloMosaic.PureOps.Ideal.Laws

noncomputable section

namespace Cert.ReferenceIdeal.Val

open Cert.ReferenceIdeal Cert.ReferenceIdeal.Read Idealize.ShloMosaic Idealize.ShloMosaic.TcCoe Idealize.ShloMosaic.ValueIdx

namespace Sage

/-! ### Where each stage reads its operands, at explicit coordinates -/

/-- The first product's left factor at entry `(r, q)`, summand `k`: column `k` of row `r`. -/
theorem lidx48_at (r : Fin 10000) (q k : Fin 512) : lidx_main_v48 (ix2 r q) k = ix2 r k :=
  funext fun a => Fin.ext (by match a with | ⟨0, _⟩ => rfl | ⟨1, _⟩ => rfl)
/-- Its right factor is entry `(k, q)` of the transposed matrix: entry `(q, k)` of the matrix itself. -/
theorem ridx48_at (r : Fin 10000) (q k : Fin 512) : idx_main_v47 (ridx_main_v48 (ix2 r q) k) = ix2 q k :=
  funext fun a => Fin.ext (by match a with | ⟨0, _⟩ => rfl | ⟨1, _⟩ => rfl)
/-- The second product's left factor, likewise. -/
theorem lidx50_at (r : Fin 10000) (q k : Fin 512) : lidx_main_v50 (ix2 r q) k = ix2 r k :=
  funext fun a => Fin.ext (by match a with | ⟨0, _⟩ => rfl | ⟨1, _⟩ => rfl)
/-- The second product's right factor, likewise. -/
theorem ridx50_at (r : Fin 10000) (q k : Fin 512) : idx_main_v49 (ridx_main_v50 (ix2 r q) k) = ix2 q k :=
  funext fun a => Fin.ext (by match a with | ⟨0, _⟩ => rfl | ⟨1, _⟩ => rfl)
/-- The bias, broadcast along the rows, is read at the column. -/
theorem idx53_at (r : Fin 10000) (q : Fin 512) : idx_main_v52 (idx_main_v53 (ix2 r q)) = ix1 q :=
  funext fun a => Fin.ext (by match a with | ⟨0, _⟩ => rfl)
/-- The normalisation's weight, broadcast along the rows, is read at the column. -/
theorem idx75_at (r : Fin 10000) (q : Fin 512) : idx_main_v74 (idx_main_v75 (ix2 r q)) = ix1 q :=
  funext fun a => Fin.ext (by match a with | ⟨0, _⟩ => rfl)
/-- The normalisation's bias, likewise. -/
theorem idx78_at (r : Fin 10000) (q : Fin 512) : idx_main_v77 (idx_main_v78 (ix2 r q)) = ix1 q :=
  funext fun a => Fin.ext (by match a with | ⟨0, _⟩ => rfl)
/-- A per-row quantity broadcast along the columns is read at the row (three stages share this shape). -/
theorem idx60_at (r : Fin 10000) (q : Fin 512) : idx_main_v60 (ix2 r q) = ix2 r (0 : Fin 1) :=
  funext fun a => Fin.ext (by match a with | ⟨0, _⟩ => rfl | ⟨1, _⟩ => rfl)
theorem idx67_at (r : Fin 10000) (q : Fin 512) : idx_main_v67 (ix2 r q) = ix2 r (0 : Fin 1) :=
  funext fun a => Fin.ext (by match a with | ⟨0, _⟩ => rfl | ⟨1, _⟩ => rfl)
theorem idx72_at (r : Fin 10000) (q : Fin 512) : idx_main_v72 (ix2 r q) = ix2 r (0 : Fin 1) :=
  funext fun a => Fin.ext (by match a with | ⟨0, _⟩ => rfl | ⟨1, _⟩ => rfl)
/-- The row sum of the rectified update, kept as a column of width one, runs over row `r`. -/
theorem idx56_at (r : Fin 10000) (k : Fin 512) : idx_main_v56 (idx_main_v57 (ix2 r (0 : Fin 1))) k = ix2 r k :=
  funext fun a => Fin.ext (by match a with | ⟨0, _⟩ => rfl | ⟨1, _⟩ => rfl)
/-- The row sum of the squared deviations, likewise. -/
theorem idx63_at (r : Fin 10000) (k : Fin 512) : idx_main_v63 (idx_main_v64 (ix2 r (0 : Fin 1))) k = ix2 r k :=
  funext fun a => Fin.ext (by match a with | ⟨0, _⟩ => rfl | ⟨1, _⟩ => rfl)

/-! ### The rectified linear update at one entry -/

/-- Entry `(r, q)` of the rectified update: row `r` of the neighbour means against row `q` of the first matrix, plus
    row `r` of the features against row `q` of the second, plus the bias at `q`, clamped below by zero. -/
theorem rect_at (x0 : (⟨S10000x512, .f32⟩ : BufTy).Contents (Elt Ideal)) (x1 : (⟨S2x160000, .i32⟩ : BufTy).Contents (Elt Ideal)) (x3 x4 : (⟨S512, .f32⟩ : BufTy).Contents (Elt Ideal)) (x5 x6 : (⟨S512x512, .f32⟩ : BufTy).Contents (Elt Ideal)) (x7 : (⟨S512, .f32⟩ : BufTy).Contents (Elt Ideal))
    (r : Fin 10000) (q : Fin 512) :
    val_main_v55 (F := Ideal) x0 x1 x3 x4 x5 x6 x7 (ix2 r q)
      = Cert.Spec.sagePre (fun k => val_main_v46 (F := Ideal) x0 x1 x3 x4 (ix2 r k)) (fun k => val_main_v23 (F := Ideal) x0 x3 x4 (ix2 r k))
          (fun j' k => x5 (ix2 j' k)) (fun j' k => x6 (ix2 j' k)) (fun k => x7 (ix1 k)) q := by
  rw [val_main_v55_apply, val_main_v54_apply, val_main_v51_apply, val_main_v48_apply, val_main_v50_apply,
    val_main_v53_apply, val_main_v52_apply, val_main_call0_v0_apply, val_main_call0_cst_apply]
  simp only [val_main_v47_apply, val_main_v49_apply, lidx48_at, ridx48_at, lidx50_at, ridx50_at, idx53_at]
  unfold Cert.Spec.sagePre
  simp only [Ideal.addf_def, Ideal.maximumf_def, Ideal.ofBits_def, Ideal.ofBits_zero_f32]

/-! ### The row statistics of the second normalisation -/

/-- The mean of row `r` of the rectified update. -/
theorem mean_at (x0 : (⟨S10000x512, .f32⟩ : BufTy).Contents (Elt Ideal)) (x1 : (⟨S2x160000, .i32⟩ : BufTy).Contents (Elt Ideal)) (x3 x4 : (⟨S512, .f32⟩ : BufTy).Contents (Elt Ideal)) (x5 x6 : (⟨S512x512, .f32⟩ : BufTy).Contents (Elt Ideal)) (x7 : (⟨S512, .f32⟩ : BufTy).Contents (Elt Ideal))
    (r : Fin 10000) :
    val_main_v59 (F := Ideal) x0 x1 x3 x4 x5 x6 x7 (ix2 r (0 : Fin 1))
      = Cert.Spec.rowMean (fun k => val_main_v55 (F := Ideal) x0 x1 x3 x4 x5 x6 x7 (ix2 r k)) := by
  rw [val_main_v59_apply, val_main_v57_apply, val_main_v56_apply, val_main_v58_apply, val_main_cst_10_apply,
    val_main_cst_9_apply]
  simp only [idx56_at]
  unfold Cert.Spec.rowMean Cert.Spec.c512
  simp only [Ideal.hostDivf_def, Ideal.ofBits_def, Ideal.ofBits_zero_f32, zero_add]

/-- The mean squared deviation of row `r` of the rectified update from its mean. -/
theorem var_at (x0 : (⟨S10000x512, .f32⟩ : BufTy).Contents (Elt Ideal)) (x1 : (⟨S2x160000, .i32⟩ : BufTy).Contents (Elt Ideal)) (x3 x4 : (⟨S512, .f32⟩ : BufTy).Contents (Elt Ideal)) (x5 x6 : (⟨S512x512, .f32⟩ : BufTy).Contents (Elt Ideal)) (x7 : (⟨S512, .f32⟩ : BufTy).Contents (Elt Ideal))
    (r : Fin 10000) :
    val_main_v66 (F := Ideal) x0 x1 x3 x4 x5 x6 x7 (ix2 r (0 : Fin 1))
      = Cert.Spec.rowMean (fun k =>
          (val_main_v55 (F := Ideal) x0 x1 x3 x4 x5 x6 x7 (ix2 r k)
              - Cert.Spec.rowMean (fun k' => val_main_v55 (F := Ideal) x0 x1 x3 x4 x5 x6 x7 (ix2 r k')))
            * (val_main_v55 (F := Ideal) x0 x1 x3 x4 x5 x6 x7 (ix2 r k)
              - Cert.Spec.rowMean (fun k' => val_main_v55 (F := Ideal) x0 x1 x3 x4 x5 x6 x7 (ix2 r k')))) := by
  rw [val_main_v66_apply, val_main_v64_apply, val_main_v63_apply, val_main_v65_apply, val_main_cst_12_apply,
    val_main_cst_11_apply]
  simp only [idx63_at, val_main_v62_apply, val_main_v61_apply, val_main_v60_apply, idx60_at, mean_at]
  unfold Cert.Spec.rowMean Cert.Spec.c512
  simp only [Ideal.hostDivf_def, Ideal.subf_def, Ideal.mulf_def, Ideal.ofBits_def, Ideal.ofBits_zero_f32, zero_add]

end Sage

open Sage

/-! ### The normalised update at one entry -/

theorem ref_sage (x0 : (⟨S10000x512, .f32⟩ : BufTy).Contents (Elt Ideal)) (x1 : (⟨S2x160000, .i32⟩ : BufTy).Contents (Elt Ideal)) (x3 x4 : (⟨S512, .f32⟩ : BufTy).Contents (Elt Ideal)) (x5 x6 : (⟨S512x512, .f32⟩ : BufTy).Contents (Elt Ideal)) (x7 x8 x9 : (⟨S512, .f32⟩ : BufTy).Contents (Elt Ideal))
    (r : Fin 10000) (j : Fin 512) :
    val_main_v79 (F := Ideal) x0 x1 x3 x4 x5 x6 x7 x8 x9 (ix2 r j)
      = Cert.Spec.sageRow (fun k => val_main_v46 (F := Ideal) x0 x1 x3 x4 (ix2 r k)) (fun k => val_main_v23 (F := Ideal) x0 x3 x4 (ix2 r k))
          (fun j' k => x5 (ix2 j' k)) (fun j' k => x6 (ix2 j' k)) (fun k => x7 (ix1 k)) (fun k => x8 (ix1 k)) (fun k => x9 (ix1 k)) j := by
  rw [val_main_v79_apply, val_main_v76_apply, val_main_v73_apply, val_main_v68_apply, val_main_v67_apply,
    val_main_v72_apply, val_main_v71_apply, val_main_v70_apply, val_main_v69_apply, val_main_cst_13_apply,
    val_main_v75_apply, val_main_v74_apply, val_main_v78_apply, val_main_v77_apply]
  rw [idx67_at, idx72_at, idx75_at, idx78_at, mean_at, var_at]
  unfold Cert.Spec.sageRow Cert.Spec.lnRow Cert.Spec.ceps
  simp only [rect_at, Ideal.addf_def, Ideal.subf_def, Ideal.mulf_def, Ideal.hostUnary_rsqrt_def, Ideal.ofBits_def]

end Cert.ReferenceIdeal.Val

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.Val.RPool.lean ====
/- The reference's segment mean pool, read at one entry: the sum of column `d` of the node outputs over the nodes
   whose label is segment `s`, divided by their number clamped below by one. -/
import proofs.«416240_j52329881534579_1_alg».proof.Proof.Gen.ReferenceIdeal.Read
import proofs.«416240_j52329881534579_1_alg».proof.Proof.Spec
import proofs.«416240_j52329881534579_1_alg».proof.Proof.LibScatterAdd
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.Val

open Cert.ReferenceIdeal Cert.ReferenceIdeal.Read Idealize.ShloMosaic Idealize.ShloMosaic.TcCoe Idealize.ShloMosaic.ValueIdx

/-! ## A label word against a segment number

A scatter lands node `r` on row `s` when the node's label, read as a signed 32-bit integer, is the integer `s`.
For `s < 256` that is the same as the label being the 32-bit word of `s`: the word of `s` reads as `s` (it is far
below 2³¹), and a word is determined by its signed reading. A negative label, or one at or past 256, reads as an
integer that is no such `s`, and is no such word: it lands nowhere and belongs to no segment. -/

/-- The 32-bit word of a segment number reads, signed, as that number. -/
theorem word_toInt (s : Fin 256) : (BitVec.ofNat 32 s.val).toInt = (s.val : Int) := by
  have hs := s.isLt
  rw [BitVec.toInt_ofNat']
  exact Int.bmod_eq_of_le (by omega) (by omega)

/-- A label reads, signed, as the segment number `s` exactly when it is the word of `s`. -/
theorem word_eq_iff (b : BitVec 32) (s : Fin 256) :
    b.toInt = (s.val : Int) ↔ b = BitVec.ofNat 32 s.val := by
  constructor
  · intro h
    exact BitVec.eq_of_toInt_eq (h.trans (word_toInt s).symm)
  · intro h
    rw [h, word_toInt]

/-! ## The two accumulations -/

/-- The table of segment sums at `(s, d)`: the zero table plus, over every node, the node's output entry `d` when its
    label lands on row `s`; that is the sum over all nodes of the membership factor times the entry. -/
theorem pool_sum (x0 : (⟨S10000x512, .f32⟩ : BufTy).Contents (Elt Ideal)) (x1 : (⟨S2x160000, .i32⟩ : BufTy).Contents (Elt Ideal)) (x2 : (⟨S10000, .i32⟩ : BufTy).Contents (Elt Ideal)) (x3 x4 : (⟨S512, .f32⟩ : BufTy).Contents (Elt Ideal)) (x5 x6 : (⟨S512x512, .f32⟩ : BufTy).Contents (Elt Ideal)) (x7 x8 x9 : (⟨S512, .f32⟩ : BufTy).Contents (Elt Ideal))
    (s : Fin 256) (d : Fin 512) :
    val_main_v82 (F := Ideal) x0 x1 x2 x3 x4 x5 x6 x7 x8 x9 (ix2 s d)
      = ∑ r : Fin 10000, Cert.Spec.member (fun r => x2 (ix1 r)) s r
          * val_main_v79 (F := Ideal) x0 x1 x3 x4 x5 x6 x7 x8 x9 (ix2 r d) := by
  unfold val_main_v82
  simp only [Host.scatterAdd, Ideal.hostScatterAdd_def]
  rw [show scatter_S256x512_S10000x1_S10000x512_1_0_0_1
      = Cert.Lib.rowScatterDims 256 512 10000 Cert.ReferenceIdeal.Gen.scatter_S256x512_S10000x1_S10000x512_1_0_0_1_wf from rfl]
  rw [Cert.Lib.scatterAdd_rows_apply]
  rw [val_main_v80_apply, val_main_cst_14_apply, Ideal.ofBits_def, Ideal.ofBits_zero_f32, zero_add]
  refine Finset.sum_congr rfl fun r _ => ?_
  rw [val_main_v81_apply]
  rw [show idx_main_v81 (ix2 r (0 : Fin 1)) = ix1 r from
    funext fun a => Fin.ext (by match a with | ⟨0, _⟩ => rfl)]
  show _ = (if x2 (ix1 r) = BitVec.ofNat 32 s.val then (1 : EReal) else 0) * _
  by_cases h : x2 (ix1 r) = BitVec.ofNat 32 s.val
  · rw [if_pos h, if_pos ((word_eq_iff _ s).mpr h), one_mul]
  · rw [if_neg h, if_neg (fun h' => h ((word_eq_iff _ s).mp h')), zero_mul]

/-- The vector of segment sizes at `s`: the zero vector plus a one for every node whose label lands on `s`; that is the
    sum over all nodes of the membership factor. -/
theorem pool_count (x2 : (⟨S10000, .i32⟩ : BufTy).Contents (Elt Ideal)) (s : Fin 256) :
    val_main_v86 (F := Ideal) x2 (ix1 s) = ∑ r : Fin 10000, Cert.Spec.member (fun r => x2 (ix1 r)) s r := by
  unfold val_main_v86
  simp only [Host.scatterAdd, Ideal.hostScatterAdd_def]
  rw [show scatter_S256_S10000x1_S10000_n_0_0_1
      = Cert.Lib.vecScatterDims 256 10000 Cert.ReferenceIdeal.Gen.scatter_S256_S10000x1_S10000_n_0_0_1_wf from rfl]
  rw [Cert.Lib.scatterAdd_vec_apply]
  rw [val_main_v84_apply, val_main_cst_16_apply, Ideal.ofBits_def, Ideal.ofBits_zero_f32, zero_add]
  refine Finset.sum_congr rfl fun r _ => ?_
  rw [val_main_v85_apply, val_main_v83_apply, val_main_cst_15_apply, Ideal.ofBits_def, Ideal.ofBits_one_f32]
  rw [show idx_main_v85 (ix2 r (0 : Fin 1)) = ix1 r from
    funext fun a => Fin.ext (by match a with | ⟨0, _⟩ => rfl)]
  show _ = (if x2 (ix1 r) = BitVec.ofNat 32 s.val then (1 : EReal) else 0)
  by_cases h : x2 (ix1 r) = BitVec.ofNat 32 s.val
  · rw [if_pos h, if_pos ((word_eq_iff _ s).mpr h)]
  · rw [if_neg h, if_neg (fun h' => h ((word_eq_iff _ s).mp h'))]

/-! ## The quotient -/

theorem ref_pool (x0 : (⟨S10000x512, .f32⟩ : BufTy).Contents (Elt Ideal)) (x1 : (⟨S2x160000, .i32⟩ : BufTy).Contents (Elt Ideal)) (x2 : (⟨S10000, .i32⟩ : BufTy).Contents (Elt Ideal)) (x3 x4 : (⟨S512, .f32⟩ : BufTy).Contents (Elt Ideal)) (x5 x6 : (⟨S512x512, .f32⟩ : BufTy).Contents (Elt Ideal)) (x7 x8 x9 : (⟨S512, .f32⟩ : BufTy).Contents (Elt Ideal))
    (s : Fin 256) (d : Fin 512) :
    val_main_v91 (F := Ideal) x0 x1 x2 x3 x4 x5 x6 x7 x8 x9 (ix2 s d)
      = Cert.Spec.poolAt (fun r => val_main_v79 (F := Ideal) x0 x1 x3 x4 x5 x6 x7 x8 x9 (ix2 r d)) (fun r => x2 (ix1 r)) s := by
  rw [val_main_v91_apply, Ideal.hostDivf_def, pool_sum]
  rw [val_main_v90_apply, val_main_v89_apply, val_main_v88_apply, Ideal.maximumf_def]
  rw [show idx_main_v89 (idx_main_v90 (ix2 s d)) = ix1 s from
    funext fun a => Fin.ext (by match a with | ⟨0, _⟩ => rfl)]
  rw [pool_count, val_main_v87_apply, val_main_cst_17_apply, Ideal.ofBits_def]
  rfl

end Cert.ReferenceIdeal.Val

end
-- ==== Proof.Bridge.lean ====
/- The two programs compute one function. Entry (s, d) of the kernel's result is the segment mean pool of
   column d of its node outputs; each node output row is the normalised, rectified linear update of that node's
   neighbour mean and normalised features; the neighbour means are the shared host chain applied to the normalised
   features; and the normalised features are the row-wise layer normalisation of the input. The reference's result
   reads the same way, stage by stage, so the two agree entry by entry once the stages do. -/
import proofs.«416240_j52329881534579_1_alg».proof.Proof.KI.Run
import proofs.«416240_j52329881534579_1_alg».proof.Proof.Val.KLn
import proofs.«416240_j52329881534579_1_alg».proof.Proof.Val.KSage
import proofs.«416240_j52329881534579_1_alg».proof.Proof.Val.KPool
import proofs.«416240_j52329881534579_1_alg».proof.Proof.Val.KHost
import proofs.«416240_j52329881534579_1_alg».proof.Proof.Val.RLn
import proofs.«416240_j52329881534579_1_alg».proof.Proof.Val.RSage
import proofs.«416240_j52329881534579_1_alg».proof.Proof.Val.RPool
import proofs.«416240_j52329881534579_1_alg».proof.Proof.Val.RMean

set_option maxRecDepth 16384

noncomputable section

namespace Cert.Proof.Bridge

open Idealize.ShloMosaic Idealize.ShloMosaic.TcCoe Idealize.ShloMosaic.ValueIdx Idealize.SL.Sem
open Cert.KernelIdeal.Fr Cert.KernelIdeal.Val Cert.ReferenceIdeal.Val Cert.Spec

/-! ## The specifications respect pointwise equality of their arguments -/

theorem lnRow_congr {x x' w w' b b' : Fin 512 → EReal} (hx : ∀ k, x k = x' k) (hw : ∀ k, w k = w' k)
    (hb : ∀ k, b k = b' k) (q : Fin 512) : lnRow x w b q = lnRow x' w' b' q := by
  rw [show x = x' from funext hx, show w = w' from funext hw, show b = b' from funext hb]

theorem sageRow_congr {mean mean' h h' : Fin 512 → EReal} {Wn Wn' Wr Wr' : Fin 512 → Fin 512 → EReal}
    {bias bias' lw lw' lb lb' : Fin 512 → EReal} (hmean : ∀ k, mean k = mean' k) (hh : ∀ k, h k = h' k)
    (hWn : ∀ j k, Wn j k = Wn' j k) (hWr : ∀ j k, Wr j k = Wr' j k) (hbias : ∀ k, bias k = bias' k)
    (hlw : ∀ k, lw k = lw' k) (hlb : ∀ k, lb k = lb' k) (j : Fin 512) :
    sageRow mean h Wn Wr bias lw lb j = sageRow mean' h' Wn' Wr' bias' lw' lb' j := by
  rw [show mean = mean' from funext hmean, show h = h' from funext hh,
    show Wn = Wn' from funext fun j => funext (hWn j), show Wr = Wr' from funext fun j => funext (hWr j),
    show bias = bias' from funext hbias, show lw = lw' from funext hlw, show lb = lb' from funext hlb]

theorem poolAt_congr {col col' : Fin 10000 → EReal} {batch batch' : Fin 10000 → BitVec 32} (hc : ∀ r, col r = col' r)
    (hb : ∀ r, batch r = batch' r) (s : Fin 256) : poolAt col batch s = poolAt col' batch' s := by
  rw [show col = col' from funext hc, show batch = batch' from funext hb]

/-! ## Stage by stage -/

variable (m : (ℓ : Loc Cert.KernelIdeal.nD Cert.KernelIdeal.τ Cert.KernelIdeal.sig) → Buf (Elt Ideal) ℓ)

/-- The kernel's normalised features are the reference's, entry by entry: both are the layer normalisation of the
    input's row. -/
theorem feat_at (c : Dev Cert.KernelIdeal.nD) (r : Fin 10000) (q : Fin 512) :
    E3 m c Cert.KernelIdeal.main_v2 (ix2 r q)
      = Cert.ReferenceIdeal.Read.val_main_v23 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) (ix2 r q) :=
  (congrFun (E3_main_v2 m c) (ix2 r q)).trans <| (kernel_ln (E1 m) c r q).trans <|
    (lnRow_congr (fun k => congrFun (E1_arg0 m c) (ix2 r k)) (fun k => E1_v0 m c k) (fun k => E1_v1 m c k) q).trans
      (ref_ln _ _ _ r q).symm

/-- As whole arrays. -/
theorem feat_eq (c : Dev Cert.KernelIdeal.nD) :
    E3 m c Cert.KernelIdeal.main_v2
      = Cert.ReferenceIdeal.Read.val_main_v23 (F := Ideal) (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) := by
  funext i
  obtain ⟨r, q, rfl⟩ : ∃ (r : Fin 10000) (q : Fin 512), i = ix2 r q := ⟨i 0, i 1, eq_ix2 i⟩
  exact feat_at m c r q

/-- The kernel's neighbour means are the reference's: the same host chain, applied to equal normalised features. -/
theorem mean_eq (c : Dev Cert.KernelIdeal.nD) :
    E3 m c Cert.KernelIdeal.main_v25
      = Cert.ReferenceIdeal.Read.val_main_v46 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) :=
  (E3_v25 m c).trans <|
    (congrArg (fun h => Cert.ReferenceIdeal.Val.rmean (F := Ideal) h (m ((c : Thread Cert.KernelIdeal.nD Cert.KernelIdeal.τ).loc Cert.KernelIdeal.main_arg1)))
      ((W2_main_v2 m c).trans ((E3_main_v2 m c).symm.trans (feat_eq m c)))).trans
    (val_main_v46_eq_rmean _ _ _ _).symm

/-- The kernel's node outputs are the reference's, entry by entry. -/
theorem out_at (c : Dev Cert.KernelIdeal.nD) (r : Fin 10000) (j : Fin 512) :
    E5 m c Cert.KernelIdeal.main_v33 (ix2 r j)
      = Cert.ReferenceIdeal.Read.val_main_v79 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (ix2 r j) :=
  (congrFun (E5_main_v33 m c) (ix2 r j)).trans <| (kernel_sage (E3 m) c r j).trans <|
    (sageRow_congr (fun k => congrFun (mean_eq m c) (ix2 r k)) (fun k => congrFun (feat_eq m c) (ix2 r k))
      (fun j' k => E3_v27 m c k j') (fun j' k => E3_v29 m c k j') (fun k => E3_v30 m c k) (fun k => E3_v31 m c k)
      (fun k => E3_v32 m c k) j).trans
      (ref_sage _ _ _ _ _ _ _ _ _ r j).symm

/-- The reference's result, at the kernel's argument arrays, is what the kernel's last region leaves in the result
    array. -/
theorem result_eq (c : Dev Cert.KernelIdeal.nD) :
    Cert.ReferenceIdeal.Read.val_main_v91 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
      = (dat2 (E5 m) c).arrAt 2 Cert.KernelIdeal.cfg2.N := by
  funext i
  obtain ⟨s, d, rfl⟩ : ∃ (s : Fin 256) (d : Fin 512), i = ix2 s d := ⟨i 0, i 1, eq_ix2 i⟩
  exact (ref_pool _ _ _ _ _ _ _ _ _ _ s d).trans <|
    (poolAt_congr (fun r => (out_at m c r d).symm) (fun r => (E5_v34 m c r).symm) s).trans
      (kernel_pool (E5 m) c s d).symm

end Cert.Proof.Bridge

end
-- ==== Proof.lean ====
/- The certificate of the three-kernel graph layer against its plain reference.
   The kernel's program is three pipelined kernels among host operations: a row-wise layer normalisation of the
   node features; the gather of source rows and their sum into destination rows with the degree count, on the host;
   the linear update of neighbour means and features by two matrices, rectified and normalised again; and the mean
   pool of the node outputs by segment, computed as products of a tile's 0/1 membership matrix with the tile's rows,
   accumulated over the grid and divided at the last grid point. The reference states the same with whole-array
   operations and segment sums.
   Frames: each program runs to its end without fault and leaves its arguments unchanged — for the two kernel
   programs by running each region's body at every grid point over the pipeline's staging buffers (the pool's output
   block and count column carried from point to point), for the reference by its run as a list of host operations.
   The idealization rewrote nothing, so its sanction is trivial.
   Value: over the extended reals a change of float format is the identity, a tile's product into a zero accumulator
   is a sum over the tile, and sums regroup freely, so every stage of the kernel's program is, entry by entry, the
   same function of the arguments as the reference's stage; no step needs the inputs to be finite. -/
import proofs.«416240_j52329881534579_1_alg».proof.Defs
import proofs.«416240_j52329881534579_1_alg».proof.Proof.Gen.Kernel
import proofs.«416240_j52329881534579_1_alg».proof.Proof.Gen.KernelIdeal
import proofs.«416240_j52329881534579_1_alg».proof.Proof.Gen.ReferenceIdeal
import proofs.«416240_j52329881534579_1_alg».proof.Proof.Gen.Pre_finite_inputs
import proofs.«416240_j52329881534579_1_alg».proof.Proof.Gen.ReferenceIdeal.Run
import proofs.«416240_j52329881534579_1_alg».proof.Proof.Gen.ReferenceIdeal.Read
import proofs.«416240_j52329881534579_1_alg».proof.Proof.KB.Run
import proofs.«416240_j52329881534579_1_alg».proof.Proof.KI.Run
import proofs.«416240_j52329881534579_1_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Fr.frame (F := Bits) m ρ

/-- The idealized program runs and leaves its arguments unchanged. -/
theorem frame_ki : Cert.frame_KernelIdeal := fun m ρ _ => Cert.KernelIdeal.Fr.frame (F := Ideal) m ρ

/-- The reference runs and leaves its arguments unchanged: its run as a list of host operations, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and the reference's result is, entry by entry,
    what the kernel's last region leaves in the result array. -/
theorem algebraic : Cert.algebraic_KernelIdeal_ReferenceIdeal := by
  intro m ρ m' ρ' _ hagree
  refine ⟨_, Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v91_eq]
  obtain ⟨h0, h1, h2, h3, h4, h5, h6, h7, h8, h9⟩ := hagree c
  rw [h0, h1, h2, h3, h4, h5, h6, h7, h8, h9]
  exact Cert.Proof.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
